-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S64x40 : Shape := ⟨2, ![64, 40]⟩
abbrev S40x4 : Shape := ⟨2, ![40, 4]⟩
abbrev S4x40 : Shape := ⟨2, ![4, 40]⟩
abbrev S40x5 : Shape := ⟨2, ![40, 5]⟩
abbrev S9x40 : Shape := ⟨2, ![9, 40]⟩
abbrev S40x64 : Shape := ⟨2, ![40, 64]⟩
abbrev S40x1 : Shape := ⟨2, ![40, 1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x40 : S_.BroadcastsInDim S64x40 (![] : Fin 0 → Fin S64x40.rank)
  reducesTo_S64x40_S_d0_1 : S64x40.ReducesTo [0, 1] S_
  bcast_S_S40x4 : S_.BroadcastsInDim S40x4 (![] : Fin 0 → Fin S40x4.rank)
  reducesTo_S40x4_S_d0_1 : S40x4.ReducesTo [0, 1] S_
  bcast_S_S4x40 : S_.BroadcastsInDim S4x40 (![] : Fin 0 → Fin S4x40.rank)
  reducesTo_S4x40_S_d0_1 : S4x40.ReducesTo [0, 1] S_
  bcast_S_S40x5 : S_.BroadcastsInDim S40x5 (![] : Fin 0 → Fin S40x5.rank)
  reducesTo_S40x5_S_d0_1 : S40x5.ReducesTo [0, 1] S_
  bcast_S_S9x40 : S_.BroadcastsInDim S9x40 (![] : Fin 0 → Fin S9x40.rank)
  reducesTo_S9x40_S_d0_1 : S9x40.ReducesTo [0, 1] S_
  bcast_S_S40x64 : S_.BroadcastsInDim S40x64 (![] : Fin 0 → Fin S40x64.rank)
  reducesTo_S40x64_S_d0_1 : S40x64.ReducesTo [0, 1] S_
  bcast_S_S40x1 : S_.BroadcastsInDim S40x1 (![] : Fin 0 → Fin S40x1.rank)
  reducesTo_S40x1_S_d0_1 : S40x1.ReducesTo [0, 1] S_
  bcast_S_S1048576 : S_.BroadcastsInDim S1048576 (![] : Fin 0 → Fin S1048576.rank)
  reducesTo_S1048576_S_d0 : S1048576.ReducesTo [0] S_

variable [Facts]

def fn_part4 {F : FTy → Type} [FloatOps F] (main_arg1 : IVec S1048576 32) (main_arg15 : FVec F S40x1 .f32) (main_v63 : IVec S_ 1) (main_v67 : IVec S_ 1) : IVec S_ 1 :=
  let main_v68 : IVec S_ 1 := andi main_v63 main_v67
  let main_v69 : FVec F S40x1 .f32 := Host.absf main_arg15
  let main_cst_26 : FVec F S_ .f32 := constant S_ .f32 0x7F800000#32
  let main_v70 : FVec F S40x1 .f32 := broadcastInDim S40x1 ![] bcast_S_S40x1 main_cst_26
  let main_v71 : IVec S40x1 1 := cmpf .olt main_v69 main_v70
  let main_c_27 : IVec S_ 1 := constantI S_ 1 1#1
  let main_v72 : IVec S_ 1 := (fun x v => Host.reduce IntOp.andi x v reducesTo_S40x1_S_d0_1 h_S_) main_v71 main_c_27
  let main_v73 : IVec S_ 1 := andi main_v68 main_v72
  let main_c_28 : IVec S_ 32 := constantI S_ 32 0#32
  let main_v74 : IVec S1048576 32 := broadcastInDim S1048576 ![] bcast_S_S1048576 main_c_28
  let main_v75 : IVec S1048576 1 := cmpi .sge main_arg1 main_v74
  let main_c_29 : IVec S_ 32 := constantI S_ 32 4096#32
  let main_v76 : IVec S1048576 32 := broadcastInDim S1048576 ![] bcast_S_S1048576 main_c_29
  let main_v77 : IVec S1048576 1 := cmpi .slt main_arg1 main_v76
  let main_v78 : IVec S1048576 1 := andi main_v75 main_v77
  let main_c_30 : IVec S_ 1 := constantI S_ 1 1#1
  let main_v79 : IVec S_ 1 := (fun x v => Host.reduce IntOp.andi x v reducesTo_S1048576_S_d0 h_S_) main_v78 main_c_30
  let main_v80 : IVec S_ 1 := andi main_v73 main_v79
  main_v80

def fn_part3 {F : FTy → Type} [FloatOps F] (main_arg1 : IVec S1048576 32) (main_arg12 : FVec F S9x40 .f32) (main_arg13 : FVec F S40x64 .f32) (main_arg14 : FVec F S64x40 .f32) (main_arg15 : FVec F S40x1 .f32) (main_v48 : IVec S_ 1) (main_v49 : FVec F S40x5 .f32) (main_v50 : FVec F S40x5 .f32) : IVec S_ 1 :=
  let main_v51 : IVec S40x5 1 := cmpf .olt main_v49 main_v50
  let main_c_19 : IVec S_ 1 := constantI S_ 1 1#1
  let main_v52 : IVec S_ 1 := (fun x v => Host.reduce IntOp.andi x v reducesTo_S40x5_S_d0_1 h_S_) main_v51 main_c_19
  let main_v53 : IVec S_ 1 := andi main_v48 main_v52
  let main_v54 : FVec F S9x40 .f32 := Host.absf main_arg12
  let main_cst_20 : FVec F S_ .f32 := constant S_ .f32 0x7F800000#32
  let main_v55 : FVec F S9x40 .f32 := broadcastInDim S9x40 ![] bcast_S_S9x40 main_cst_20
  let main_v56 : IVec S9x40 1 := cmpf .olt main_v54 main_v55
  let main_c_21 : IVec S_ 1 := constantI S_ 1 1#1
  let main_v57 : IVec S_ 1 := (fun x v => Host.reduce IntOp.andi x v reducesTo_S9x40_S_d0_1 h_S_) main_v56 main_c_21
  let main_v58 : IVec S_ 1 := andi main_v53 main_v57
  let main_v59 : FVec F S40x64 .f32 := Host.absf main_arg13
  let main_cst_22 : FVec F S_ .f32 := constant S_ .f32 0x7F800000#32
  let main_v60 : FVec F S40x64 .f32 := broadcastInDim S40x64 ![] bcast_S_S40x64 main_cst_22
  let main_v61 : IVec S40x64 1 := cmpf .olt main_v59 main_v60
  let main_c_23 : IVec S_ 1 := constantI S_ 1 1#1
  let main_v62 : IVec S_ 1 := (fun x v => Host.reduce IntOp.andi x v reducesTo_S40x64_S_d0_1 h_S_) main_v61 main_c_23
  let main_v63 : IVec S_ 1 := andi main_v58 main_v62
  let main_v64 : FVec F S64x40 .f32 := Host.absf main_arg14
  let main_cst_24 : FVec F S_ .f32 := constant S_ .f32 0x7F800000#32
  let main_v65 : FVec F S64x40 .f32 := broadcastInDim S64x40 ![] bcast_S_S64x40 main_cst_24
  let main_v66 : IVec S64x40 1 := cmpf .olt main_v64 main_v65
  let main_c_25 : IVec S_ 1 := constantI S_ 1 1#1
  let main_v67 : IVec S_ 1 := (fun x v => Host.reduce IntOp.andi x v reducesTo_S64x40_S_d0_1 h_S_) main_v66 main_c_25
  fn_part4 (F := F) main_arg1 main_arg15 main_v63 main_v67

def fn_part2 {F : FTy → Type} [FloatOps F] (main_arg1 : IVec S1048576 32) (main_arg8 : FVec F S64x40 .f32) (main_arg9 : FVec F S40x4 .f32) (main_arg10 : FVec F S4x40 .f32) (main_arg11 : FVec F S40x5 .f32) (main_arg12 : FVec F S9x40 .f32) (main_arg13 : FVec F S40x64 .f32) (main_arg14 : FVec F S64x40 .f32) (main_arg15 : FVec F S40x1 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40x4 .f32 := Host.absf main_arg9
  let main_cst_14 : FVec F S_ .f32 := constant S_ .f32 0x7F800000#32
  let main_v40 : FVec F S40x4 .f32 := broadcastInDim S40x4 ![] bcast_S_S40x4 main_cst_14
  let main_v41 : IVec S40x4 1 := cmpf .olt main_v39 main_v40
  let main_c_15 : IVec S_ 1 := constantI S_ 1 1#1
  let main_v42 : IVec S_ 1 := (fun x v => Host.reduce IntOp.andi x v reducesTo_S40x4_S_d0_1 h_S_) main_v41 main_c_15
  let main_v43 : IVec S_ 1 := andi main_v38 main_v42
  let main_v44 : FVec F S4x40 .f32 := Host.absf main_arg10
  let main_cst_16 : FVec F S_ .f32 := constant S_ .f32 0x7F800000#32
  let main_v45 : FVec F S4x40 .f32 := broadcastInDim S4x40 ![] bcast_S_S4x40 main_cst_16
  let main_v46 : IVec S4x40 1 := cmpf .olt main_v44 main_v45
  let main_c_17 : IVec S_ 1 := constantI S_ 1 1#1
  let main_v47 : IVec S_ 1 := (fun x v => Host.reduce IntOp.andi x v reducesTo_S4x40_S_d0_1 h_S_) main_v46 main_c_17
  let main_v48 : IVec S_ 1 := andi main_v43 main_v47
  let main_v49 : FVec F S40x5 .f32 := Host.absf main_arg11
  let main_cst_18 : FVec F S_ .f32 := constant S_ .f32 0x7F800000#32
  let main_v50 : FVec F S40x5 .f32 := broadcastInDim S40x5 ![] bcast_S_S40x5 main_cst_18
  fn_part3 (F := F) main_arg1 main_arg12 main_arg13 main_arg14 main_arg15 main_v48 main_v49 main_v50

def fn_part1 {F : FTy → Type} [FloatOps F] (main_arg1 : IVec S1048576 32) (main_arg5 : FVec F S40x5 .f32) (main_arg6 : FVec F S9x40 .f32) (main_arg7 : FVec F S40x64 .f32) (main_arg8 : FVec F S64x40 .f32) (main_arg9 : FVec F S40x4 .f32) (main_arg10 : FVec F S4x40 .f32) (main_arg11 : FVec F S40x5 .f32) (main_arg12 : FVec F S9x40 .f32) (main_arg13 : FVec F S40x64 .f32) (main_arg14 : FVec F S64x40 .f32) (main_arg15 : FVec F S40x1 .f32) (main_v13 : IVec S_ 1) (main_v16 : IVec S4x40 1) : IVec S_ 1 :=
  let main_c_5 : IVec S_ 1 := constantI S_ 1 1#1
  let main_v17 : IVec S_ 1 := (fun x v => Host.reduce IntOp.andi x v reducesTo_S4x40_S_d0_1 h_S_) main_v16 main_c_5
  let main_v18 : IVec S_ 1 := andi main_v13 main_v17
  let main_v19 : FVec F S40x5 .f32 := Host.absf main_arg5
  let main_cst_6 : FVec F S_ .f32 := constant S_ .f32 0x7F800000#32
  let main_v20 : FVec F S40x5 .f32 := broadcastInDim S40x5 ![] bcast_S_S40x5 main_cst_6
  let main_v21 : IVec S40x5 1 := cmpf .olt main_v19 main_v20
  let main_c_7 : IVec S_ 1 := constantI S_ 1 1#1
  let main_v22 : IVec S_ 1 := (fun x v => Host.reduce IntOp.andi x v reducesTo_S40x5_S_d0_1 h_S_) main_v21 main_c_7
  let main_v23 : IVec S_ 1 := andi main_v18 main_v22
  let main_v24 : FVec F S9x40 .f32 := Host.absf main_arg6
  let main_cst_8 : FVec F S_ .f32 := constant S_ .f32 0x7F800000#32
  let main_v25 : FVec F S9x40 .f32 := broadcastInDim S9x40 ![] bcast_S_S9x40 main_cst_8
  let main_v26 : IVec S9x40 1 := cmpf .olt main_v24 main_v25
  let main_c_9 : IVec S_ 1 := constantI S_ 1 1#1
  let main_v27 : IVec S_ 1 := (fun x v => Host.reduce IntOp.andi x v reducesTo_S9x40_S_d0_1 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S1048576x64 .f32) (main_arg1 : IVec S1048576 32) (main_arg2 : FVec F S64x40 .f32) (main_arg3 : FVec F S40x4 .f32) (main_arg4 : FVec F S4x40 .f32) (main_arg5 : FVec F S40x5 .f32) (main_arg6 : FVec F S9x40 .f32) (main_arg7 : FVec F S40x64 .f32) (main_arg8 : FVec F S64x40 .f32) (main_arg9 : FVec F S40x4 .f32) (main_arg10 : FVec F S4x40 .f32) (main_arg11 : FVec F S40x5 .f32) (main_arg12 : FVec F S9x40 .f32) (main_arg13 : FVec F S40x64 .f32) (main_arg14 : FVec F S64x40 .f32) (main_arg15 : FVec F S40x1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x40 .f32 := Host.absf main_arg2
  let main_cst_0 : FVec F S_ .f32 := constant S_ .f32 0x7F800000#32
  let main_v5 : FVec F S64x40 .f32 := broadcastInDim S64x40 ![] bcast_S_S64x40 main_cst_0
  let main_v6 : IVec S64x40 1 := cmpf .olt main_v4 main_v5
  let main_c_1 : IVec S_ 1 := constantI S_ 1 1#1
  let main_v7 : IVec S_ 1 := (fun x v => Host.reduce IntOp.andi x v reducesTo_S64x40_S_d0_1 h_S_) main_v6 main_c_1
  let main_v8 : IVec S_ 1 := andi main_v3 main_v7
  let main_v9 : FVec F S40x4 .f32 := Host.absf main_arg3
  let main_cst_2 : FVec F S_ .f32 := constant S_ .f32 0x7F800000#32
  let main_v10 : FVec F S40x4 .f32 := broadcastInDim S40x4 ![] bcast_S_S40x4 main_cst_2
  let main_v11 : IVec S40x4 1 := cmpf .olt main_v9 main_v10
  let main_c_3 : IVec S_ 1 := constantI S_ 1 1#1
  let main_v12 : IVec S_ 1 := (fun x v => Host.reduce IntOp.andi x v reducesTo_S40x4_S_d0_1 h_S_) main_v11 main_c_3
  let main_v13 : IVec S_ 1 := andi main_v8 main_v12
  let main_v14 : FVec F S4x40 .f32 := Host.absf main_arg4
  let main_cst_4 : FVec F S_ .f32 := constant S_ .f32 0x7F800000#32
  let main_v15 : FVec F S4x40 .f32 := broadcastInDim S4x40 ![] bcast_S_S4x40 main_cst_4
  let main_v16 : IVec S4x40 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S1048576x64 : Shape := ⟨2, ![1048576, 64]⟩
abbrev S1048576 : Shape := ⟨1, ![1048576]⟩
abbrev S64x40 : Shape := ⟨2, ![64, 40]⟩
abbrev S40x4 : Shape := ⟨2, ![40, 4]⟩
abbrev S4x40 : Shape := ⟨2, ![4, 40]⟩
abbrev S40x5 : Shape := ⟨2, ![40, 5]⟩
abbrev S9x40 : Shape := ⟨2, ![9, 40]⟩
abbrev S40x64 : Shape := ⟨2, ![40, 64]⟩
abbrev S40x1 : Shape := ⟨2, ![40, 1]⟩
abbrev S_ : Shape := ⟨0, ![]⟩
abbrev S4x1048576 : Shape := ⟨2, ![4, 1048576]⟩
abbrev S8192x64 : Shape := ⟨2, ![8192, 64]⟩
abbrev S4x8192 : Shape := ⟨2, ![4, 8192]⟩
abbrev S8192x40 : Shape := ⟨2, ![8192, 40]⟩
abbrev S1048576x4 : Shape := ⟨2, ![1048576, 4]⟩
abbrev S4096x4 : Shape := ⟨2, ![4096, 4]⟩
abbrev S1048576x1 : Shape := ⟨2, ![1048576, 1]⟩
abbrev S4096x40 : Shape := ⟨2, ![4096, 40]⟩
abbrev S4096x5 : Shape := ⟨2, ![4096, 5]⟩
abbrev S1 : Shape := ⟨1, ![1]⟩
abbrev S1x1 : Shape := ⟨2, ![1, 1]⟩
abbrev S1048576x5 : Shape := ⟨2, ![1048576, 5]⟩
abbrev S5x1048576 : Shape := ⟨2, ![5, 1048576]⟩
abbrev S5x40 : Shape := ⟨2, ![5, 40]⟩
abbrev S5x8192 : Shape := ⟨2, ![5, 8192]⟩
abbrev S8192x4 : Shape := ⟨2, ![8192, 4]⟩
abbrev S4096x64 : Shape := ⟨2, ![4096, 64]⟩
abbrev S4096x1 : Shape := ⟨2, ![4096, 1]⟩

abbrev nBuf : Space → Nat
  | .hbm => 140
  | .vmem => 32
  | .smem => 0
  | _ => 0

abbrev hbmTy0_0 (i : Nat) : BufTy := match i % 128 with
  | 0 => ⟨S1048576x64, .f32⟩
  | 1 => ⟨S1048576, .i32⟩
  | 2 => ⟨S64x40, .f32⟩
  | 3 => ⟨S40x4, .f32⟩
  | 4 => ⟨S4x40, .f32⟩
  | 5 => ⟨S40x5, .f32⟩
  | 6 => ⟨S9x40, .f32⟩
  | 7 => ⟨S40x64, .f32⟩
  | 8 => ⟨S64x40, .f32⟩
  | 9 => ⟨S40x4, .f32⟩
  | 10 => ⟨S4x40, .f32⟩
  | 11 => ⟨S40x5, .f32⟩
  | 12 => ⟨S9x40, .f32⟩
  | 13 => ⟨S40x64, .f32⟩
  | 14 => ⟨S64x40, .f32⟩
  | 15 => ⟨S40x1, .f32⟩
  | 16 => ⟨S_, .i32⟩
  | 17 => ⟨S_, .i32⟩
  | 18 => ⟨S_, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S4x1048576, .f32⟩
  | 25 => ⟨S1048576x4, .f32⟩
  | 26 => ⟨S_, .f32⟩
  | 27 => ⟨S4096x4, .f32⟩
  | 28 => ⟨S1048576x1, .i32⟩
  | 29 => ⟨S4096x4, .f32⟩
  | 30 => ⟨S4096x40, .f32⟩
  | 31 => ⟨S_, .f32⟩
  | 32 => ⟨S_, .f32⟩
  | 33 => ⟨S4096x40, .f32⟩
  | 34 => ⟨S4096x40, .i1⟩
  | 35 => ⟨S_, .f32⟩
  | 36 => ⟨S4096x40, .f32⟩
  | 37 => ⟨S4096x40, .f32⟩
  | 38 => ⟨S4096x40, .f32⟩
  | 39 => ⟨S4096x5, .f32⟩
  | 40 => ⟨S_, .f32⟩
  | 41 => ⟨S_, .f32⟩
  | 42 => ⟨S4096x5, .f32⟩
  | 43 => ⟨S4096x5, .i1⟩
  | 44 => ⟨S_, .f32⟩
  | 45 => ⟨S4096x5, .f32⟩
  | 46 => ⟨S4096x5, .f32⟩
  | 47 => ⟨S4096x5, .f32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1, .i32⟩
  | 57 => ⟨S_, .i32⟩
  | 58 => ⟨S1048576x1, .i32⟩
  | 59 => ⟨S1048576x1, .i1⟩
  | 60 => ⟨S1x1, .i32⟩
  | 61 => ⟨S1048576x1, .i32⟩
  | 62 => ⟨S1048576x1, .i1⟩
  | 63 => ⟨S1048576x1, .i1⟩
  | 64 => ⟨S_, .i1⟩
  | 65 => ⟨S1048576, .i1⟩
  | 66 => ⟨S1048576x5, .f32⟩
  | 67 => ⟨S1048576x5, .i1⟩
  | 68 => ⟨S_, .f32⟩
  | 69 => ⟨S1048576x5, .f32⟩
  | 70 => ⟨S1048576x5, .f32⟩
  | 71 => ⟨S5x1048576, .f32⟩
  | 72 => ⟨S4x40, .f32⟩
  | 73 => ⟨S5x40, .f32⟩
  | 74 => ⟨S1048576x64, .f32⟩
  | 75 => ⟨S4x1048576, .f32⟩
  | 76 => ⟨S1048576x4, .f32⟩
  | 77 => ⟨S_, .f32⟩
  | 78 => ⟨S4096x4, .f32⟩
  | 79 => ⟨S1048576x1, .i32⟩
  | 80 => ⟨S4096x4, .f32⟩
  | 81 => ⟨S4096x40, .f32⟩
  | 82 => ⟨S_, .f32⟩
  | 83 => ⟨S_, .f32⟩
  | 84 => ⟨S4096x40, .f32⟩
  | 85 => ⟨S4096x40, .i1⟩
  | 86 => ⟨S_, .f32⟩
  | 87 => ⟨S4096x40, .f32⟩
  | 88 => ⟨S4096x40, .f32⟩
  | 89 => ⟨S4096x40, .f32⟩
  | 90 => ⟨S4096x5, .f32⟩
  | 91 => ⟨S_, .f32⟩
  | 92 => ⟨S_, .f32⟩
  | 93 => ⟨S4096x5, .f32⟩
  | 94 => ⟨S4096x5, .i1⟩
  | 95 => ⟨S_, .f32⟩
  | 96 => ⟨S4096x5, .f32⟩
  | 97 => ⟨S4096x5, .f32⟩
  | 98 => ⟨S4096x5, .f32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1, .i32⟩
  | 108 => ⟨S_, .i32⟩
  | 109 => ⟨S1048576x1, .i32⟩
  | 110 => ⟨S1048576x1, .i1⟩
  | 111 => ⟨S1x1, .i32⟩
  | 112 => ⟨S1048576x1, .i32⟩
  | 113 => ⟨S1048576x1, .i1⟩
  | 114 => ⟨S1048576x1, .i1⟩
  | 115 => ⟨S_, .i1⟩
  | 116 => ⟨S1048576, .i1⟩
  | 117 => ⟨S1048576x5, .f32⟩
  | 118 => ⟨S1048576x5, .i1⟩
  | 119 => ⟨S_, .f32⟩
  | 120 => ⟨S1048576x5, .f32⟩
  | 121 => ⟨S1048576x5, .f32⟩
  | 122 => ⟨S5x1048576, .f32⟩
  | 123 => ⟨S4x40, .f32⟩
  | 124 => ⟨S5x40, .f32⟩
  | 125 => ⟨S1048576x64, .f32⟩
  | 126 => ⟨S_, .f32⟩
  | 127 => ⟨S4096x64, .f32⟩
  | _ => ⟨S1048576x64, .f32⟩

abbrev hbmTy0_1 (i : Nat) : BufTy := match i % 128 with
  | 0 => ⟨S1048576x1, .i32⟩
  | 1 => ⟨S4096x64, .f32⟩
  | 2 => ⟨S4096x40, .f32⟩
  | 3 => ⟨S_, .f32⟩
  | 4 => ⟨S_, .f32⟩
  | 5 => ⟨S4096x40, .f32⟩
  | 6 => ⟨S4096x40, .i1⟩
  | 7 => ⟨S_, .f32⟩
  | 8 => ⟨S4096x40, .f32⟩
  | 9 => ⟨S4096x40, .f32⟩
  | 10 => ⟨S4096x40, .f32⟩
  | 11 => ⟨S4096x1, .f32⟩
  | _ => ⟨S1048576x64, .f32⟩

abbrev hbmTy (i : Nat) : BufTy := match i / 128 with
  | 0 => hbmTy0_0 i
  | 1 => hbmTy0_1 i
  | _ => ⟨S1048576x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S64x40, .f32⟩
  | .local _ .vmem, ⟨3, _⟩ => ⟨S40x4, .f32⟩
  | .local _ .vmem, ⟨4, _⟩ => ⟨S4x8192, .f32⟩
  | .local _ .vmem, ⟨5, _⟩ => ⟨S4x8192, .f32⟩
  | .local _ .vmem, ⟨6, _⟩ => ⟨S8192x64, .f32⟩
  | .local _ .vmem, ⟨7, _⟩ => ⟨S8192x64, .f32⟩
  | .local _ .vmem, ⟨8, _⟩ => ⟨S5x8192, .f32⟩
  | .local _ .vmem, ⟨9, _⟩ => ⟨S5x8192, .f32⟩
  | .local _ .vmem, ⟨10, _⟩ => ⟨S64x40, .f32⟩
  | .local _ .vmem, ⟨11, _⟩ => ⟨S40x4, .f32⟩
  | .local _ .vmem, ⟨12, _⟩ => ⟨S4x40, .f32⟩
  | .local _ .vmem, ⟨13, _⟩ => ⟨S5x40, .f32⟩
  | .local _ .vmem, ⟨14, _⟩ => ⟨S40x64, .f32⟩
  | .local _ .vmem, ⟨15, _⟩ => ⟨S64x40, .f32⟩
  | .local _ .vmem, ⟨16, _⟩ => ⟨S40x4, .f32⟩
  | .local _ .vmem, ⟨17, _⟩ => ⟨S8192x64, .f32⟩
  | .local _ .vmem, ⟨18, _⟩ => ⟨S8192x64, .f32⟩
  | .local _ .vmem, ⟨19, _⟩ => ⟨S4x8192, .f32⟩
  | .local _ .vmem, ⟨20, _⟩ => ⟨S4x8192, .f32⟩
  | .local _ .vmem, ⟨21, _⟩ => ⟨S8192x64, .f32⟩
  | .local _ .vmem, ⟨22, _⟩ => ⟨S8192x64, .f32⟩
  | .local _ .vmem, ⟨23, _⟩ => ⟨S5x8192, .f32⟩
  | .local _ .vmem, ⟨24, _⟩ => ⟨S5x8192, .f32⟩
  | .local _ .vmem, ⟨25, _⟩ => ⟨S64x40, .f32⟩
  | .local _ .vmem, ⟨26, _⟩ => ⟨S40x4, .f32⟩
  | .local _ .vmem, ⟨27, _⟩ => ⟨S4x40, .f32⟩
  | .local _ .vmem, ⟨28, _⟩ => ⟨S5x40, .f32⟩
  | .local _ .vmem, ⟨29, _⟩ => ⟨S40x64, .f32⟩
  | .local _ .vmem, ⟨30, _⟩ => ⟨S8192x64, .f32⟩
  | .local _ .vmem, ⟨31, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v9 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_cst : Ref sig .tc := ⟨.hbm, 68, rfl⟩
abbrev main_call3_v15 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14_0 : Ref sig .tc := ⟨.hbm, 74, rfl⟩
abbrev main_v14_1 : Ref sig .tc := ⟨.hbm, 75, rfl⟩
abbrev main_v15 : Ref sig .tc := ⟨.hbm, 76, rfl⟩
abbrev main_cst_3 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_cst_4 : Ref sig .tc := ⟨.hbm, 82, rfl⟩
abbrev main_call4_cst : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_v20 : Ref sig .tc := ⟨.hbm, 89, rfl⟩
abbrev main_v21 : Ref sig .tc := ⟨.hbm, 90, rfl⟩
abbrev main_cst_5 : Ref sig .tc := ⟨.hbm, 91, rfl⟩
abbrev main_call5_cst : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v22 : Ref sig .tc := ⟨.hbm, 98, rfl⟩
abbrev main_call6_c : Ref sig .tc := ⟨.hbm, 99, rfl⟩
abbrev main_call6_v0 : Ref sig .tc := ⟨.hbm, 100, rfl⟩
abbrev main_call6_v1 : Ref sig .tc := ⟨.hbm, 101, rfl⟩
abbrev main_call6_c_0 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_v5 : Ref sig .tc := ⟨.hbm, 106, rfl⟩
abbrev main_call6_c_1 : Ref sig .tc := ⟨.hbm, 107, rfl⟩
abbrev main_call6_c_2 : Ref sig .tc := ⟨.hbm, 108, rfl⟩
abbrev main_call6_v6 : Ref sig .tc := ⟨.hbm, 109, rfl⟩
abbrev main_call6_v7 : Ref sig .tc := ⟨.hbm, 110, rfl⟩
abbrev main_call6_v8 : Ref sig .tc := ⟨.hbm, 111, rfl⟩
abbrev main_call6_v9 : Ref sig .tc := ⟨.hbm, 112, rfl⟩
abbrev main_call6_v10 : Ref sig .tc := ⟨.hbm, 113, rfl⟩
abbrev main_call6_v11 : Ref sig .tc := ⟨.hbm, 114, rfl⟩
abbrev main_call6_c_3 : Ref sig .tc := ⟨.hbm, 115, rfl⟩
abbrev main_call6_v12 : Ref sig .tc := ⟨.hbm, 116, rfl⟩
abbrev main_call6_v13 : Ref sig .tc := ⟨.hbm, 117, rfl⟩
abbrev main_call6_v14 : Ref sig .tc := ⟨.hbm, 118, rfl⟩
abbrev main_call6_cst : Ref sig .tc := ⟨.hbm, 119, rfl⟩
abbrev main_call6_v15 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_cst_6 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_cst_7 : Ref sig .tc := ⟨.hbm, 131, rfl⟩
abbrev main_call7_cst : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v32 : Ref sig .tc := ⟨.hbm, 138, rfl⟩
abbrev main_v33 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S40x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S40x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8192x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x8192 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S40x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S40x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8192x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1048576 : S_.BroadcastsInDim S1048576 (![] : Fin 0 → Fin S1048576.rank)
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x40_S64x40_0_0 : ∀ a, (![0, 0] : Fin 2 → Nat) a + S64x40.size a ≤ S64x40.size a
  h_S64x40 : 0 < S64x40.numel
  inb_S40x4_S40x4_0_0 : ∀ a, (![0, 0] : Fin 2 → Nat) a + S40x4.size a ≤ S40x4.size a
  h_S40x4 : 0 < S40x4.numel
  inb_S4x8192_S4x8192_0_0 : ∀ a, (![0, 0] : Fin 2 → Nat) a + S4x8192.size a ≤ S4x8192.size a
  h_S4x8192 : 0 < S4x8192.numel
  transposes_S4x1048576_S1048576x4_1_0 : S4x1048576.Transposes [1, 0] S1048576x4
  bcast_S_S4096x4 : S_.BroadcastsInDim S4096x4 (![] : Fin 0 → Fin S4096x4.rank)
  bcast_S1048576_S1048576x1_0 : S1048576.BroadcastsInDim S1048576x1 (![0] : Fin 1 → Fin S1048576x1.rank)
  bcast_S_S4096x40 : S_.BroadcastsInDim S4096x40 (![] : Fin 0 → Fin S4096x40.rank)
  bcast_S_S4096x5 : S_.BroadcastsInDim S4096x5 (![] : Fin 0 → Fin S4096x5.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x5_0 : S1048576.BroadcastsInDim S1048576x5 (![0] : Fin 1 → Fin S1048576x5.rank)
  bcast_S_S1048576x5 : S_.BroadcastsInDim S1048576x5 (![] : Fin 0 → Fin S1048576x5.rank)
  transposes_S1048576x5_S5x1048576_1_0 : S1048576x5.Transposes [1, 0] S5x1048576
  slices_S9x40_S4x40_0_0 : S9x40.Slices ![0, 0] S4x40
  slices_S9x40_S5x40_4_0 : S9x40.Slices ![4, 0] S5x40
  inb_S5x8192_S5x8192_0_0 : ∀ a, (![0, 0] : Fin 2 → Nat) a + S5x8192.size a ≤ S5x8192.size a
  h_S5x8192 : 0 < S5x8192.numel
  shapeCasts_S5x8192_S5x8192 : S5x8192.ShapeCasts S5x8192
  inb_S5x40_S5x40_0_0 : ∀ a, (![0, 0] : Fin 2 → Nat) a + S5x40.size a ≤ S5x40.size a
  h_S5x40 : 0 < S5x40.numel
  shapeCasts_S5x40_S5x40 : S5x40.ShapeCasts S5x40
  inb_S4x40_S4x40_0_0 : ∀ a, (![0, 0] : Fin 2 → Nat) a + S4x40.size a ≤ S4x40.size a
  h_S4x40 : 0 < S4x40.numel
  shapeCasts_S4x40_S4x40 : S4x40.ShapeCasts S4x40
  inb_S40x64_S40x64_0_0 : ∀ a, (![0, 0] : Fin 2 → Nat) a + S40x64.size a ≤ S40x64.size a
  h_S40x64 : 0 < S40x64.numel
  shapeCasts_S8192x64_S8192x64 : S8192x64.ShapeCasts S8192x64
  bcast_S_S4096x64 : S_.BroadcastsInDim S4096x64 (![] : Fin 0 → Fin S4096x64.rank)
  dot_S8192x64_S64x40_S8192x40_1_0_0_1_n_n_wf : DotDims.WF S8192x64 S64x40 S8192x40 [1] [0] [0] [1] [] []
  dot_S40x4_S8192x40_S4x8192_0_1_1_0_n_n_wf : DotDims.WF S40x4 S8192x40 S4x8192 [0] [1] [1] [0] [] []
  scatter_S4096x4_S1048576x1_S1048576x4_1_0_0_1_wf : ScatterDims.WF S4096x4 S1048576x1 S1048576x4 [1] [0] [0] 1
  dot_S4096x4_S4x40_S4096x40_1_0_0_1_n_n_wf : DotDims.WF S4096x4 S4x40 S4096x40 [1] [0] [0] [1] [] []
  dot_S4096x40_S40x5_S4096x5_1_0_0_1_n_n_wf : DotDims.WF S4096x40 S40x5 S4096x5 [1] [0] [0] [1] [] []
  gather_S4096x5_S1048576x1_S1048576x5_1_0_n_n_0_1_15_wf : GatherDims.WF S4096x5 S1048576x1 S1048576x5 [1] [0] [] [0] [] 1 ![1, 5]
  dot_S8192x40_S40x4_S8192x4_1_0_0_1_n_n_wf : DotDims.WF S8192x40 S40x4 S8192x4 [1] [0] [0] [1] [] []
  dot_S5x8192_S5x40_S8192x40_0_0_1_1_n_n_wf : DotDims.WF S5x8192 S5x40 S8192x40 [0] [0] [1] [1] [] []
  dot_S8192x4_S4x40_S8192x40_1_0_0_1_n_n_wf : DotDims.WF S8192x4 S4x40 S8192x40 [1] [0] [0] [1] [] []
  dot_S8192x40_S40x64_S8192x64_1_0_0_1_n_n_wf : DotDims.WF S8192x40 S40x64 S8192x64 [1] [0] [0] [1] [] []
  scatter_S4096x64_S1048576x1_S1048576x64_1_0_0_1_wf : ScatterDims.WF S4096x64 S1048576x1 S1048576x64 [1] [0] [0] 1
  dot_S4096x64_S64x40_S4096x40_1_0_0_1_n_n_wf : DotDims.WF S4096x64 S64x40 S4096x40 [1] [0] [0] [1] [] []
  dot_S4096x40_S40x1_S4096x1_1_0_0_1_n_n_wf : DotDims.WF S4096x40 S40x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x40.size a ≤ S64x40.size a
  hwx0_1 : ∀ i : grid0.Coords, EltTy.bits .f32 = 32 ∨ (Rect.block (s := S64x40) S64x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x4.size a ≤ S40x4.size a
  hwx0_2 : ∀ i : grid0.Coords, EltTy.bits .f32 = 32 ∨ (Rect.block (s := S40x4) S40x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x8192.size a ≤ S4x1048576.size a
  hwx0_3 : ∀ i : grid0.Coords, EltTy.bits .f32 = 32 ∨ (Rect.block (s := S4x1048576) S4x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1048576x64.size a
  hwx1_0 : ∀ i : grid1.Coords, EltTy.bits .f32 = 32 ∨ (Rect.block (s := S1048576x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5x8192.size a ≤ S5x1048576.size a
  hwx1_1 : ∀ i : grid1.Coords, EltTy.bits .f32 = 32 ∨ (Rect.block (s := S5x1048576) S5x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x4.size a ≤ S40x4.size a
  hwx1_3 : ∀ i : grid1.Coords, EltTy.bits .f32 = 32 ∨ (Rect.block (s := S40x4) S40x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x40.size a ≤ S4x40.size a
  hwx1_4 : ∀ i : grid1.Coords, EltTy.bits .f32 = 32 ∨ (Rect.block (s := S4x40) S4x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x40.size a ≤ S5x40.size a
  hwx1_5 : ∀ i : grid1.Coords, EltTy.bits .f32 = 32 ∨ (Rect.block (s := S5x40) S5x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S40x64.size a ≤ S40x64.size a
  hwx1_6 : ∀ i : grid1.Coords, EltTy.bits .f32 = 32 ∨ (Rect.block (s := S40x64) S40x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x40.size a ≤ S64x40.size a
  hwx1_7 : ∀ i : grid1.Coords, EltTy.bits .f32 = 32 ∨ (Rect.block (s := S64x40) S64x40.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S40x4.size a ≤ S40x4.size a
  hwx1_8 : ∀ i : grid1.Coords, EltTy.bits .f32 = 32 ∨ (Rect.block (s := S40x4) S40x4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8192x64.size a ≤ S1048576x64.size a
  hwx1_9 : ∀ i : grid1.Coords, EltTy.bits .f32 = 32 ∨ (Rect.block (s := S1048576x64) S8192x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4x8192.size a ≤ S4x1048576.size a
  hwx1_10 : ∀ i : grid1.Coords, EltTy.bits .f32 = 32 ∨ (Rect.block (s := S4x1048576) S4x8192.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1048576x64.size a
  hwx2_0 : ∀ i : grid2.Coords, EltTy.bits .f32 = 32 ∨ (Rect.block (s := S1048576x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5x8192.size a ≤ S5x1048576.size a
  hwx2_1 : ∀ i : grid2.Coords, EltTy.bits .f32 = 32 ∨ (Rect.block (s := S5x1048576) S5x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40x4.size a ≤ S40x4.size a
  hwx2_3 : ∀ i : grid2.Coords, EltTy.bits .f32 = 32 ∨ (Rect.block (s := S40x4) S40x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x40.size a ≤ S4x40.size a
  hwx2_4 : ∀ i : grid2.Coords, EltTy.bits .f32 = 32 ∨ (Rect.block (s := S4x40) S4x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x40.size a ≤ S5x40.size a
  hwx2_5 : ∀ i : grid2.Coords, EltTy.bits .f32 = 32 ∨ (Rect.block (s := S5x40) S5x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S40x64.size a ≤ S40x64.size a
  hwx2_6 : ∀ i : grid2.Coords, EltTy.bits .f32 = 32 ∨ (Rect.block (s := S40x64) S40x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8192x64.size a ≤ S1048576x64.size a
  hwx2_7 : ∀ i : grid2.Coords, EltTy.bits .f32 = 32 ∨ (Rect.block (s := S1048576x64) S8192x64.size (cc2_transform_7 i) (hinb2_7 i)).WholeWords (EltTy.packing .f32)

variable [Facts₀]

def dot_S8192x64_S64x40_S8192x40_1_0_0_1_n_n : DotDims S8192x64 S64x40 S8192x40 where
  lhsContracting := [1]
  rhsContracting := [0]
  lhsNonContracting := [0]
  rhsNonContracting := [1]
  lhsBatch := []
  rhsBatch := []
  wf := dot_S8192x64_S64x40_S8192x40_1_0_0_1_n_n_wf
def dot_S40x4_S8192x40_S4x8192_0_1_1_0_n_n : DotDims S40x4 S8192x40 S4x8192 where
  lhsContracting := [0]
  rhsContracting := [1]
  lhsNonContracting := [1]
  rhsNonContracting := [0]
  lhsBatch := []
  rhsBatch := []
  wf := dot_S40x4_S8192x40_S4x8192_0_1_1_0_n_n_wf
def scatter_S4096x4_S1048576x1_S1048576x4_1_0_0_1 : ScatterDims S4096x4 S1048576x1 S1048576x4 where
  updateWindowDims := [1]
  insertedWindowDims := [0]
  scatterDimsToOperandDims := [0]
  indexVectorDim := 1
  wf := scatter_S4096x4_S1048576x1_S1048576x4_1_0_0_1_wf
def dot_S4096x4_S4x40_S4096x40_1_0_0_1_n_n : DotDims S4096x4 S4x40 S4096x40 where
  lhsContracting := [1]
  rhsContracting := [0]
  lhsNonContracting := [0]
  rhsNonContracting := [1]
  lhsBatch := []
  rhsBatch := []
  wf := dot_S4096x4_S4x40_S4096x40_1_0_0_1_n_n_wf
def dot_S4096x40_S40x5_S4096x5_1_0_0_1_n_n : DotDims S4096x40 S40x5 S4096x5 where
  lhsContracting := [1]
  rhsContracting := [0]
  lhsNonContracting := [0]
  rhsNonContracting := [1]
  lhsBatch := []
  rhsBatch := []
  wf := dot_S4096x40_S40x5_S4096x5_1_0_0_1_n_n_wf
def gather_S4096x5_S1048576x1_S1048576x5_1_0_n_n_0_1_15 : GatherDims S4096x5 S1048576x1 S1048576x5 where
  offsetDims := [1]
  collapsedSliceDims := [0]
  operandBatchingDims := []
  startIndicesBatchingDims := []
  startIndexMap := [0]
  indexVectorDim := 1
  sliceSizes := ![1, 5]
  wf := gather_S4096x5_S1048576x1_S1048576x5_1_0_n_n_0_1_15_wf
def dot_S8192x40_S40x4_S8192x4_1_0_0_1_n_n : DotDims S8192x40 S40x4 S8192x4 where
  lhsContracting := [1]
  rhsContracting := [0]
  lhsNonContracting := [0]
  rhsNonContracting := [1]
  lhsBatch := []
  rhsBatch := []
  wf := dot_S8192x40_S40x4_S8192x4_1_0_0_1_n_n_wf
def dot_S5x8192_S5x40_S8192x40_0_0_1_1_n_n : DotDims S5x8192 S5x40 S8192x40 where
  lhsContracting := [0]
  rhsContracting := [0]
  lhsNonContracting := [1]
  rhsNonContracting := [1]
  lhsBatch := []
  rhsBatch := []
  wf := dot_S5x8192_S5x40_S8192x40_0_0_1_1_n_n_wf
def dot_S8192x4_S4x40_S8192x40_1_0_0_1_n_n : DotDims S8192x4 S4x40 S8192x40 where
  lhsContracting := [1]
  rhsContracting := [0]
  lhsNonContracting := [0]
  rhsNonContracting := [1]
  lhsBatch := []
  rhsBatch := []
  wf := dot_S8192x4_S4x40_S8192x40_1_0_0_1_n_n_wf
def dot_S8192x40_S40x64_S8192x64_1_0_0_1_n_n : DotDims S8192x40 S40x64 S8192x64 where
  lhsContracting := [1]
  rhsContracting := [0]
  lhsNonContracting := [0]
  rhsNonContracting := [1]
  lhsBatch := []
  rhsBatch := []
  wf := dot_S8192x40_S40x64_S8192x64_1_0_0_1_n_n_wf
def scatter_S4096x64_S1048576x1_S1048576x64_1_0_0_1 : ScatterDims S4096x64 S1048576x1 S1048576x64 where
  updateWindowDims := [1]
  insertedWindowDims := [0]
  scatterDimsToOperandDims := [0]
  indexVectorDim := 1
  wf := scatter_S4096x64_S1048576x1_S1048576x64_1_0_0_1_wf
def dot_S4096x64_S64x40_S4096x40_1_0_0_1_n_n : DotDims S4096x64 S64x40 S4096x40 where
  lhsContracting := [1]
  rhsContracting := [0]
  lhsNonContracting := [0]
  rhsNonContracting := [1]
  lhsBatch := []
  rhsBatch := []
  wf := dot_S4096x64_S64x40_S4096x40_1_0_0_1_n_n_wf
def dot_S4096x40_S40x1_S4096x1_1_0_0_1_n_n : DotDims S4096x40 S40x1 S4096x1 where
  lhsContracting := [1]
  rhsContracting := [0]
  lhsNonContracting := [0]
  rhsNonContracting := [1]
  lhsBatch := []
  rhsBatch := []
  wf := dot_S4096x40_S40x1_S4096x1_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S40x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S40x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S4x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S5x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S40x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S40x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14_0) S8192x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v14_1) S4x8192.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v14_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S40x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S4x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S40x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S8192x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S64x40 : Shape := ⟨2, ![64, 40]⟩
abbrev S40x4 : Shape := ⟨2, ![40, 4]⟩
abbrev S4x40 : Shape := ⟨2, ![4, 40]⟩
abbrev S40x5 : Shape := ⟨2, ![40, 5]⟩
abbrev S9x40 : Shape := ⟨2, ![9, 40]⟩
abbrev S40x64 : Shape := ⟨2, ![40, 64]⟩
abbrev S40x1 : Shape := ⟨2, ![40, 1]⟩
abbrev S1048576x40 : Shape := ⟨2, ![1048576, 40]⟩
abbrev S_ : Shape := ⟨0, ![]⟩
abbrev S1048576x4 : Shape := ⟨2, ![1048576, 4]⟩
abbrev S4096x4 : Shape := ⟨2, ![4096, 4]⟩
abbrev S1048576x1 : Shape := ⟨2, ![1048576, 1]⟩
abbrev S4096x40 : Shape := ⟨2, ![4096, 40]⟩
abbrev S4096x5 : Shape := ⟨2, ![4096, 5]⟩
abbrev S1048576x5 : Shape := ⟨2, ![1048576, 5]⟩
abbrev S1048576x9 : Shape := ⟨2, ![1048576, 9]⟩
abbrev S4096x64 : Shape := ⟨2, ![4096, 64]⟩
abbrev S4096x1 : Shape := ⟨2, ![4096, 1]⟩

abbrev nBuf : Space → Nat
  | .hbm => 154
  | .vmem => 0
  | .smem => 0
  | _ => 0

abbrev hbmTy0_0 (i : Nat) : BufTy := match i % 128 with
  | 0 => ⟨S1048576x64, .f32⟩
  | 1 => ⟨S1048576, .i32⟩
  | 2 => ⟨S64x40, .f32⟩
  | 3 => ⟨S40x4, .f32⟩
  | 4 => ⟨S4x40, .f32⟩
  | 5 => ⟨S40x5, .f32⟩
  | 6 => ⟨S9x40, .f32⟩
  | 7 => ⟨S40x64, .f32⟩
  | 8 => ⟨S64x40, .f32⟩
  | 9 => ⟨S40x4, .f32⟩
  | 10 => ⟨S4x40, .f32⟩
  | 11 => ⟨S40x5, .f32⟩
  | 12 => ⟨S9x40, .f32⟩
  | 13 => ⟨S40x64, .f32⟩
  | 14 => ⟨S64x40, .f32⟩
  | 15 => ⟨S40x1, .f32⟩
  | 16 => ⟨S1048576x40, .f32⟩
  | 17 => ⟨S_, .f32⟩
  | 18 => ⟨S_, .f32⟩
  | 19 => ⟨S1048576x40, .f32⟩
  | 20 => ⟨S1048576x40, .i1⟩
  | 21 => ⟨S_, .f32⟩
  | 22 => ⟨S1048576x40, .f32⟩
  | 23 => ⟨S1048576x40, .f32⟩
  | 24 => ⟨S1048576x40, .f32⟩
  | 25 => ⟨S1048576x4, .f32⟩
  | 26 => ⟨S_, .f32⟩
  | 27 => ⟨S_, .f32⟩
  | 28 => ⟨S1048576x4, .f32⟩
  | 29 => ⟨S1048576x4, .i1⟩
  | 30 => ⟨S_, .f32⟩
  | 31 => ⟨S1048576x4, .f32⟩
  | 32 => ⟨S1048576x4, .f32⟩
  | 33 => ⟨S1048576x4, .f32⟩
  | 34 => ⟨S_, .f32⟩
  | 35 => ⟨S4096x4, .f32⟩
  | 36 => ⟨S1048576x1, .i32⟩
  | 37 => ⟨S4096x4, .f32⟩
  | 38 => ⟨S4096x40, .f32⟩
  | 39 => ⟨S_, .f32⟩
  | 40 => ⟨S_, .f32⟩
  | 41 => ⟨S4096x40, .f32⟩
  | 42 => ⟨S4096x40, .i1⟩
  | 43 => ⟨S_, .f32⟩
  | 44 => ⟨S4096x40, .f32⟩
  | 45 => ⟨S4096x40, .f32⟩
  | 46 => ⟨S4096x40, .f32⟩
  | 47 => ⟨S4096x5, .f32⟩
  | 48 => ⟨S_, .f32⟩
  | 49 => ⟨S_, .f32⟩
  | 50 => ⟨S4096x5, .f32⟩
  | 51 => ⟨S4096x5, .i1⟩
  | 52 => ⟨S_, .f32⟩
  | 53 => ⟨S4096x5, .f32⟩
  | 54 => ⟨S4096x5, .f32⟩
  | 55 => ⟨S4096x5, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x5, .f32⟩
  | 65 => ⟨S1048576x9, .f32⟩
  | 66 => ⟨S1048576x40, .f32⟩
  | 67 => ⟨S_, .f32⟩
  | 68 => ⟨S_, .f32⟩
  | 69 => ⟨S1048576x40, .f32⟩
  | 70 => ⟨S1048576x40, .i1⟩
  | 71 => ⟨S_, .f32⟩
  | 72 => ⟨S1048576x40, .f32⟩
  | 73 => ⟨S1048576x40, .f32⟩
  | 74 => ⟨S1048576x40, .f32⟩
  | 75 => ⟨S1048576x64, .f32⟩
  | 76 => ⟨S1048576x64, .f32⟩
  | 77 => ⟨S1048576x64, .f32⟩
  | 78 => ⟨S1048576x40, .f32⟩
  | 79 => ⟨S_, .f32⟩
  | 80 => ⟨S_, .f32⟩
  | 81 => ⟨S1048576x40, .f32⟩
  | 82 => ⟨S1048576x40, .i1⟩
  | 83 => ⟨S_, .f32⟩
  | 84 => ⟨S1048576x40, .f32⟩
  | 85 => ⟨S1048576x40, .f32⟩
  | 86 => ⟨S1048576x40, .f32⟩
  | 87 => ⟨S1048576x4, .f32⟩
  | 88 => ⟨S_, .f32⟩
  | 89 => ⟨S_, .f32⟩
  | 90 => ⟨S1048576x4, .f32⟩
  | 91 => ⟨S1048576x4, .i1⟩
  | 92 => ⟨S_, .f32⟩
  | 93 => ⟨S1048576x4, .f32⟩
  | 94 => ⟨S1048576x4, .f32⟩
  | 95 => ⟨S1048576x4, .f32⟩
  | 96 => ⟨S_, .f32⟩
  | 97 => ⟨S4096x4, .f32⟩
  | 98 => ⟨S1048576x1, .i32⟩
  | 99 => ⟨S4096x4, .f32⟩
  | 100 => ⟨S4096x40, .f32⟩
  | 101 => ⟨S_, .f32⟩
  | 102 => ⟨S_, .f32⟩
  | 103 => ⟨S4096x40, .f32⟩
  | 104 => ⟨S4096x40, .i1⟩
  | 105 => ⟨S_, .f32⟩
  | 106 => ⟨S4096x40, .f32⟩
  | 107 => ⟨S4096x40, .f32⟩
  | 108 => ⟨S4096x40, .f32⟩
  | 109 => ⟨S4096x5, .f32⟩
  | 110 => ⟨S_, .f32⟩
  | 111 => ⟨S_, .f32⟩
  | 112 => ⟨S4096x5, .f32⟩
  | 113 => ⟨S4096x5, .i1⟩
  | 114 => ⟨S_, .f32⟩
  | 115 => ⟨S4096x5, .f32⟩
  | 116 => ⟨S4096x5, .f32⟩
  | 117 => ⟨S4096x5, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x5, .f32⟩
  | 127 => ⟨S1048576x9, .f32⟩
  | _ => ⟨S1048576x64, .f32⟩

abbrev hbmTy0_1 (i : Nat) : BufTy := match i % 128 with
  | 0 => ⟨S1048576x40, .f32⟩
  | 1 => ⟨S_, .f32⟩
  | 2 => ⟨S_, .f32⟩
  | 3 => ⟨S1048576x40, .f32⟩
  | 4 => ⟨S1048576x40, .i1⟩
  | 5 => ⟨S_, .f32⟩
  | 6 => ⟨S1048576x40, .f32⟩
  | 7 => ⟨S1048576x40, .f32⟩
  | 8 => ⟨S1048576x40, .f32⟩
  | 9 => ⟨S1048576x64, .f32⟩
  | 10 => ⟨S1048576x64, .f32⟩
  | 11 => ⟨S1048576x64, .f32⟩
  | 12 => ⟨S_, .f32⟩
  | 13 => ⟨S4096x64, .f32⟩
  | 14 => ⟨S1048576x1, .i32⟩
  | 15 => ⟨S4096x64, .f32⟩
  | 16 => ⟨S4096x40, .f32⟩
  | 17 => ⟨S_, .f32⟩
  | 18 => ⟨S_, .f32⟩
  | 19 => ⟨S4096x40, .f32⟩
  | 20 => ⟨S4096x40, .i1⟩
  | 21 => ⟨S_, .f32⟩
  | 22 => ⟨S4096x40, .f32⟩
  | 23 => ⟨S4096x40, .f32⟩
  | 24 => ⟨S4096x40, .f32⟩
  | 25 => ⟨S4096x1, .f32⟩
  | _ => ⟨S1048576x64, .f32⟩

abbrev hbmTy (i : Nat) : BufTy := match i / 128 with
  | 0 => hbmTy0_0 i
  | 1 => hbmTy0_1 i
  | _ => ⟨S1048576x64, .f32⟩

abbrev bufTy : (tb : Table) → Fin (tcTables nBuf tb) → BufTy
  | .hbm, ⟨i, _⟩ => hbmTy i
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v8 : Ref sig .tc := ⟨.hbm, 46, rfl⟩
abbrev main_v9 : Ref sig .tc := ⟨.hbm, 47, rfl⟩
abbrev main_cst_3 : Ref sig .tc := ⟨.hbm, 48, rfl⟩
abbrev main_call3_cst : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v10 : Ref sig .tc := ⟨.hbm, 55, rfl⟩
abbrev main_c : Ref sig .tc := ⟨.hbm, 56, rfl⟩
abbrev main_v11 : Ref sig .tc := ⟨.hbm, 57, rfl⟩
abbrev main_v12 : Ref sig .tc := ⟨.hbm, 58, rfl⟩
abbrev main_c_4 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_5 : Ref sig .tc := ⟨.hbm, 67, rfl⟩
abbrev main_call4_cst : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_6 : Ref sig .tc := ⟨.hbm, 79, rfl⟩
abbrev main_call5_cst : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v25 : Ref sig .tc := ⟨.hbm, 86, rfl⟩
abbrev main_v26 : Ref sig .tc := ⟨.hbm, 87, rfl⟩
abbrev main_cst_7 : Ref sig .tc := ⟨.hbm, 88, rfl⟩
abbrev main_call6_cst : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_v27 : Ref sig .tc := ⟨.hbm, 95, rfl⟩
abbrev main_cst_8 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_cst_9 : Ref sig .tc := ⟨.hbm, 101, rfl⟩
abbrev main_call7_cst : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_v32 : Ref sig .tc := ⟨.hbm, 108, rfl⟩
abbrev main_v33 : Ref sig .tc := ⟨.hbm, 109, rfl⟩
abbrev main_cst_10 : Ref sig .tc := ⟨.hbm, 110, rfl⟩
abbrev main_call8_cst : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_v34 : Ref sig .tc := ⟨.hbm, 117, rfl⟩
abbrev main_c_11 : Ref sig .tc := ⟨.hbm, 118, rfl⟩
abbrev main_v35 : Ref sig .tc := ⟨.hbm, 119, rfl⟩
abbrev main_v36 : Ref sig .tc := ⟨.hbm, 120, rfl⟩
abbrev main_c_12 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_cst_13 : Ref sig .tc := ⟨.hbm, 129, rfl⟩
abbrev main_call9_cst : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_cst_14 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_cst_15 : Ref sig .tc := ⟨.hbm, 145, rfl⟩
abbrev main_call10_cst : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_v52 : Ref sig .tc := ⟨.hbm, 152, rfl⟩
abbrev main_v53 : Ref sig .tc := ⟨.hbm, 153, rfl⟩

abbrev nD : Nat := 1
abbrev τ : Topo := Topo.v7x

variable {F : FTy → Type} [FloatOps F]

class Facts₀ : Prop where
  bcast_S_S1048576x40 : S_.BroadcastsInDim S1048576x40 (![] : Fin 0 → Fin S1048576x40.rank)
  bcast_S_S1048576x4 : S_.BroadcastsInDim S1048576x4 (![] : Fin 0 → Fin S1048576x4.rank)
  bcast_S_S4096x4 : S_.BroadcastsInDim S4096x4 (![] : Fin 0 → Fin S4096x4.rank)
  bcast_S1048576_S1048576x1_0 : S1048576.BroadcastsInDim S1048576x1 (![0] : Fin 1 → Fin S1048576x1.rank)
  bcast_S_S4096x40 : S_.BroadcastsInDim S4096x40 (![] : Fin 0 → Fin S4096x40.rank)
  bcast_S_S4096x5 : S_.BroadcastsInDim S4096x5 (![] : Fin 0 → Fin S4096x5.rank)
  bcast_S_S1048576 : S_.BroadcastsInDim S1048576 (![] : Fin 0 → Fin S1048576.rank)
  concatenates_S1048576x4_S1048576x5_S1048576x9_d1 : Shape.Concatenates [S1048576x4, S1048576x5] S1048576x9 1
  bcast_S_S4096x64 : S_.BroadcastsInDim S4096x64 (![] : Fin 0 → Fin S4096x64.rank)
  dot_S1048576x64_S64x40_S1048576x40_1_0_0_1_n_n_wf : DotDims.WF S1048576x64 S64x40 S1048576x40 [1] [0] [0] [1] [] []
  dot_S1048576x40_S40x4_S1048576x4_1_0_0_1_n_n_wf : DotDims.WF S1048576x40 S40x4 S1048576x4 [1] [0] [0] [1] [] []
  scatter_S4096x4_S1048576x1_S1048576x4_1_0_0_1_wf : ScatterDims.WF S4096x4 S1048576x1 S1048576x4 [1] [0] [0] 1
  dot_S4096x4_S4x40_S4096x40_1_0_0_1_n_n_wf : DotDims.WF S4096x4 S4x40 S4096x40 [1] [0] [0] [1] [] []
  dot_S4096x40_S40x5_S4096x5_1_0_0_1_n_n_wf : DotDims.WF S4096x40 S40x5 S4096x5 [1] [0] [0] [1] [] []
  gather_S4096x5_S1048576x1_S1048576x5_1_0_n_n_0_1_15_wf : GatherDims.WF S4096x5 S1048576x1 S1048576x5 [1] [0] [] [0] [] 1 ![1, 5]
  dot_S1048576x9_S9x40_S1048576x40_1_0_0_1_n_n_wf : DotDims.WF S1048576x9 S9x40 S1048576x40 [1] [0] [0] [1] [] []
  dot_S1048576x40_S40x64_S1048576x64_1_0_0_1_n_n_wf : DotDims.WF S1048576x40 S40x64 S1048576x64 [1] [0] [0] [1] [] []
  scatter_S4096x64_S1048576x1_S1048576x64_1_0_0_1_wf : ScatterDims.WF S4096x64 S1048576x1 S1048576x64 [1] [0] [0] 1
  dot_S4096x64_S64x40_S4096x40_1_0_0_1_n_n_wf : DotDims.WF S4096x64 S64x40 S4096x40 [1] [0] [0] [1] [] []
  dot_S4096x40_S40x1_S4096x1_1_0_0_1_n_n_wf : DotDims.WF S4096x40 S40x1 S4096x1 [1] [0] [0] [1] [] []

variable [Facts₀]

def dot_S1048576x64_S64x40_S1048576x40_1_0_0_1_n_n : DotDims S1048576x64 S64x40 S1048576x40 where
  lhsContracting := [1]
  rhsContracting := [0]
  lhsNonContracting := [0]
  rhsNonContracting := [1]
  lhsBatch := []
  rhsBatch := []
  wf := dot_S1048576x64_S64x40_S1048576x40_1_0_0_1_n_n_wf
def dot_S1048576x40_S40x4_S1048576x4_1_0_0_1_n_n : DotDims S1048576x40 S40x4 S1048576x4 where
  lhsContracting := [1]
  rhsContracting := [0]
  lhsNonContracting := [0]
  rhsNonContracting := [1]
  lhsBatch := []
  rhsBatch := []
  wf := dot_S1048576x40_S40x4_S1048576x4_1_0_0_1_n_n_wf
def scatter_S4096x4_S1048576x1_S1048576x4_1_0_0_1 : ScatterDims S4096x4 S1048576x1 S1048576x4 where
  updateWindowDims := [1]
  insertedWindowDims := [0]
  scatterDimsToOperandDims := [0]
  indexVectorDim := 1
  wf := scatter_S4096x4_S1048576x1_S1048576x4_1_0_0_1_wf
def dot_S4096x4_S4x40_S4096x40_1_0_0_1_n_n : DotDims S4096x4 S4x40 S4096x40 where
  lhsContracting := [1]
  rhsContracting := [0]
  lhsNonContracting := [0]
  rhsNonContracting := [1]
  lhsBatch := []
  rhsBatch := []
  wf := dot_S4096x4_S4x40_S4096x40_1_0_0_1_n_n_wf
def dot_S4096x40_S40x5_S4096x5_1_0_0_1_n_n : DotDims S4096x40 S40x5 S4096x5 where
  lhsContracting := [1]
  rhsContracting := [0]
  lhsNonContracting := [0]
  rhsNonContracting := [1]
  lhsBatch := []
  rhsBatch := []
  wf := dot_S4096x40_S40x5_S4096x5_1_0_0_1_n_n_wf
def gather_S4096x5_S1048576x1_S1048576x5_1_0_n_n_0_1_15 : GatherDims S4096x5 S1048576x1 S1048576x5 where
  offsetDims := [1]
  collapsedSliceDims := [0]
  operandBatchingDims := []
  startIndicesBatchingDims := []
  startIndexMap := [0]
  indexVectorDim := 1
  sliceSizes := ![1, 5]
  wf := gather_S4096x5_S1048576x1_S1048576x5_1_0_n_n_0_1_15_wf
def dot_S1048576x9_S9x40_S1048576x40_1_0_0_1_n_n : DotDims S1048576x9 S9x40 S1048576x40 where
  lhsContracting := [1]
  rhsContracting := [0]
  lhsNonContracting := [0]
  rhsNonContracting := [1]
  lhsBatch := []
  rhsBatch := []
  wf := dot_S1048576x9_S9x40_S1048576x40_1_0_0_1_n_n_wf
def dot_S1048576x40_S40x64_S1048576x64_1_0_0_1_n_n : DotDims S1048576x40 S40x64 S1048576x64 where
  lhsContracting := [1]
  rhsContracting := [0]
  lhsNonContracting := [0]
  rhsNonContracting := [1]
  lhsBatch := []
  rhsBatch := []
  wf := dot_S1048576x40_S40x64_S1048576x64_1_0_0_1_n_n_wf
def scatter_S4096x64_S1048576x1_S1048576x64_1_0_0_1 : ScatterDims S4096x64 S1048576x1 S1048576x64 where
  updateWindowDims := [1]
  insertedWindowDims := [0]
  scatterDimsToOperandDims := [0]
  indexVectorDim := 1
  wf := scatter_S4096x64_S1048576x1_S1048576x64_1_0_0_1_wf
def dot_S4096x64_S64x40_S4096x40_1_0_0_1_n_n : DotDims S4096x64 S64x40 S4096x40 where
  lhsContracting := [1]
  rhsContracting := [0]
  lhsNonContracting := [0]
  rhsNonContracting := [1]
  lhsBatch := []
  rhsBatch := []
  wf := dot_S4096x64_S64x40_S4096x40_1_0_0_1_n_n_wf
def dot_S4096x40_S40x1_S4096x1_1_0_0_1_n_n : DotDims S4096x40 S40x1 S4096x1 where
  lhsContracting := [1]
  rhsContracting := [0]
  lhsNonContracting := [0]
  rhsNonContracting := [1]
  lhsBatch := []
  rhsBatch := []
  wf := dot_S4096x40_S40x1_S4096x1_1_0_0_1_n_n_wf

class Facts : Prop extends Facts₀ where

variable [Facts]
-- ==== Proof.Spec.lean ====
/-
  The mathematics both programs compute, as functions of the argument arrays over the extended reals.

  A node array x : [N, 64] passes through two rounds of a message-passing update and is then pooled per graph.
  One round, with weights (ew1, ew2, gw1, gw2, ow1, ow2):
    e   = lrelu (lrelu (x · ew1) · ew2)                       : [N, 4]     (per node)
    a   = the sum of e over the nodes of each graph          : [G, 4]     (a scatter-add by the graph ids)
    g   = lrelu (lrelu (a · gw1) · gw2)                       : [G, 5]     (per graph)
    gb  = g read back at each node's graph id                : [N, 5]
    x'  = x + (x + lrelu ([e | gb] · ow1) · ow2)              : [N, 64]
  where lrelu v = v if v ≥ 0, else c · v with c the 32-bit float nearest 0.01, and [e | gb] · ow1 is the sum of
  e against the first four rows of ow1 and gb against its last five. This file states e and x' entry by entry
  (the graph-level steps are carried as the operations themselves), and the two scalar laws the comparison of
  the programs needs: doubling is adding a number to itself, on every extended real, and a nine-term sum
  splits into its first four and last five terms.
-/
import Idealize.ShloMosaic.PureOps.Ideal
import Idealize.ShloMosaic.PureOps.Ideal.Laws
import Idealize.ShloMosaic.Lib.ValueIdx

open scoped BigOperators

noncomputable section

namespace Cert.Spec

open Idealize.ShloMosaic
open Idealize.ShloMosaic.ValueIdx

/-- An [n0, n1] array of extended reals. -/
abbrev Arr (n0 n1 : Nat) : Type := (⟨2, ![n0, n1]⟩ : Shape).Idx → EReal

/-- The leaky rectifier on one extended real, spelt as both programs compute it: the comparison with the zero
    word selects between v and the slope word times v. -/
def lr (v : EReal) : EReal :=
  Scalar.select (FloatOps.cmpf (F := Ideal) (φ := .f32) .oge v (Ideal.ofBits .f32 0x00000000#32)) v
    (Ideal.ofBits .f32 0x3C23D70A#32 * v)

/-- The per-node latent e at node i, component c (n nodes: the whole array, or one block of it). -/
def e {n : Nat} (x : Arr n 64) (w1 : Arr 64 40) (w2 : Arr 40 4) (i : Fin n) (c : Fin 4) : EReal :=
  lr (∑ k : Fin 40, lr (∑ d : Fin 64, x (ix2 i d) * w1 (ix2 d k)) * w2 (ix2 k c))

/-- The latent as an [n, 4] array. -/
def E {n : Nat} (x : Arr n 64) (w1 : Arr 64 40) (w2 : Arr 40 4) : Arr n 4 := fun j => e x w1 w2 (j 0) (j 1)

/-- The latent laid out transposed, [4, n]: what the kernels write. -/
def ET {n : Nat} (x : Arr n 64) (w1 : Arr 64 40) (w2 : Arr 40 4) : Arr 4 n := fun j => e x w1 w2 (j 1) (j 0)

/-- The hidden layer of the node update at node i, unit k: the latent against the first four rows of ow1 plus the
    graph value against its last five, rectified. -/
def hid {n : Nat} (ev : Arr n 4) (gb : Arr n 5) (ow1 : Arr 9 40) (i : Fin n) (k : Fin 40) : EReal :=
  lr ((∑ a : Fin 4, ev (ix2 i a) * ow1 (ix2 (Fin.castAdd 5 a) k))
    + ∑ b : Fin 5, gb (ix2 i b) * ow1 (ix2 (Fin.natAdd 4 b) k))

/-- The updated node array at node i, feature d: x + (x + hidden · ow2). -/
def upd {n : Nat} (x : Arr n 64) (ev : Arr n 4) (gb : Arr n 5) (ow1 : Arr 9 40) (ow2 : Arr 40 64)
    (i : Fin n) (d : Fin 64) : EReal :=
  x (ix2 i d) + (x (ix2 i d) + ∑ k : Fin 40, hid ev gb ow1 i k * ow2 (ix2 k d))

/-- The updated node array as an [n, 64] array. -/
def Upd {n : Nat} (x : Arr n 64) (ev : Arr n 4) (gb : Arr n 5) (ow1 : Arr 9 40) (ow2 : Arr 40 64) :
    Arr n 64 := fun j => upd x ev gb ow1 ow2 (j 0) (j 1)

/-- The hidden layer as the kernels compute it: the two halves of ow1 given as separate matrices, the graph value
    laid out transposed [5, n]. -/
def hidK {n : Nat} (ev : Arr n 4) (gT : Arr 5 n) (ow1e : Arr 4 40) (ow1g : Arr 5 40) (i : Fin n) (k : Fin 40) : EReal :=
  lr ((∑ a : Fin 4, ev (ix2 i a) * ow1e (ix2 a k)) + ∑ b : Fin 5, gT (ix2 b i) * ow1g (ix2 b k))

/-- The updated node array as the kernels compute it, at node i, feature d. -/
def updK {n : Nat} (x : Arr n 64) (ev : Arr n 4) (gT : Arr 5 n) (ow1e : Arr 4 40) (ow1g : Arr 5 40) (ow2 : Arr 40 64)
    (i : Fin n) (d : Fin 64) : EReal :=
  x (ix2 i d) + (x (ix2 i d) + ∑ k : Fin 40, hidK ev gT ow1e ow1g i k * ow2 (ix2 k d))

/-- The kernels' updated node array as an [n, 64] array. -/
def UpdK {n : Nat} (x : Arr n 64) (ev : Arr n 4) (gT : Arr 5 n) (ow1e : Arr 4 40) (ow1g : Arr 5 40) (ow2 : Arr 40 64) :
    Arr n 64 := fun j => updK x ev gT ow1e ow1g ow2 (j 0) (j 1)

/-- The kernels' form is the reference's once the two halves are the rows of ow1 and the graph value is the
    transposed one. -/
theorem UpdK_eq_Upd {n : Nat} (x : Arr n 64) (ev : Arr n 4) (gb : Arr n 5) (gT : Arr 5 n) (ow1 : Arr 9 40)
    (ow1e : Arr 4 40) (ow1g : Arr 5 40) (ow2 : Arr 40 64)
    (hT : ∀ (i : Fin n) (b : Fin 5), gT (ix2 b i) = gb (ix2 i b))
    (he : ∀ (a : Fin 4) (k : Fin 40), ow1e (ix2 a k) = ow1 (ix2 (Fin.castAdd 5 a) k))
    (hg : ∀ (b : Fin 5) (k : Fin 40), ow1g (ix2 b k) = ow1 (ix2 (Fin.natAdd 4 b) k)) :
    UpdK x ev gT ow1e ow1g ow2 = Upd x ev gb ow1 ow2 := by
  funext j
  obtain ⟨p, q, rfl⟩ : ∃ (p : Fin n) (q : Fin 64), j = ix2 p q := ⟨j 0, j 1, eq_ix2 j⟩
  show updK x ev gT ow1e ow1g ow2 p q = upd x ev gb ow1 ow2 p q
  simp only [updK, upd, hidK, hid, hT, he, hg]

/-- The word 0x40000000 is the number two. -/
theorem ofBits_two : Ideal.ofBits .f32 0x40000000#32 = ((2 : ℝ) : EReal) := by
  simp [Ideal.ofBits, Ideal.ieee]
  rw [← EReal.coe_mul]
  norm_num

/-- Twice an extended real is the real added to itself; at the infinities both sides are that infinity. -/
theorem two_mul_ereal (v : EReal) : ((2 : ℝ) : EReal) * v = v + v := by
  induction v using EReal.rec with
  | bot => rw [EReal.coe_mul_bot_of_pos (by norm_num : (0 : ℝ) < 2), EReal.bot_add]
  | top => rw [EReal.coe_mul_top_of_pos (by norm_num : (0 : ℝ) < 2), EReal.top_add_top]
  | coe r => rw [← EReal.coe_mul, ← EReal.coe_add, two_mul]

/-- The kernel's 2·x + o is the reference's x + (x + o). -/
theorem double_add (v o : EReal) : Ideal.ofBits .f32 0x40000000#32 * v + o = v + (v + o) := by
  rw [ofBits_two, two_mul_ereal, add_assoc]

/-- A sum over nine terms is the sum over the first four plus the sum over the last five. -/
theorem sum_nine {M : Type*} [AddCommMonoid M] (f : Fin 9 → M) :
    ∑ c : Fin 9, f c = (∑ a : Fin 4, f (Fin.castAdd 5 a)) + ∑ b : Fin 5, f (Fin.natAdd 4 b) :=
  Fin.sum_univ_add (a := 4) (b := 5) f

end Cert.Spec

end
-- ==== Proof.HostFns.lean ====
/-
  The host-side steps both programs share, named once.

  Besides the per-node arithmetic (Spec.lean) each program runs the same graph-level steps on the host: a
  scatter-add of the node latents by graph id, a two-layer rectified network on the per-graph sums, a read-back
  of its result at each node's graph id, and at the end a scatter-add of the node features and a last two-layer
  network. This file names those steps as functions of the dimension records an operation carries, so that each
  program's result can be stated as ONE term, out, whose only program-specific inputs are the graph-id column
  it scatters by and the read-back function it uses. Also here: the two integer index chains (the clip of the
  ids into [0, 4095] and the wrap of negative ids), and the read-back with its in-range mask.
-/
import Idealize.ShloMosaic.PureOps.Ideal
import Idealize.ShloMosaic.PureOps.Ideal.Laws
import Idealize.ShloMosaic.Lib.ValueIdx
import proofs.«424516_j14181982011740_3_alg».proof.Proof.Spec

noncomputable section

namespace Cert.HF

open Idealize.ShloMosaic
open Idealize.ShloMosaic.ValueIdx

/-- The scalar shape. -/
abbrev S0 : Shape := ⟨0, ![]⟩
/-- A vector of n entries. -/
abbrev V1 (n : Nat) : Shape := ⟨1, ![n]⟩
/-- An a-by-b matrix. -/
abbrev M2 (a b : Nat) : Shape := ⟨2, ![a, b]⟩

section AnyInstance
variable {F : FTy → Type} [FloatOps F]

/-- The leaky rectifier on a whole array, as the host spells it: compare with a broadcast zero, multiply by the
    broadcast slope, select. -/
def lreluV {s : Shape} (hb : S0.BroadcastsInDim s (![] : Fin 0 → Fin s.rank)) (v : FVec F s .f32) : FVec F s .f32 :=
  select (cmpf .oge v (broadcastInDim s ![] hb (constant S0 .f32 0x00000000#32))) v
    (mulf (broadcastInDim s ![] hb (id (constant S0 .f32 0x3C23D70A#32))) v)

/-- An array of zeros, as the host builds the scatter's operand. -/
def zerosV {s : Shape} (hb : S0.BroadcastsInDim s (![] : Fin 0 → Fin s.rank)) : FVec F s .f32 :=
  broadcastInDim s ![] hb (constant S0 .f32 0x00000000#32)

end AnyInstance

/-- The dimension records and broadcast facts the shared steps cite. The facts are propositions; two bundles
    with the same records are equal. -/
structure Recs where
  sc4 : ScatterDims (M2 4096 4) (M2 1048576 1) (M2 1048576 4)
  sc64 : ScatterDims (M2 4096 64) (M2 1048576 1) (M2 1048576 64)
  dg1 : DotDims (M2 4096 4) (M2 4 40) (M2 4096 40)
  dg2 : DotDims (M2 4096 40) (M2 40 5) (M2 4096 5)
  dd1 : DotDims (M2 4096 64) (M2 64 40) (M2 4096 40)
  dd2 : DotDims (M2 4096 40) (M2 40 1) (M2 4096 1)
  bz4 : S0.BroadcastsInDim (M2 4096 4) (![] : Fin 0 → Fin (M2 4096 4).rank)
  bz64 : S0.BroadcastsInDim (M2 4096 64) (![] : Fin 0 → Fin (M2 4096 64).rank)
  b40 : S0.BroadcastsInDim (M2 4096 40) (![] : Fin 0 → Fin (M2 4096 40).rank)
  b5 : S0.BroadcastsInDim (M2 4096 5) (![] : Fin 0 → Fin (M2 4096 5).rank)

/-- The per-graph network: lrelu (lrelu (a · gw1) · gw2). -/
def gffn (R : Recs) (a : FVec Ideal (M2 4096 4) .f32) (w1 : FVec Ideal (M2 4 40) .f32) (w2 : FVec Ideal (M2 40 5) .f32) :
    FVec Ideal (M2 4096 5) .f32 :=
  lreluV R.b5 (Host.dotGeneral R.dg2 none (lreluV R.b40 (Host.dotGeneral R.dg1 none a w1)) w2)

/-- The last network: lrelu (p · w1) · w2. -/
def dffn (R : Recs) (p : FVec Ideal (M2 4096 64) .f32) (w1 : FVec Ideal (M2 64 40) .f32) (w2 : FVec Ideal (M2 40 1) .f32) :
    FVec Ideal (M2 4096 1) .f32 :=
  Host.dotGeneral R.dd2 none (lreluV R.b40 (Host.dotGeneral R.dd1 none p w1)) w2

/-- One round of the update: the latent, its per-graph sums, the per-graph network, the read-back tk, the node
    update. idx is the column of graph ids the sums are scattered by. -/
def layer (R : Recs) (idx : IVec (M2 1048576 1) 32)
    (tk : FVec Ideal (M2 4096 5) .f32 → FVec Ideal (M2 1048576 5) .f32)
    (x : Spec.Arr 1048576 64) (ew1 : Spec.Arr 64 40) (ew2 : Spec.Arr 40 4) (gw1 : Spec.Arr 4 40) (gw2 : Spec.Arr 40 5)
    (ow1 : Spec.Arr 9 40) (ow2 : Spec.Arr 40 64) : Spec.Arr 1048576 64 :=
  Spec.Upd x (Spec.E x ew1 ew2)
    (tk (gffn R (Host.scatterAdd R.sc4 (zerosV R.bz4) idx (Spec.E x ew1 ew2)) gw1 gw2)) ow1 ow2

/-- The whole result: two rounds, the per-graph sums of the node features, the last network. -/
def out (R : Recs) (idx : IVec (M2 1048576 1) 32)
    (tk : FVec Ideal (M2 4096 5) .f32 → FVec Ideal (M2 1048576 5) .f32)
    (a0 : Spec.Arr 1048576 64) (a2 : Spec.Arr 64 40) (a3 : Spec.Arr 40 4) (a4 : Spec.Arr 4 40) (a5 : Spec.Arr 40 5)
    (a6 : Spec.Arr 9 40) (a7 : Spec.Arr 40 64) (a8 : Spec.Arr 64 40) (a9 : Spec.Arr 40 4) (a10 : Spec.Arr 4 40)
    (a11 : Spec.Arr 40 5) (a12 : Spec.Arr 9 40) (a13 : Spec.Arr 40 64) (a14 : Spec.Arr 64 40) (a15 : Spec.Arr 40 1) :
    FVec Ideal (M2 4096 1) .f32 :=
  dffn R (Host.scatterAdd R.sc64 (zerosV R.bz64) idx
    (layer R idx tk (layer R idx tk a0 a2 a3 a4 a5 a6 a7) a8 a9 a10 a11 a12 a13)) a14 a15

/-! ## The graph ids as indices -/

/-- The ids as an [N, 1] column. -/
def colV (hb : (V1 1048576).BroadcastsInDim (M2 1048576 1) (![0] : Fin 1 → Fin (M2 1048576 1).rank))
    (a : IVec (V1 1048576) 32) : IVec (M2 1048576 1) 32 :=
  broadcastInDim (M2 1048576 1) ![0] hb a

/-- The clip of the ids into [0, 4095]: the larger of 0 and the id, then the smaller of 4095 and that. -/
def clipV (hb : S0.BroadcastsInDim (V1 1048576) (![] : Fin 0 → Fin (V1 1048576).rank)) (a : IVec (V1 1048576) 32) :
    IVec (V1 1048576) 32 :=
  minsi (broadcastInDim (V1 1048576) ![] hb (id (constantI S0 32 4095#32)))
    (maxsi (broadcastInDim (V1 1048576) ![] hb (id (constantI S0 32 0#32))) a)

/-- The wrap of negative ids: an id below 0 has 4096 added. -/
def normV (hb : S0.BroadcastsInDim (V1 1048576) (![] : Fin 0 → Fin (V1 1048576).rank)) (a : IVec (V1 1048576) 32) :
    IVec (V1 1048576) 32 :=
  select (cmpi .slt a (broadcastInDim (V1 1048576) ![] hb (constantI S0 32 0#32)))
    (addi a (broadcastInDim (V1 1048576) ![] hb (constantI S0 32 4096#32))) a

/-- The facts the masked read-back's operations cite. -/
structure TakeFacts : Prop where
  hb : S0.BroadcastsInDim (V1 1048576) (![] : Fin 0 → Fin (V1 1048576).rank)
  hbc : (V1 1048576).BroadcastsInDim (M2 1048576 1) (![0] : Fin 1 → Fin (M2 1048576 1).rank)
  hb01 : S0.BroadcastsInDim (M2 1048576 1) (![] : Fin 0 → Fin (M2 1048576 1).rank)
  hb11 : (V1 1).BroadcastsInDim (M2 1 1) (![1] : Fin 1 → Fin (M2 1 1).rank)
  hb1n : (M2 1 1).BroadcastsInDim (M2 1048576 1) (![0, 1] : Fin 2 → Fin (M2 1048576 1).rank)
  hred : (M2 1048576 1).ReducesTo [1] (V1 1048576)
  hS0 : 0 < S0.numel
  hbm : (V1 1048576).BroadcastsInDim (M2 1048576 5) (![0] : Fin 1 → Fin (M2 1048576 5).rank)
  hbn : S0.BroadcastsInDim (M2 1048576 5) (![] : Fin 0 → Fin (M2 1048576 5).rank)

/-- The kernel program's read-back of a per-graph array g at the ids a: the ids wrapped, laid out as a column,
    tested against [0, 4095], the rows gathered, and a row whose id failed the test replaced by the not-a-number
    word. -/
def takeV {F : FTy → Type} [FloatOps F] (T : TakeFacts) (gd : GatherDims (M2 4096 5) (M2 1048576 1) (M2 1048576 5))
    (g : FVec F (M2 4096 5) .f32) (a : IVec (V1 1048576) 32) : FVec F (M2 1048576 5) .f32 :=
  select
    (broadcastInDim (M2 1048576 5) ![0] T.hbm
      (Host.reduce IntOp.andi
        (andi (cmpi .sge (colV T.hbc (normV T.hb a)) (broadcastInDim (M2 1048576 1) ![] T.hb01 (constantI S0 32 0#32)))
          (cmpi .sle (colV T.hbc (normV T.hb a))
            (broadcastInDim (M2 1048576 1) ![0, 1] T.hb1n (broadcastInDim (M2 1 1) ![1] T.hb11 (constantI (V1 1) 32 4095#32)))))
        (constantI S0 1 1#1) T.hred T.hS0))
    (Host.gather gd g (colV T.hbc (normV T.hb a)))
    (broadcastInDim (M2 1048576 5) ![] T.hbn (constant S0 .f32 0x7FC00000#32))

end Cert.HF

end
-- ==== Proof.KRecs.lean ====
/-
  The kernel program's dimension records and broadcast facts, bundled as the shared host steps take them.
-/
import proofs.«424516_j14181982011740_3_alg».proof.Proof.Gen.KernelIdeal
import proofs.«424516_j14181982011740_3_alg».proof.Proof.HostFns

noncomputable section

namespace Cert.KernelIdeal.Val

open Idealize.ShloMosaic
open Cert.KernelIdeal Cert.KernelIdeal.Facts₀ Cert.KernelIdeal.Facts

/-- The records of the kernel program's scatter-adds and host products. -/
def KR : Cert.HF.Recs where
  sc4 := scatter_S4096x4_S1048576x1_S1048576x4_1_0_0_1
  sc64 := scatter_S4096x64_S1048576x1_S1048576x64_1_0_0_1
  dg1 := dot_S4096x4_S4x40_S4096x40_1_0_0_1_n_n
  dg2 := dot_S4096x40_S40x5_S4096x5_1_0_0_1_n_n
  dd1 := dot_S4096x64_S64x40_S4096x40_1_0_0_1_n_n
  dd2 := dot_S4096x40_S40x1_S4096x1_1_0_0_1_n_n
  bz4 := bcast_S_S4096x4
  bz64 := bcast_S_S4096x64
  b40 := bcast_S_S4096x40
  b5 := bcast_S_S4096x5

/-- The facts of the kernel program's masked read-back. -/
theorem KT : Cert.HF.TakeFacts where
  hb := bcast_S_S1048576
  hbc := bcast_S1048576_S1048576x1_0
  hb01 := bcast_S_S1048576x1
  hb11 := bcast_S1_S1x1_1
  hb1n := bcast_S1x1_S1048576x1_0_1
  hred := reducesTo_S1048576x1_S1048576_d1
  hS0 := h_S_
  hbm := bcast_S1048576_S1048576x5_0
  hbn := bcast_S_S1048576x5

/-- The record of the kernel program's row gather. -/
abbrev Kgd : GatherDims (Cert.HF.M2 4096 5) (Cert.HF.M2 1048576 1) (Cert.HF.M2 1048576 5) :=
  gather_S4096x5_S1048576x1_S1048576x5_1_0_n_n_0_1_15

end Cert.KernelIdeal.Val

end
-- ==== Proof.LibLayout2.lean ====
/-
  Two layout operations on matrices read at an entry: the transpose of an [a, b] matrix at (i, j) is the
  matrix at (j, i), and the rows o, o+1, … of a matrix, sliced out, read at (j, e) the matrix at (o + j, e).
  With them: the transposed latent is the latent, and the update computed from the two row blocks of a
  nine-row weight matrix and a transposed graph value is the update of Spec.lean.
-/
import Idealize.ShloMosaic.PureOps.Ideal
import Idealize.ShloMosaic.Lib.ValueIdx
import Idealize.ShloMosaic.Lib.Pipeline.Value
import Idealize.ShloMosaic.Lib.ValueLayout
import proofs.«424516_j14181982011740_3_alg».proof.Proof.Spec

noncomputable section

namespace Cert.Lib.Layout2

open Idealize.ShloMosaic
open Idealize.ShloMosaic.ValueIdx

/-- The transpose of an [a, b] matrix, read at (i, j), is the matrix at (j, i). -/
theorem transpose_swap {a b : Nat} {α : Type} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply _ _ _ _ _ (fun bb => by
    match bb with
    | ⟨0, _⟩ => rfl
    | ⟨1, _⟩ => rfl)

/-- The latent written transposed and transposed back is the latent. -/
theorem transpose_ET {n : Nat} (x : Spec.Arr n 64) (w1 : Spec.Arr 64 40) (w2 : Spec.Arr 40 4)
    (h : (⟨2, ![4, n]⟩ : Shape).Transposes [1, 0] ⟨2, ![n, 4]⟩) :
    transpose ⟨2, ![n, 4]⟩ [1, 0] (Spec.ET x w1 w2) h = Spec.E x w1 w2 := by
  funext j
  obtain ⟨p, q, rfl⟩ : ∃ (p : Fin n) (q : Fin 4), j = ix2 p q := ⟨j 0, j 1, eq_ix2 j⟩
  rw [transpose_swap]
  rfl

/-- The kernels' update — the two row blocks of ow1 sliced out, the graph value transposed — is the update. -/
theorem UpdK_slices {n : Nat} (x : Spec.Arr n 64) (ev : Spec.Arr n 4) (gb : Spec.Arr n 5) (ow1 : Spec.Arr 9 40)
    (ow2 : Spec.Arr 40 64)
    (hT : (⟨2, ![n, 5]⟩ : Shape).Transposes [1, 0] ⟨2, ![5, n]⟩)
    (he : (⟨2, ![9, 40]⟩ : Shape).Slices ![0, 0] ⟨2, ![4, 40]⟩)
    (hg : (⟨2, ![9, 40]⟩ : Shape).Slices ![4, 0] ⟨2, ![5, 40]⟩) :
    Spec.UpdK x ev (transpose ⟨2, ![5, n]⟩ [1, 0] gb hT) (extractStridedSlice ⟨2, ![4, 40]⟩ ![0, 0] ow1 he)
        (extractStridedSlice ⟨2, ![5, 40]⟩ ![4, 0] ow1 hg) ow2
      = Spec.Upd x ev gb ow1 ow2 :=
  Spec.UpdK_eq_Upd x ev gb _ ow1 _ _ ow2
    (fun i b => transpose_swap gb hT b i)
    (fun a k => slice2_axis0_apply 0 ow1 he a k (Fin.castAdd 5 a) (by simp))
    (fun b k => slice2_axis0_apply 4 ow1 hg b k (Fin.natAdd 4 b) (by simp))

end Cert.Lib.Layout2

end
-- ==== Proof.KLayer.lean ====
/-
  One round of the update as the kernel program lays it out — the latent written transposed and transposed
  back before the scatter-add, the read-back transposed for the next region, the weight matrix ow1 cut into
  its first four and last five rows — is the round of HostFns.lean.
-/
import proofs.«424516_j14181982011740_3_alg».proof.Proof.Gen.KernelIdeal
import proofs.«424516_j14181982011740_3_alg».proof.Proof.KRecs
import proofs.«424516_j14181982011740_3_alg».proof.Proof.LibLayout2
import proofs.«424516_j14181982011740_3_alg».proof.Proof.HostFns

noncomputable section

namespace Cert.KernelIdeal.Val

open Idealize.ShloMosaic
open Cert.KernelIdeal Cert.KernelIdeal.Facts₀ Cert.KernelIdeal.Facts
open Cert.Lib.Layout2

/-- The kernel program's round, from the arrays it passes between host and regions, is HF.layer with the
    clipped ids bi as the scatter column and the masked read-back at bi. -/
theorem layerK_eq (bi : IVec S1048576 32) (x : Spec.Arr 1048576 64) (ew1 : Spec.Arr 64 40) (ew2 : Spec.Arr 40 4)
    (gw1 : Spec.Arr 4 40) (gw2 : Spec.Arr 40 5) (ow1 : Spec.Arr 9 40) (ow2 : Spec.Arr 40 64) :
    Spec.UpdK x (Spec.E x ew1 ew2)
        (transpose S5x1048576 [1, 0]
          (HF.takeV KT Kgd
            (HF.gffn KR
              (Host.scatterAdd KR.sc4 (HF.zerosV KR.bz4) (HF.colV KT.hbc bi)
                (transpose S1048576x4 [1, 0] (Spec.ET x ew1 ew2) transposes_S4x1048576_S1048576x4_1_0))
              gw1 gw2) bi)
          transposes_S1048576x5_S5x1048576_1_0)
        (extractStridedSlice S4x40 ![0, 0] ow1 slices_S9x40_S4x40_0_0)
        (extractStridedSlice S5x40 ![4, 0] ow1 slices_S9x40_S5x40_4_0) ow2
      = HF.layer KR (HF.colV KT.hbc bi) (fun g => HF.takeV KT Kgd g bi) x ew1 ew2 gw1 gw2 ow1 ow2 := by
  rw [transpose_ET x ew1 ew2 transposes_S4x1048576_S1048576x4_1_0]
  exact UpdK_slices x (Spec.E x ew1 ew2) _ ow1 ow2 transposes_S1048576x5_S5x1048576_1_0 slices_S9x40_S4x40_0_0
    slices_S9x40_S5x40_4_0

end Cert.KernelIdeal.Val

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KReg0.lean ====
/-
  The first region of the kernel program: the per-node latent, written transposed.

  Each grid point reads one block of 8192 rows of the node array and the two whole weight matrices, and writes
  the block's latent e = lrelu (lrelu (x · w1) · w2) as a [4, 8192] block of the [4, N] result. The first part
  reads the body's result at one element of the block; the second shows the whole result array after the region
  is the transposed latent of the whole node array.
-/
import proofs.«424516_j14181982011740_3_alg».proof.Proof.Gen.KernelIdeal.Frame
import proofs.«424516_j14181982011740_3_alg».proof.Proof.Spec
import proofs.«424516_j14181982011740_3_alg».proof.Proof.LibDot
import Idealize.ShloMosaic.Lib.Pipeline.Value
import Idealize.ShloMosaic.Lib.ValueIdx

open scoped BigOperators

noncomputable section

open Idealize.ShloMosaic Idealize.ShloMosaic.TcCoe Idealize.SL.Sem
open Idealize.ShloMosaic.Pipeline (Dat)
open Idealize.ShloMosaic.ValueIdx

namespace Cert.KernelIdeal.Val0

open Cert.KernelIdeal Cert.KernelIdeal.Gen

/-- The zero origin of a rank-2 block, as a constant function. -/
theorem hz : (![0, 0] : Fin 2 → Nat) = fun _ => 0 := funext fun a => by fin_cases a <;> rfl

/-! ## The body's result at one element of the block -/

/-- The array leaky rectifier at an index is the scalar one. -/
theorem lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Spec.lr (v i) := rfl

/-- The hidden layer of the block at row r, unit k. -/
theorem hidden_apply (x0 : Vec Ideal S8192x64 .f32) (x1 : Vec Ideal S64x40 .f32) (r : Fin 8192) (k : Fin 40) :
    matmul (F := Ideal) dot_S8192x64_S64x40_S8192x40_1_0_0_1_n_n none (truncf .bf16 x0 bitsLt_bf16_f32)
      (truncf .bf16 x1 bitsLt_bf16_f32) (constant S8192x40 .f32 0x00000000#32) (ix2 r k)
      = ∑ d : Fin 64, x0 (ix2 r d) * x1 (ix2 d k) :=
  Cert.Lib.Dot.matmul0_rc dot_S8192x64_S64x40_S8192x40_1_0_0_1_n_n ⟨rfl, rfl, rfl, rfl, rfl, rfl⟩ _ _ r k

/-- The body's payload at component c, row r of the block is the latent of the block. -/
theorem pay_apply (x0 : Vec Ideal S8192x64 .f32) (x1 : Vec Ideal S64x40 .f32) (x2 : Vec Ideal S40x4 .f32)
    (c : Fin 4) (r : Fin 8192) : k0_pay1 (F := Ideal) x0 x1 x2 (ix2 c r) = Spec.e x0 x1 x2 r c := by
  unfold k0_pay1
  refine (lrelu_apply _ (ix2 c r)).trans ?_
  unfold Spec.e
  refine congrArg Spec.lr ?_
  refine (Cert.Lib.Dot.matmul0_cr dot_S40x4_S8192x40_S4x8192_0_1_1_0_n_n ⟨rfl, rfl, rfl, rfl, rfl, rfl⟩ _ _ c r).trans ?_
  refine Finset.sum_congr rfl fun k _ => ?_
  refine (mul_comm _ _).trans ?_
  refine congrArg (· * x2 (ix2 k c)) ?_
  refine (lrelu_apply _ (ix2 r k)).trans ?_
  exact congrArg Spec.lr (hidden_apply x0 x1 r k)

/-- What the body leaves in the output block, at component c, row r. -/
theorem out0_3_apply (x0 : Vec Ideal S8192x64 .f32) (x1 : Vec Ideal S64x40 .f32) (x2 : Vec Ideal S40x4 .f32)
    (c : Fin 4) (r : Fin 8192) : Gen.out0_3 (F := Ideal) x0 x1 x2 (ix2 c r) = Spec.e x0 x1 x2 r c := by
  unfold Gen.out0_3
  rw [View.canon_unit_zero hz]
  simp only [View.ld_unit_zero (S := S8192x64) hz, View.ld_unit_zero (S := S64x40) hz, View.ld_unit_zero (S := S40x4) hz]
  exact pay_apply x0 x1 x2 c r

/-! ## From the blocks to the array -/

/-- The latent is determined by the node's row of the node array and by the weights. -/
theorem e_congr {n n' : Nat} (x : Spec.Arr n 64) (x' : Spec.Arr n' 64) (w1 w1' : Spec.Arr 64 40) (w2 w2' : Spec.Arr 40 4)
    (i : Fin n) (i' : Fin n') (c c' : Fin 4) (hx : ∀ d : Fin 64, x (ix2 i d) = x' (ix2 i' d)) (h1 : w1 = w1')
    (h2 : w2 = w2') (hc : c = c') : Spec.e x w1 w2 i c = Spec.e x' w1' w2' i' c' := by
  subst h1 h2 hc
  unfold Spec.e
  simp only [hx]

/-- The printed index maps over the grid: the node block and the output block move with the point, the weights'
    blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

section Array

variable (V : (c : Dev nD) → (b : Ref sig .tc) → Buf (Elt Ideal) ((c : Thread nD τ).loc b))

/-- The transposed latent of the whole node array, from the region-entry contents. -/
abbrev G (c : Dev nD) : Spec.Arr 4 1048576 :=
  Spec.ET (V c main_arg0 : Spec.Arr 1048576 64) (V c main_arg2 : Spec.Arr 64 40) (V c main_arg3 : Spec.Arr 40 4)

/-- What point t writes back is block t of the transposed latent. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  obtain ⟨e00, e01, e10, e11, e20, e21, e30, e31⟩ := idx_facts t
  funext j
  revert j
  show ∀ j : S4x8192.Idx, out0_3 (iblk0 V c 0 t) (iblk0 V c 1 t) (iblk0 V c 2 t) j
    = G V c (((cfg0.win 3).blk t).view.emb j)
  intro j
  obtain ⟨p, q, rfl⟩ : ∃ (p : Fin 4) (q : Fin 8192), j = ix2 p q := ⟨j 0, j 1, eq_ix2 j⟩
  refine (out0_3_apply _ _ _ p q).trans ?_
  show Spec.e _ _ _ q p = Spec.e (V c main_arg0 : Spec.Arr 1048576 64) (V c main_arg2 : Spec.Arr 64 40)
    (V c main_arg3 : Spec.Arr 40 4) ((((cfg0.win 3).blk t).view.emb (ix2 p q)) 1) ((((cfg0.win 3).blk t).view.emb (ix2 p q)) 0)
  refine e_congr _ _ _ _ _ _ _ _ _ _ (fun d => ?_) ?_ ?_ ?_
  · show V c main_arg0 (((cfg0.win 0).blk t).view.emb (ix2 q d)) = V c main_arg0 _
    refine congrArg (V c main_arg0) ?_
    funext a; apply Fin.ext
    match a with
    | ⟨0, _⟩ =>
      show win0_0.index t (0 : Fin 2) * 8192 + 1 * q.val = win0_3.index t (1 : Fin 2) * 8192 + 1 * q.val
      rw [e00, e31]
    | ⟨1, _⟩ =>
      show win0_0.index t (1 : Fin 2) * 64 + 1 * d.val = d.val
      rw [e01]; omega
  · funext y
    show V c main_arg2 (((cfg0.win 1).blk t).view.emb y) = V c main_arg2 y
    refine congrArg (V c main_arg2) ?_
    funext a; apply Fin.ext
    match a with
    | ⟨0, _⟩ =>
      show win0_1.index t (0 : Fin 2) * 64 + 1 * (y 0).val = (y 0).val
      rw [e10]; omega
    | ⟨1, _⟩ =>
      show win0_1.index t (1 : Fin 2) * 40 + 1 * (y 1).val = (y 1).val
      rw [e11]; omega
  · funext y
    show V c main_arg3 (((cfg0.win 2).blk t).view.emb y) = V c main_arg3 y
    refine congrArg (V c main_arg3) ?_
    funext a; apply Fin.ext
    match a with
    | ⟨0, _⟩ =>
      show win0_2.index t (0 : Fin 2) * 40 + 1 * (y 0).val = (y 0).val
      rw [e20]; omega
    | ⟨1, _⟩ =>
      show win0_2.index t (1 : Fin 2) * 4 + 1 * (y 1).val = (y 1).val
      rw [e21]; omega
  · apply Fin.ext
    show p.val = win0_3.index t (0 : Fin 2) * 4 + 1 * p.val
    rw [e30]; omega

/-- An index of the result array is in point t's block iff each coordinate is in the block's range on its axis. -/
theorem mem_blk (t : Fin cfg0.N) (i : S4x1048576.Idx) :
    i ∈ ((cfg0.win 3).blk t).view.set ↔ ∀ a : Fin 2, win0_3.index t a * S4x8192.size a ≤ (i a).val
      ∧ (i a).val < win0_3.index t a * S4x8192.size a + S4x8192.size a := by
  show i ∈ ((View.whole main_v1).slice (win0_3.rect t)).set ↔ _
  rw [View.set_slice_whole, Rect.mem_set_unit]
  exact Iff.rfl

/-- Every index of the result array is in the block of the point its column divided by 8192 names. -/
theorem cover (i : S4x1048576.Idx) :
    ∃ t : Fin cfg0.N, (cfg0.win 3).flush t = true ∧ i ∈ ((cfg0.win 3).blk t).view.set := by
  have h0 : (i 0).val < 4 := (i 0).isLt
  have h1 : (i 1).val < 1048576 := (i 1).isLt
  have hN : cfg0.N = 128 := N_0
  have ht : (i 1).val / 8192 < cfg0.N := by rw [hN]; omega
  refine ⟨⟨(i 1).val / 8192, ht⟩, flush0_3 _, ?_⟩
  rw [mem_blk]
  obtain ⟨-, -, -, -, -, -, e30, e31⟩ := idx_facts ⟨(i 1).val / 8192, ht⟩
  intro a
  match a with
  | ⟨0, _⟩ =>
    show win0_3.index ⟨(i 1).val / 8192, ht⟩ (0 : Fin 2) * 4 ≤ (i 0).val
      ∧ (i 0).val < win0_3.index ⟨(i 1).val / 8192, ht⟩ (0 : Fin 2) * 4 + 4
    rw [e30]; omega
  | ⟨1, _⟩ =>
    show win0_3.index ⟨(i 1).val / 8192, ht⟩ (1 : Fin 2) * 8192 ≤ (i 1).val
      ∧ (i 1).val < win0_3.index ⟨(i 1).val / 8192, ht⟩ (1 : Fin 2) * 8192 + 8192
    rw [e31]
    show (i 1).val / 8192 * 8192 ≤ (i 1).val ∧ (i 1).val < (i 1).val / 8192 * 8192 + 8192
    omega

/-- The result array after the region is the transposed latent of the node array as the region finds it. -/
theorem reg0_arr (c : Dev nD) :
    ((Gen.dat0 (F := Ideal) V c).arrAt 3 cfg0.N : Spec.Arr 4 1048576)
      = Spec.ET (V c main_arg0 : Spec.Arr 1048576 64) (V c main_arg2 : Spec.Arr 64 40) (V c main_arg3 : Spec.Arr 40 4) :=
  (Gen.dat0 (F := Ideal) V c).arrAt_eq_of_cover 3 (G V c) (fun t _ => flushed_eq V c t) cover

end Array

end Cert.KernelIdeal.Val0

end
-- ==== Proof.KReg1.lean ====
/-
  The second region (the fused first round of the node update), read as arrays.

  The region runs over 128 grid points. At point t its body sees rows 8192 t … 8192 t + 8191 of the node array
  x : [1048576, 64], columns 8192 t … 8192 t + 8191 of the transposed graph values gT : [5, 1048576], and seven weight
  matrices whole (ew1 : [64, 40], ew2 : [40, 4], the two halves ow1e : [4, 40] and ow1g : [5, 40] of ow1, ow2 : [40, 64],
  and the next round's ew1', ew2'). It leaves two blocks:
    x'  = 2·x + lrelu (e · ow1e + gTᵀ · ow1g) · ow2      : [8192, 64],   e = lrelu (lrelu (x · ew1) · ew2) recomputed
                                                                          from the block's own rows,
    e'ᵀ = the latent lrelu (lrelu (x' · ew1') · ew2') of x', laid out transposed : [4, 8192].
  Every product accumulates into zeros, so at an index it is a plain finite sum; the format changes are the identity on
  extended reals; doubling is adding a number to itself; the last product is taken weight entry first, and
  multiplication of extended reals commutes.

  Part 1 (block level): for arbitrary input blocks, each stored block at an index is the specification's function
  (Spec.updK, Spec.e) of the blocks. Part 2 (array level): row r of the update depends on x only through row r and on gT
  only through column r, so block t of the whole-array function is the block function of the blocks at t; the blocks
  at the 128 points tile each output array (row or column r lies in the block of point r / 8192), hence each output
  array after the region is that whole-array function of the arrays the region finds.
-/
import proofs.«424516_j14181982011740_3_alg».proof.Proof.Gen.KernelIdeal.Frame
import proofs.«424516_j14181982011740_3_alg».proof.Proof.Spec
import proofs.«424516_j14181982011740_3_alg».proof.Proof.LibDot
import Idealize.ShloMosaic.Lib.Pipeline.Value
import Idealize.ShloMosaic.Lib.ValueIdx

open scoped BigOperators

noncomputable section

namespace Cert.KernelIdeal.Val1

open Cert.KernelIdeal Cert.KernelIdeal.Gen
open Idealize.ShloMosaic Idealize.ShloMosaic.TcCoe Idealize.SL.Sem
open Idealize.ShloMosaic.ValueIdx
open Idealize.ShloMosaic.Pipeline (Dat)
open Cert.Lib.Dot

/-! ## The body's stored values at an index -/

/-- The origin of every whole-buffer access: both offsets are zero. -/
theorem hz : (![0, 0] : Fin 2 → Nat) = fun _ => 0 := funext fun a => by fin_cases a <;> rfl

/-- The leaky rectifier as the body spells it on a whole vector (compare with the zero word, select between the
    vector and the slope word times the vector), read at an index: the scalar rectifier of the entry. -/
theorem lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Spec.lr (v i) := rfl

/-- The latent array at (r, a) is the latent of row r, component a. -/
theorem E_apply {n : Nat} (x : Spec.Arr n 64) (w1 : Spec.Arr 64 40) (w2 : Spec.Arr 40 4) (r : Fin n) (a : Fin 4) :
    Spec.E x w1 w2 (ix2 r a) = Spec.e x w1 w2 r a := rfl

/-- The updated array at (r, d) is the update of row r, feature d. -/
theorem UpdK_apply {n : Nat} (x : Spec.Arr n 64) (ev : Spec.Arr n 4) (gT : Spec.Arr 5 n) (ow1e : Spec.Arr 4 40)
    (ow1g : Spec.Arr 5 40) (ow2 : Spec.Arr 40 64) (r : Fin n) (d : Fin 64) :
    Spec.UpdK x ev gT ow1e ow1g ow2 (ix2 r d) = Spec.updK x ev gT ow1e ow1g ow2 r d := rfl

/-- The shared hidden value at (r, k): the block's latent (two rectified products, recomputed from the block's
    rows) against the first weight half, plus the transposed graph rows against the second half, rectified. The
    four products are plain sums (zero accumulators, the format changes the identity on extended reals). -/
theorem pay3_apply (v0 : Vec Ideal S8192x64 .f32) (v2 : Vec Ideal S64x40 .f32) (v11 : Vec Ideal S40x4 .f32)
    (v19 : Vec Ideal S5x8192 .f32) (v22 : Vec Ideal S5x40 .f32) (v27 : Vec Ideal S4x40 .f32) (r : Fin 8192) (k : Fin 40) :
    k1_pay3 (F := Ideal) v0 v2 v11 v19 v22 v27 (ix2 r k) = Spec.hidK (Spec.E v0 v2 v11) v19 v27 v22 r k := by
  unfold k1_pay3
  simp only [lrelu_apply, addf_apply, truncf_apply, shapeCast_self,
    matmul0_rc dot_S8192x64_S64x40_S8192x40_1_0_0_1_n_n ⟨rfl, rfl, rfl, rfl, rfl, rfl⟩,
    matmul0_rc dot_S8192x40_S40x4_S8192x4_1_0_0_1_n_n ⟨rfl, rfl, rfl, rfl, rfl, rfl⟩,
    matmul0_rc dot_S8192x4_S4x40_S8192x40_1_0_0_1_n_n ⟨rfl, rfl, rfl, rfl, rfl, rfl⟩,
    matmul0_cc dot_S5x8192_S5x40_S8192x40_0_0_1_1_n_n ⟨rfl, rfl, rfl, rfl, rfl, rfl⟩]
  rfl

/-- The first stored value at (r, d): twice the entry plus the hidden row against the second weight matrix, which
    is the entry added to itself and to that product. -/
theorem pay1_apply (v0 : Vec Ideal S8192x64 .f32) (v2 : Vec Ideal S64x40 .f32) (v11 : Vec Ideal S40x4 .f32)
    (v19 : Vec Ideal S5x8192 .f32) (v22 : Vec Ideal S5x40 .f32) (v27 : Vec Ideal S4x40 .f32) (v37 : Vec Ideal S40x64 .f32)
    (r : Fin 8192) (d : Fin 64) :
    k1_pay1 (F := Ideal) v0 (k1_pay3 v0 v2 v11 v19 v22 v27) v37 (ix2 r d)
      = Spec.updK v0 (Spec.E v0 v2 v11) v19 v27 v22 v37 r d := by
  unfold k1_pay1
  simp only [addf_apply, mulf_apply, broadcast_apply, truncf_apply,
    matmul0_rc dot_S8192x40_S40x64_S8192x64_1_0_0_1_n_n ⟨rfl, rfl, rfl, rfl, rfl, rfl⟩, pay3_apply]
  unfold Spec.updK
  exact Spec.double_add _ _

/-- The second stored value at (c, r), for any first stored value u: the latent of u's row r, component c, with the
    second product taken in the transposed order (the weight entry first). -/
theorem pay2_apply (v0 : Vec Ideal S8192x64 .f32) (v36 : FVec Ideal S8192x40 .f32) (v37 : Vec Ideal S40x64 .f32)
    (v46 : Vec Ideal S64x40 .f32) (v55 : Vec Ideal S40x4 .f32) (c : Fin 4) (r : Fin 8192) :
    k1_pay2 (F := Ideal) v0 v36 v37 v46 v55 (ix2 c r)
      = Spec.lr (∑ k : Fin 40, v55 (ix2 k c) * Spec.lr (∑ d : Fin 64, k1_pay1 v0 v36 v37 (ix2 r d) * v46 (ix2 d k))) := by
  unfold k1_pay2
  simp only [lrelu_apply, truncf_apply,
    matmul0_rc dot_S8192x64_S64x40_S8192x40_1_0_0_1_n_n ⟨rfl, rfl, rfl, rfl, rfl, rfl⟩,
    matmul0_cr dot_S40x4_S8192x40_S4x8192_0_1_1_0_n_n ⟨rfl, rfl, rfl, rfl, rfl, rfl⟩]

/-- BLOCK LEVEL, first output: what the body leaves in the node-block buffer, at (r, d), is the kernels' update of
    the input block's row r, with the latent recomputed from the block. -/
theorem out1_9_apply (x0 : Vec Ideal S8192x64 .f32) (x1 : Vec Ideal S5x8192 .f32) (x2 : Vec Ideal S64x40 .f32)
    (x3 : Vec Ideal S40x4 .f32) (x4 : Vec Ideal S4x40 .f32) (x5 : Vec Ideal S5x40 .f32) (x6 : Vec Ideal S40x64 .f32)
    (x7 : Vec Ideal S64x40 .f32) (x8 : Vec Ideal S40x4 .f32) (r : Fin 8192) (d : Fin 64) :
    Gen.out1_9 (F := Ideal) x0 x1 x2 x3 x4 x5 x6 x7 x8 (ix2 r d)
      = Spec.updK x0 (Spec.E x0 x2 x3) x1 x4 x5 x6 r d := by
  unfold Gen.out1_9
  rw [View.canon_unit_zero hz]
  simp only [View.ld_unit_zero (S := S8192x64) hz, View.ld_unit_zero (S := S64x40) hz, View.ld_unit_zero (S := S40x4) hz, View.ld_unit_zero (S := S5x8192) hz, View.ld_unit_zero (S := S5x40) hz, View.ld_unit_zero (S := S4x40) hz, View.ld_unit_zero (S := S40x64) hz]
  exact pay1_apply x0 x2 x3 x1 x5 x4 x6 r d

/-- BLOCK LEVEL, second output: what the body leaves in the transposed latent buffer, at (c, r), is the latent of
    the updated block's row r, component c. -/
theorem out1_10_apply (x0 : Vec Ideal S8192x64 .f32) (x1 : Vec Ideal S5x8192 .f32) (x2 : Vec Ideal S64x40 .f32)
    (x3 : Vec Ideal S40x4 .f32) (x4 : Vec Ideal S4x40 .f32) (x5 : Vec Ideal S5x40 .f32) (x6 : Vec Ideal S40x64 .f32)
    (x7 : Vec Ideal S64x40 .f32) (x8 : Vec Ideal S40x4 .f32) (c : Fin 4) (r : Fin 8192) :
    Gen.out1_10 (F := Ideal) x0 x1 x2 x3 x4 x5 x6 x7 x8 (ix2 c r)
      = Spec.e (Spec.UpdK x0 (Spec.E x0 x2 x3) x1 x4 x5 x6) x7 x8 r c := by
  unfold Gen.out1_10
  rw [View.canon_unit_zero hz]
  simp only [View.ld_unit_zero (S := S8192x64) hz, View.ld_unit_zero (S := S64x40) hz, View.ld_unit_zero (S := S40x4) hz, View.ld_unit_zero (S := S5x8192) hz, View.ld_unit_zero (S := S5x40) hz, View.ld_unit_zero (S := S4x40) hz, View.ld_unit_zero (S := S40x64) hz]
  rw [pay2_apply]
  simp only [pay1_apply]
  unfold Spec.e
  refine congrArg Spec.lr (Finset.sum_congr rfl fun k _ => ?_)
  exact mul_comm _ _

/-! ## From the blocks to the arrays -/

variable (V : (c : Dev nD) → (b : Ref sig .tc) → Buf (Elt Ideal) ((c : Thread nD τ).loc b))

/-- The kernels' update depends on the node array only through row r and on the transposed graph array only
    through column r: two node arrays (of any numbers of rows) that agree on one row each, with graph arrays that
    agree on the matching columns, have the same update there. The latent is recomputed from the same row. -/
theorem updK_congr {n n' : Nat} (x : Spec.Arr n 64) (x' : Spec.Arr n' 64) (g : Spec.Arr 5 n) (g' : Spec.Arr 5 n')
    (w1 : Spec.Arr 64 40) (w2 : Spec.Arr 40 4) (o1e : Spec.Arr 4 40) (o1g : Spec.Arr 5 40) (o2 : Spec.Arr 40 64)
    (r : Fin n) (r' : Fin n') (hx : ∀ d, x (ix2 r d) = x' (ix2 r' d)) (hg : ∀ b, g (ix2 b r) = g' (ix2 b r'))
    (d : Fin 64) :
    Spec.updK x (Spec.E x w1 w2) g o1e o1g o2 r d = Spec.updK x' (Spec.E x' w1 w2) g' o1e o1g o2 r' d := by
  unfold Spec.updK Spec.hidK
  simp only [E_apply, Spec.e, hx, hg]

/-- The latent of row r depends on the node array only through that row. -/
theorem e_congr {n n' : Nat} (u : Spec.Arr n 64) (u' : Spec.Arr n' 64) (w1 : Spec.Arr 64 40) (w2 : Spec.Arr 40 4)
    (r : Fin n) (r' : Fin n') (hu : ∀ d, u (ix2 r d) = u' (ix2 r' d)) (a : Fin 4) :
    Spec.e u w1 w2 r a = Spec.e u' w1 w2 r' a := by
  unfold Spec.e
  simp only [hu]

/-- The printed index maps, decided once over the 128 grid points: the node blocks and the first output's blocks
    sit at block index (t, 0), the two transposed arrays' blocks at (0, t), every weight matrix at (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = t.val
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0
    ∧ win1_10.index t (0 : Fin 2) = 0
    ∧ win1_10.index t (1 : Fin 2) = t.val :=
  (by decide +kernel : ∀ t : Fin grid1.N, _)

/-- A grid point is below 128. -/
theorem t_lt (t : Fin cfg1.N) : t.val < 128 := by
  have h : cfg1.N = 128 := N_1
  have := t.isLt
  omega

/-- Window 0's block at point t is rows 8192 t … 8192 t + 8191 of the node array. -/
theorem iblk0_apply (c : Dev nD) (t : Fin cfg1.N) (r : Fin 8192) (d : Fin 64) (R : Fin 1048576)
    (hR : R.val = 8192 * t.val + r.val) :
    (iblk1 V c 0 t : Vec Ideal S8192x64 .f32) (ix2 r d) = (V c main_arg0 : Spec.Arr 1048576 64) (ix2 R d) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_arg0 _ = V c main_arg0 _
  congr 1
  funext a
  apply Fin.ext
  match a with
  | ⟨0, _⟩ => show win1_0.index t (0 : Fin 2) * 8192 + 1 * r.val = R.val; rw [h0_0, hR]; omega
  | ⟨1, _⟩ => show win1_0.index t (1 : Fin 2) * 64 + 1 * d.val = d.val; rw [h0_1]; omega

/-- Window 1's block at point t is columns 8192 t … 8192 t + 8191 of the transposed graph array. -/
theorem iblk1_apply (c : Dev nD) (t : Fin cfg1.N) (b : Fin 5) (r : Fin 8192) (R : Fin 1048576)
    (hR : R.val = 8192 * t.val + r.val) :
    (iblk1 V c 1 t : Vec Ideal S5x8192 .f32) (ix2 b r) = (V c main_v11 : Spec.Arr 5 1048576) (ix2 b R) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  unfold iblk1
  rw [View.read_apply]
  show V c main_v11 _ = V c main_v11 _
  congr 1
  funext a
  apply Fin.ext
  match a with
  | ⟨0, _⟩ => show win1_1.index t (0 : Fin 2) * 5 + 1 * b.val = b.val; rw [h1_0]; omega
  | ⟨1, _⟩ => show win1_1.index t (1 : Fin 2) * 8192 + 1 * r.val = R.val; rw [h1_1, hR]; omega

/-- Window 2 is its whole array at every point (block index (0, 0), the block the array's size). -/
theorem iblk2_eq (c : Dev nD) (t : Fin cfg1.N) :
    (iblk1 V c 2 t : Vec Ideal S64x40 .f32) = (V c main_arg2 : Spec.Arr 64 40) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_arg2 _ = V c main_arg2 j
  congr 1
  funext a
  apply Fin.ext
  match a with
  | ⟨0, _⟩ => show win1_2.index t (0 : Fin 2) * 64 + 1 * (j 0).val = (j 0).val; rw [h2_0]; omega
  | ⟨1, _⟩ => show win1_2.index t (1 : Fin 2) * 40 + 1 * (j 1).val = (j 1).val; rw [h2_1]; omega

/-- Window 3 is its whole array at every point (block index (0, 0), the block the array's size). -/
theorem iblk3_eq (c : Dev nD) (t : Fin cfg1.N) :
    (iblk1 V c 3 t : Vec Ideal S40x4 .f32) = (V c main_arg3 : Spec.Arr 40 4) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_arg3 _ = V c main_arg3 j
  congr 1
  funext a
  apply Fin.ext
  match a with
  | ⟨0, _⟩ => show win1_3.index t (0 : Fin 2) * 40 + 1 * (j 0).val = (j 0).val; rw [h3_0]; omega
  | ⟨1, _⟩ => show win1_3.index t (1 : Fin 2) * 4 + 1 * (j 1).val = (j 1).val; rw [h3_1]; omega

/-- Window 4 is its whole array at every point (block index (0, 0), the block the array's size). -/
theorem iblk4_eq (c : Dev nD) (t : Fin cfg1.N) :
    (iblk1 V c 4 t : Vec Ideal S4x40 .f32) = (V c main_v12 : Spec.Arr 4 40) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_v12 _ = V c main_v12 j
  congr 1
  funext a
  apply Fin.ext
  match a with
  | ⟨0, _⟩ => show win1_4.index t (0 : Fin 2) * 4 + 1 * (j 0).val = (j 0).val; rw [h4_0]; omega
  | ⟨1, _⟩ => show win1_4.index t (1 : Fin 2) * 40 + 1 * (j 1).val = (j 1).val; rw [h4_1]; omega

/-- Window 5 is its whole array at every point (block index (0, 0), the block the array's size). -/
theorem iblk5_eq (c : Dev nD) (t : Fin cfg1.N) :
    (iblk1 V c 5 t : Vec Ideal S5x40 .f32) = (V c main_v13 : Spec.Arr 5 40) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_v13 _ = V c main_v13 j
  congr 1
  funext a
  apply Fin.ext
  match a with
  | ⟨0, _⟩ => show win1_5.index t (0 : Fin 2) * 5 + 1 * (j 0).val = (j 0).val; rw [h5_0]; omega
  | ⟨1, _⟩ => show win1_5.index t (1 : Fin 2) * 40 + 1 * (j 1).val = (j 1).val; rw [h5_1]; omega

/-- Window 6 is its whole array at every point (block index (0, 0), the block the array's size). -/
theorem iblk6_eq (c : Dev nD) (t : Fin cfg1.N) :
    (iblk1 V c 6 t : Vec Ideal S40x64 .f32) = (V c main_arg7 : Spec.Arr 40 64) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_arg7 _ = V c main_arg7 j
  congr 1
  funext a
  apply Fin.ext
  match a with
  | ⟨0, _⟩ => show win1_6.index t (0 : Fin 2) * 40 + 1 * (j 0).val = (j 0).val; rw [h6_0]; omega
  | ⟨1, _⟩ => show win1_6.index t (1 : Fin 2) * 64 + 1 * (j 1).val = (j 1).val; rw [h6_1]; omega

/-- Window 7 is its whole array at every point (block index (0, 0), the block the array's size). -/
theorem iblk7_eq (c : Dev nD) (t : Fin cfg1.N) :
    (iblk1 V c 7 t : Vec Ideal S64x40 .f32) = (V c main_arg8 : Spec.Arr 64 40) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_arg8 _ = V c main_arg8 j
  congr 1
  funext a
  apply Fin.ext
  match a with
  | ⟨0, _⟩ => show win1_7.index t (0 : Fin 2) * 64 + 1 * (j 0).val = (j 0).val; rw [h7_0]; omega
  | ⟨1, _⟩ => show win1_7.index t (1 : Fin 2) * 40 + 1 * (j 1).val = (j 1).val; rw [h7_1]; omega

/-- Window 8 is its whole array at every point (block index (0, 0), the block the array's size). -/
theorem iblk8_eq (c : Dev nD) (t : Fin cfg1.N) :
    (iblk1 V c 8 t : Vec Ideal S40x4 .f32) = (V c main_arg9 : Spec.Arr 40 4) := by
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  funext j
  unfold iblk1
  rw [View.read_apply]
  show V c main_arg9 _ = V c main_arg9 j
  congr 1
  funext a
  apply Fin.ext
  match a with
  | ⟨0, _⟩ => show win1_8.index t (0 : Fin 2) * 40 + 1 * (j 0).val = (j 0).val; rw [h8_0]; omega
  | ⟨1, _⟩ => show win1_8.index t (1 : Fin 2) * 4 + 1 * (j 1).val = (j 1).val; rw [h8_1]; omega

/-- The node array after the region, as one function of the arrays the region finds: the kernels' update of the
    node array, with the latent computed from it. -/
abbrev X1 (c : Dev nD) : Spec.Arr 1048576 64 :=
  Spec.UpdK (V c main_arg0 : Spec.Arr 1048576 64)
    (Spec.E (V c main_arg0 : Spec.Arr 1048576 64) (V c main_arg2 : Spec.Arr 64 40) (V c main_arg3 : Spec.Arr 40 4))
    (V c main_v11 : Spec.Arr 5 1048576) (V c main_v12 : Spec.Arr 4 40) (V c main_v13 : Spec.Arr 5 40)
    (V c main_arg7 : Spec.Arr 40 64)

/-- WHAT POINT t WRITES BACK to the first output: block t (rows 8192 t …) of the updated node array. -/
theorem flushed9_eq (c : Dev nD) (t : Fin cfg1.N) :
    (dat1 (F := Ideal) V c).flushed 9 t = ((cfg1.win 9).blk t).view.read (Elt Ideal) (X1 V c) := by
  show (cfg1.win 9).cut (grid1.coords t) ((dat1 V c).after 9 t) = _
  rw [after1_9]
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  have ht := t_lt t
  funext j
  obtain ⟨r, d, rfl⟩ : ∃ (r : Fin 8192) (d : Fin 64), j = ix2 r d := ⟨j 0, j 1, eq_ix2 (n0 := 8192) (n1 := 64) j⟩
  have hr := r.isLt
  show Gen.out1_9 (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r d) = X1 V c (((cfg1.win 9).blk t).view.emb (ix2 r d))
  have hemb : ((cfg1.win 9).blk t).view.emb (ix2 r d)
      = (ix2 (⟨8192 * t.val + r.val, by omega⟩ : Fin 1048576) d : S1048576x64.Idx) := by
    funext a
    apply Fin.ext
    match a with
    | ⟨0, _⟩ => show win1_9.index t (0 : Fin 2) * 8192 + 1 * r.val = 8192 * t.val + r.val; rw [h9_0]; omega
    | ⟨1, _⟩ => show win1_9.index t (1 : Fin 2) * 64 + 1 * d.val = d.val; rw [h9_1]; omega
  refine Eq.trans ?_ (congrArg (X1 V c) hemb).symm
  refine (out1_9_apply _ _ _ _ _ _ _ _ _ r d).trans ?_
  rw [iblk2_eq V c t, iblk3_eq V c t, iblk4_eq V c t, iblk5_eq V c t, iblk6_eq V c t]
  exact updK_congr _ _ _ _ _ _ _ _ _ r _ (fun d' => iblk0_apply V c t r d' _ rfl)
    (fun b => iblk1_apply V c t b r _ rfl) d

/-- An index of the first output's array is in point t's block iff each coordinate is in the block's range. -/
theorem mem_blk9 (t : Fin cfg1.N) (i : S1048576x64.Idx) :
    i ∈ ((cfg1.win 9).blk t).view.set ↔ ∀ a : Fin 2, win1_9.index t a * S8192x64.size a ≤ (i a).val
      ∧ (i a).val < win1_9.index t a * S8192x64.size a + S8192x64.size a := by
  show i ∈ ((View.whole main_v14_0).slice (win1_9.rect t)).set ↔ _
  rw [View.set_slice_whole, Rect.mem_set_unit]
  exact Iff.rfl

/-- Every row r of the first output's array is in the block of point r / 8192. -/
theorem cover9 (i : S1048576x64.Idx) :
    ∃ t : Fin cfg1.N, (cfg1.win 9).flush t = true ∧ i ∈ ((cfg1.win 9).blk t).view.set := by
  have hi0 : (i 0).val < 1048576 := (i 0).isLt
  have hi1 : (i 1).val < 64 := (i 1).isLt
  have hN : cfg1.N = 128 := N_1
  obtain ⟨t, htv⟩ : ∃ t : Fin cfg1.N, t.val = (i 0).val / 8192 := ⟨⟨(i 0).val / 8192, by rw [hN]; omega⟩, rfl⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  refine ⟨t, flush1_9 t, ?_⟩
  rw [mem_blk9]
  intro a
  match a with
  | ⟨0, _⟩ =>
    show win1_9.index t (0 : Fin 2) * 8192 ≤ (i 0).val ∧ (i 0).val < win1_9.index t (0 : Fin 2) * 8192 + 8192
    rw [h9_0, htv]; omega
  | ⟨1, _⟩ =>
    show win1_9.index t (1 : Fin 2) * 64 ≤ (i 1).val ∧ (i 1).val < win1_9.index t (1 : Fin 2) * 64 + 64
    rw [h9_1]; omega

/-- THE FIRST OUTPUT ARRAY after the region is the kernels' update of the node array the region finds. -/
theorem reg1_arr9 (c : Dev nD) :
    ((Gen.dat1 (F := Ideal) V c).arrAt 9 cfg1.N : Spec.Arr 1048576 64) = X1 V c :=
  (dat1 V c).arrAt_eq_of_cover 9 (X1 V c) (fun t _ => flushed9_eq V c t) cover9

/-- WHAT POINT t WRITES BACK to the second output: block t (columns 8192 t …) of the transposed latent of the
    updated node array. -/
theorem flushed10_eq (c : Dev nD) (t : Fin cfg1.N) :
    (dat1 (F := Ideal) V c).flushed 10 t = ((cfg1.win 10).blk t).view.read (Elt Ideal)
      (Spec.ET (X1 V c) (V c main_arg8 : Spec.Arr 64 40) (V c main_arg9 : Spec.Arr 40 4)) := by
  show (cfg1.win 10).cut (grid1.coords t) ((dat1 V c).after 10 t) = _
  rw [after1_10]
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  have ht := t_lt t
  funext j
  obtain ⟨a, r, rfl⟩ : ∃ (a : Fin 4) (r : Fin 8192), j = ix2 a r := ⟨j 0, j 1, eq_ix2 (n0 := 4) (n1 := 8192) j⟩
  have hr := r.isLt
  show Gen.out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (ix2 a r)
    = Spec.ET (X1 V c) (V c main_arg8 : Spec.Arr 64 40) (V c main_arg9 : Spec.Arr 40 4)
        (((cfg1.win 10).blk t).view.emb (ix2 a r))
  have hemb : ((cfg1.win 10).blk t).view.emb (ix2 a r)
      = (ix2 a (⟨8192 * t.val + r.val, by omega⟩ : Fin 1048576) : S4x1048576.Idx) := by
    funext b
    apply Fin.ext
    match b with
    | ⟨0, _⟩ => show win1_10.index t (0 : Fin 2) * 4 + 1 * a.val = a.val; rw [h10_0]; omega
    | ⟨1, _⟩ => show win1_10.index t (1 : Fin 2) * 8192 + 1 * r.val = 8192 * t.val + r.val; rw [h10_1]; omega
  refine Eq.trans ?_ (congrArg (Spec.ET (X1 V c) (V c main_arg8 : Spec.Arr 64 40) (V c main_arg9 : Spec.Arr 40 4)) hemb).symm
  refine (out1_10_apply _ _ _ _ _ _ _ _ _ a r).trans ?_
  rw [iblk2_eq V c t, iblk3_eq V c t, iblk4_eq V c t, iblk5_eq V c t, iblk6_eq V c t, iblk7_eq V c t, iblk8_eq V c t]
  refine e_congr _ _ _ _ r _ (fun d => ?_) a
  exact updK_congr _ _ _ _ _ _ _ _ _ r _ (fun d' => iblk0_apply V c t r d' _ rfl)
    (fun b => iblk1_apply V c t b r _ rfl) d

/-- An index of the second output's array is in point t's block iff each coordinate is in the block's range. -/
theorem mem_blk10 (t : Fin cfg1.N) (i : S4x1048576.Idx) :
    i ∈ ((cfg1.win 10).blk t).view.set ↔ ∀ a : Fin 2, win1_10.index t a * S4x8192.size a ≤ (i a).val
      ∧ (i a).val < win1_10.index t a * S4x8192.size a + S4x8192.size a := by
  show i ∈ ((View.whole main_v14_1).slice (win1_10.rect t)).set ↔ _
  rw [View.set_slice_whole, Rect.mem_set_unit]
  exact Iff.rfl

/-- Every column r of the second output's array is in the block of point r / 8192. -/
theorem cover10 (i : S4x1048576.Idx) :
    ∃ t : Fin cfg1.N, (cfg1.win 10).flush t = true ∧ i ∈ ((cfg1.win 10).blk t).view.set := by
  have hi0 : (i 0).val < 4 := (i 0).isLt
  have hi1 : (i 1).val < 1048576 := (i 1).isLt
  have hN : cfg1.N = 128 := N_1
  obtain ⟨t, htv⟩ : ∃ t : Fin cfg1.N, t.val = (i 1).val / 8192 := ⟨⟨(i 1).val / 8192, by rw [hN]; omega⟩, rfl⟩
  obtain ⟨h0_0, h0_1, h1_0, h1_1, h2_0, h2_1, h3_0, h3_1, h4_0, h4_1, h5_0, h5_1, h6_0, h6_1, h7_0, h7_1, h8_0, h8_1, h9_0, h9_1, h10_0, h10_1⟩ := idx_facts t
  refine ⟨t, flush1_10 t, ?_⟩
  rw [mem_blk10]
  intro a
  match a with
  | ⟨0, _⟩ =>
    show win1_10.index t (0 : Fin 2) * 4 ≤ (i 0).val ∧ (i 0).val < win1_10.index t (0 : Fin 2) * 4 + 4
    rw [h10_0]; omega
  | ⟨1, _⟩ =>
    show win1_10.index t (1 : Fin 2) * 8192 ≤ (i 1).val ∧ (i 1).val < win1_10.index t (1 : Fin 2) * 8192 + 8192
    rw [h10_1, htv]; omega

/-- THE SECOND OUTPUT ARRAY after the region is the transposed latent of the updated node array. -/
theorem reg1_arr10 (c : Dev nD) :
    ((Gen.dat1 (F := Ideal) V c).arrAt 10 cfg1.N : Spec.Arr 4 1048576)
      = Spec.ET (X1 V c) (V c main_arg8 : Spec.Arr 64 40) (V c main_arg9 : Spec.Arr 40 4) :=
  (dat1 V c).arrAt_eq_of_cover 10 _ (fun t _ => flushed10_eq V c t) cover10

end Cert.KernelIdeal.Val1

end
-- ==== Proof.KReg2.lean ====
/-
  Region 2, the fused residual update: what the body leaves in a block of the output, and what the region leaves
  in the output array.

  At a grid point the body reads a block of 8192 rows of the node array x, the matching 8192 columns of the
  transposed graph value gT, and the five weight matrices whole. It recomputes the latent e of its rows from the
  block, forms the hidden layer lrelu (e · ow1e + gTᵀ · ow1g), and stores 2 · x + hidden · ow2. The first part
  reads that result at one entry (row r of the block, feature d) and finds the entry of the specification's
  update there, the block taken as a node array of 8192 rows: every matrix product into a zero accumulator is a
  plain sum over the contracted coordinate, the roundings between the products are the identity on the extended
  reals, the comparison-and-select is the scalar leaky rectifier, and 2 · x + o is x + (x + o). The second part
  goes from blocks to arrays: row r of the block at point t is row 8192 · t + r of the node array, column r of the
  block of gT is column 8192 · t + r of gT, the weights are read whole, so what point t writes back is block t of
  the specification's update of the whole arrays; the 128 blocks tile the 1048576 rows (row i lies in block
  i / 8192), hence the output array ends as that update.
-/
import proofs.«424516_j14181982011740_3_alg».proof.Proof.Gen.KernelIdeal.Frame
import proofs.«424516_j14181982011740_3_alg».proof.Proof.Spec
import proofs.«424516_j14181982011740_3_alg».proof.Proof.LibDot
import Idealize.ShloMosaic.Lib.Pipeline.Value
import Idealize.ShloMosaic.Lib.ValueIdx

set_option maxRecDepth 16384

open scoped BigOperators

noncomputable section

namespace Cert.KernelIdeal.Val2

open Cert.KernelIdeal Cert.KernelIdeal.Gen
open Idealize.ShloMosaic Idealize.ShloMosaic.TcCoe Idealize.SL.Sem
open Idealize.ShloMosaic.ValueIdx
open Idealize.ShloMosaic.Pipeline (Dat)

/-! ## Part 1: the body's result at one entry of the block -/

/-- The zero offsets of a whole-buffer access, spelt as the constant function. -/
theorem hz : (![0, 0] : Fin 2 → Nat) = fun _ => 0 := funext fun a => by fin_cases a <;> rfl

/-- The comparison with the zero word selecting between v and the slope word times v, read at an index, is the
    scalar leaky rectifier of the entry there. -/
theorem lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Spec.lr (v i) := rfl

/-- The first product of the latent: the block of x against ew1, both rounded (the identity here), at (r, k). -/
theorem xw1_apply (x0 : FVec Ideal S8192x64 .f32) (x2 : FVec Ideal S64x40 .f32) (r : Fin 8192) (k : Fin 40) :
    matmul (F := Ideal) dot_S8192x64_S64x40_S8192x40_1_0_0_1_n_n none (truncf .bf16 x0 bitsLt_bf16_f32)
        (truncf .bf16 x2 bitsLt_bf16_f32) (constant S8192x40 .f32 0x00000000#32) (ix2 r k)
      = ∑ d : Fin 64, x0 (ix2 r d) * x2 (ix2 d k) :=
  Cert.Lib.Dot.matmul0_rc dot_S8192x64_S64x40_S8192x40_1_0_0_1_n_n ⟨rfl, rfl, rfl, rfl, rfl, rfl⟩ _ _ r k

/-- The second product of the latent, at (r, a): the rectified first layer against ew2. -/
theorem hw2_apply (h : FVec Ideal S8192x40 .f32) (x3 : FVec Ideal S40x4 .f32) (r : Fin 8192) (a : Fin 4) :
    matmul (F := Ideal) dot_S8192x40_S40x4_S8192x4_1_0_0_1_n_n none (truncf .bf16 h bitsLt_bf16_f32)
        (truncf .bf16 x3 bitsLt_bf16_f32) (constant S8192x4 .f32 0x00000000#32) (ix2 r a)
      = ∑ k : Fin 40, h (ix2 r k) * x3 (ix2 k a) :=
  Cert.Lib.Dot.matmul0_rc dot_S8192x40_S40x4_S8192x4_1_0_0_1_n_n ⟨rfl, rfl, rfl, rfl, rfl, rfl⟩ _ _ r a

/-- The latent's half of the hidden layer, at (r, k): the latent against ow1e. -/
theorem eo_apply (ev : FVec Ideal S8192x4 .f32) (x4 : FVec Ideal S4x40 .f32) (r : Fin 8192) (k : Fin 40) :
    matmul (F := Ideal) dot_S8192x4_S4x40_S8192x40_1_0_0_1_n_n none (truncf .bf16 ev bitsLt_bf16_f32)
        (truncf .bf16 x4 bitsLt_bf16_f32) (constant S8192x40 .f32 0x00000000#32) (ix2 r k)
      = ∑ a : Fin 4, ev (ix2 r a) * x4 (ix2 a k) :=
  Cert.Lib.Dot.matmul0_rc dot_S8192x4_S4x40_S8192x40_1_0_0_1_n_n ⟨rfl, rfl, rfl, rfl, rfl, rfl⟩ _ _ r k

/-- The graph value's half of the hidden layer, at (r, k): both operands contracted on their first axis, so column r
    of the transposed graph value against ow1g. -/
theorem go_apply (g : FVec Ideal S5x8192 .f32) (x5 : FVec Ideal S5x40 .f32) (r : Fin 8192) (k : Fin 40) :
    matmul (F := Ideal) dot_S5x8192_S5x40_S8192x40_0_0_1_1_n_n none (truncf .bf16 g bitsLt_bf16_f32)
        (truncf .bf16 x5 bitsLt_bf16_f32) (constant S8192x40 .f32 0x00000000#32) (ix2 r k)
      = ∑ b : Fin 5, g (ix2 b r) * x5 (ix2 b k) :=
  Cert.Lib.Dot.matmul0_cc dot_S5x8192_S5x40_S8192x40_0_0_1_1_n_n ⟨rfl, rfl, rfl, rfl, rfl, rfl⟩ _ _ r k

/-- The last product, at (r, d): the hidden layer against ow2. -/
theorem ho_apply (h : FVec Ideal S8192x40 .f32) (x6 : FVec Ideal S40x64 .f32) (r : Fin 8192) (d : Fin 64) :
    matmul (F := Ideal) dot_S8192x40_S40x64_S8192x64_1_0_0_1_n_n none (truncf .bf16 h bitsLt_bf16_f32)
        (truncf .bf16 x6 bitsLt_bf16_f32) (constant S8192x64 .f32 0x00000000#32) (ix2 r d)
      = ∑ k : Fin 40, h (ix2 r k) * x6 (ix2 k d) :=
  Cert.Lib.Dot.matmul0_rc dot_S8192x40_S40x64_S8192x64_1_0_0_1_n_n ⟨rfl, rfl, rfl, rfl, rfl, rfl⟩ _ _ r d

/-- The hidden layer before its rectifier, at (r, k): the latent of row r (recomputed from the block) against
    ow1e, plus column r of the graph value against ow1g. -/
theorem pay3_apply (x0 : Vec Ideal S8192x64 .f32) (x2 : Vec Ideal S64x40 .f32) (x3 : Vec Ideal S40x4 .f32)
    (x1 : Vec Ideal S5x8192 .f32) (x5 : Vec Ideal S5x40 .f32) (x4 : Vec Ideal S4x40 .f32) (r : Fin 8192) (k : Fin 40) :
    k2_pay3 (F := Ideal) x0 x2 x3 x1 x5 x4 (ix2 r k)
      = (∑ a : Fin 4, Spec.e x0 x2 x3 r a * x4 (ix2 a k)) + ∑ b : Fin 5, x1 (ix2 b r) * x5 (ix2 b k) := by
  unfold k2_pay3 k2_pay2
  refine (addf_apply _ _ _).trans ?_
  refine congrArg₂ (· + ·) ?_ ?_
  · refine (eo_apply _ _ r k).trans ?_
    refine Finset.sum_congr rfl fun a _ => ?_
    refine congrArg₂ (· * ·) ?_ (congrFun (shapeCast_self x4 _) _)
    refine (lrelu_apply _ _).trans ?_
    refine congrArg Spec.lr ?_
    refine (hw2_apply _ _ r a).trans ?_
    refine Finset.sum_congr rfl fun k' _ => ?_
    refine congrArg₂ (· * ·) ?_ rfl
    refine (lrelu_apply _ _).trans ?_
    refine congrArg Spec.lr ?_
    refine (xw1_apply _ _ r k').trans ?_
    refine Finset.sum_congr rfl fun d _ => ?_
    exact congrArg₂ (· * ·) (congrFun (shapeCast_self x0 _) _) rfl
  · refine (go_apply _ _ r k).trans ?_
    refine Finset.sum_congr rfl fun b _ => ?_
    exact congrArg₂ (· * ·) (congrFun (shapeCast_self x1 _) _) (congrFun (shapeCast_self x5 _) _)

/-- What the body stores, at (r, d): twice the entry of x plus the rectified hidden layer of row r against ow2 — the
    specification's update of the block, its latent recomputed from the block. -/
theorem pay1_apply (x0 : Vec Ideal S8192x64 .f32) (x1 : Vec Ideal S5x8192 .f32) (x2 : Vec Ideal S64x40 .f32)
    (x3 : Vec Ideal S40x4 .f32) (x4 : Vec Ideal S4x40 .f32) (x5 : Vec Ideal S5x40 .f32) (x6 : Vec Ideal S40x64 .f32)
    (r : Fin 8192) (d : Fin 64) :
    k2_pay1 (F := Ideal) (k2_pay2 x0) (k2_pay3 x0 x2 x3 x1 x5 x4) (k2_pay4 x0 x2 x3 x1 x5 x4) (k2_pay5 x0 x2 x3 x1 x5 x4) x6 (ix2 r d)
      = Spec.updK x0 (Spec.E x0 x2 x3) x1 x4 x5 x6 r d := by
  unfold k2_pay1 k2_pay4 k2_pay5
  refine (addf_apply _ _ _).trans ?_
  refine Eq.trans (congrArg₂ (· + ·) (mulf_apply _ _ _) (ho_apply _ _ r d)) ?_
  refine Eq.trans ?_ (Spec.double_add _ _)
  refine congrArg₂ (· + ·) (congrArg₂ (· * ·) rfl (congrFun (shapeCast_self x0 _) _)) ?_
  refine Finset.sum_congr rfl fun k _ => ?_
  refine congrArg₂ (· * ·) ?_ rfl
  refine (lrelu_apply _ _).trans ?_
  exact congrArg Spec.lr (pay3_apply x0 x2 x3 x1 x5 x4 r k)

/-- THE BLOCK: the body's result for the output window, at row r and feature d of the block, is the specification's
    update of the input blocks there — the node block as an array of 8192 rows, its latent recomputed from it. -/
theorem out2_7_apply (x0 : Vec Ideal S8192x64 .f32) (x1 : Vec Ideal S5x8192 .f32) (x2 : Vec Ideal S64x40 .f32)
    (x3 : Vec Ideal S40x4 .f32) (x4 : Vec Ideal S4x40 .f32) (x5 : Vec Ideal S5x40 .f32) (x6 : Vec Ideal S40x64 .f32)
    (r : Fin 8192) (d : Fin 64) :
    Gen.out2_7 (F := Ideal) x0 x1 x2 x3 x4 x5 x6 (ix2 r d) = Spec.updK x0 (Spec.E x0 x2 x3) x1 x4 x5 x6 r d := by
  unfold Gen.out2_7
  rw [View.canon_unit_zero hz]
  simp only [View.ld_unit_zero (S := S8192x64) hz, View.ld_unit_zero (S := S5x8192) hz, View.ld_unit_zero (S := S64x40) hz,
    View.ld_unit_zero (S := S40x4) hz, View.ld_unit_zero (S := S4x40) hz, View.ld_unit_zero (S := S5x40) hz,
    View.ld_unit_zero (S := S40x64) hz]
  exact pay1_apply x0 x1 x2 x3 x4 x5 x6 r d

/-! ## Part 2: from the blocks to the array -/

/-- The update of a block is the update of the whole arrays at the row the block's row sits at: an entry of the
    update at node r depends on row r of x, on column r of the transposed graph value, and on the weights — so if row
    r of the block is row i of the array, column r of the graph value's block is column i of the graph value, and
    the weights agree, the block's update at (r, d) is the arrays' update at the index j = (i, d). The latent is
    recomputed from x on both sides, so it follows row r of the block to row i of the array as well. -/
theorem updK_bridge (xb : Spec.Arr 8192 64) (X : Spec.Arr 1048576 64) (gb : Spec.Arr 5 8192) (GT : Spec.Arr 5 1048576)
    (w1 w1' : Spec.Arr 64 40) (w2 w2' : Spec.Arr 40 4) (o1e o1e' : Spec.Arr 4 40) (o1g o1g' : Spec.Arr 5 40)
    (o2 o2' : Spec.Arr 40 64) (r : Fin 8192) (d : Fin 64) (j : (⟨2, ![1048576, 64]⟩ : Shape).Idx) (i : Fin 1048576)
    (hj0 : (j 0).val = i.val) (hj1 : (j 1).val = d.val)
    (hx : ∀ d' : Fin 64, xb (ix2 r d') = X (ix2 i d')) (hg : ∀ b : Fin 5, gb (ix2 b r) = GT (ix2 b i))
    (h1 : w1 = w1') (h2 : w2 = w2') (h3 : o1e = o1e') (h4 : o1g = o1g') (h5 : o2 = o2') :
    Spec.updK xb (Spec.E xb w1 w2) gb o1e o1g o2 r d = Spec.UpdK X (Spec.E X w1' w2') GT o1e' o1g' o2' j := by
  subst h1 h2 h3 h4 h5
  obtain ⟨p, q, rfl⟩ : ∃ (p : Fin 1048576) (q : Fin 64), j = ix2 p q := ⟨j 0, j 1, eq_ix2 j⟩
  obtain rfl : p = i := Fin.ext hj0
  obtain rfl : q = d := Fin.ext hj1
  have he : ∀ a : Fin 4, Spec.E xb w1 w2 (ix2 r a) = Spec.E X w1 w2 (ix2 p a) := fun a => by
    show Spec.e xb w1 w2 r a = Spec.e X w1 w2 p a
    unfold Spec.e
    simp only [hx]
  show Spec.updK xb (Spec.E xb w1 w2) gb o1e o1g o2 r q = Spec.updK X (Spec.E X w1 w2) GT o1e o1g o2 p q
  unfold Spec.updK Spec.hidK
  simp only [hx, hg, he]

section Arrays

variable (V : (c : Dev nD) → (b : Ref sig .tc) → Buf (Elt Ideal) ((c : Thread nD τ).loc b))

/-- The printed index maps, decided over the 128 grid points: the node block and the output block are at block
    index (t, 0), the graph value's block at (0, t), every weight matrix at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row r of the node block at point t is row 8192 · t + r of the node array. -/
theorem blk0_apply (c : Dev nD) (t : Fin cfg2.N) (r : Fin 8192) (d : Fin 64) (i : Fin 1048576)
    (hi : i.val = 8192 * t.val + r.val) :
    (iblk2 V c 0 t : Vec Ideal S8192x64 .f32) (ix2 r d) = (V c main_v14_0 : Spec.Arr 1048576 64) (ix2 i d) := by
  obtain ⟨e0, e1, -⟩ := idx_facts t
  unfold iblk2
  rw [View.read_apply]
  show V c main_v14_0 _ = V c main_v14_0 _
  congr 1
  funext a
  apply Fin.ext
  match a with
  | ⟨0, _⟩ => show win2_0.index t (0 : Fin 2) * 8192 + 1 * r.val = i.val; rw [e0, hi]; omega
  | ⟨1, _⟩ => show win2_0.index t (1 : Fin 2) * 64 + 1 * d.val = d.val; rw [e1]; omega

/-- Column r of the graph value's block at point t is column 8192 · t + r of the transposed graph value. -/
theorem blk1_apply (c : Dev nD) (t : Fin cfg2.N) (b : Fin 5) (r : Fin 8192) (i : Fin 1048576)
    (hi : i.val = 8192 * t.val + r.val) :
    (iblk2 V c 1 t : Vec Ideal S5x8192 .f32) (ix2 b r) = (V c main_v24 : Spec.Arr 5 1048576) (ix2 b i) := by
  obtain ⟨-, -, e0, e1, -⟩ := idx_facts t
  unfold iblk2
  rw [View.read_apply]
  show V c main_v24 _ = V c main_v24 _
  congr 1
  funext a
  apply Fin.ext
  match a with
  | ⟨0, _⟩ => show win2_1.index t (0 : Fin 2) * 5 + 1 * b.val = b.val; rw [e0]; omega
  | ⟨1, _⟩ => show win2_1.index t (1 : Fin 2) * 8192 + 1 * r.val = i.val; rw [e1, hi]; omega

/-- The block of ew1 at any point is the whole matrix. -/
theorem blk2_eq (c : Dev nD) (t : Fin cfg2.N) :
    (iblk2 V c 2 t : Spec.Arr 64 40) = (V c main_arg8 : Spec.Arr 64 40) := by
  obtain ⟨-, -, -, -, e0, e1, -⟩ := idx_facts t
  funext y
  unfold iblk2
  rw [View.read_apply]
  show V c main_arg8 _ = V c main_arg8 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 40 + 1 * (y 1).val = (y 1).val; rw [e1]; omega

/-- The block of ew2 at any point is the whole matrix. -/
theorem blk3_eq (c : Dev nD) (t : Fin cfg2.N) :
    (iblk2 V c 3 t : Spec.Arr 40 4) = (V c main_arg9 : Spec.Arr 40 4) := by
  obtain ⟨-, -, -, -, -, -, e0, e1, -⟩ := idx_facts t
  funext y
  unfold iblk2
  rw [View.read_apply]
  show V c main_arg9 _ = V c main_arg9 _
  congr 1
  funext a
  apply Fin.ext
  match a with
  | ⟨0, _⟩ => show win2_3.index t (0 : Fin 2) * 40 + 1 * (y 0).val = (y 0).val; rw [e0]; omega
  | ⟨1, _⟩ => show win2_3.index t (1 : Fin 2) * 4 + 1 * (y 1).val = (y 1).val; rw [e1]; omega

/-- The block of ow1e (the first four rows of ow1) at any point is the whole matrix. -/
theorem blk4_eq (c : Dev nD) (t : Fin cfg2.N) :
    (iblk2 V c 4 t : Spec.Arr 4 40) = (V c main_v25 : Spec.Arr 4 40) := by
  obtain ⟨-, -, -, -, -, -, -, -, e0, e1, -⟩ := idx_facts t
  funext y
  unfold iblk2
  rw [View.read_apply]
  show V c main_v25 _ = V c main_v25 _
  congr 1
  funext a
  apply Fin.ext
  match a with
  | ⟨0, _⟩ => show win2_4.index t (0 : Fin 2) * 4 + 1 * (y 0).val = (y 0).val; rw [e0]; omega
  | ⟨1, _⟩ => show win2_4.index t (1 : Fin 2) * 40 + 1 * (y 1).val = (y 1).val; rw [e1]; omega

/-- The block of ow1g (the last five rows of ow1) at any point is the whole matrix. -/
theorem blk5_eq (c : Dev nD) (t : Fin cfg2.N) :
    (iblk2 V c 5 t : Spec.Arr 5 40) = (V c main_v26 : Spec.Arr 5 40) := by
  obtain ⟨-, -, -, -, -, -, -, -, -, -, e0, e1, -⟩ := idx_facts t
  funext y
  unfold iblk2
  rw [View.read_apply]
  show V c main_v26 _ = V c main_v26 _
  congr 1
  funext a
  apply Fin.ext
  match a with
  | ⟨0, _⟩ => show win2_5.index t (0 : Fin 2) * 5 + 1 * (y 0).val = (y 0).val; rw [e0]; omega
  | ⟨1, _⟩ => show win2_5.index t (1 : Fin 2) * 40 + 1 * (y 1).val = (y 1).val; rw [e1]; omega

/-- The block of ow2 at any point is the whole matrix. -/
theorem blk6_eq (c : Dev nD) (t : Fin cfg2.N) :
    (iblk2 V c 6 t : Spec.Arr 40 64) = (V c main_arg13 : Spec.Arr 40 64) := by
  obtain ⟨-, -, -, -, -, -, -, -, -, -, -, -, e0, e1, -⟩ := idx_facts t
  funext y
  unfold iblk2
  rw [View.read_apply]
  show V c main_arg13 _ = V c main_arg13 _
  congr 1
  funext a
  apply Fin.ext
  match a with
  | ⟨0, _⟩ => show win2_6.index t (0 : Fin 2) * 40 + 1 * (y 0).val = (y 0).val; rw [e0]; omega
  | ⟨1, _⟩ => show win2_6.index t (1 : Fin 2) * 64 + 1 * (y 1).val = (y 1).val; rw [e1]; omega

/-- The specification's update of the arrays as the region finds them: the node array, its latent, the transposed
    graph value, the two halves of ow1 and ow2. -/
abbrev G (c : Dev nD) : Spec.Arr 1048576 64 :=
  Spec.UpdK (V c main_v14_0 : Spec.Arr 1048576 64)
    (Spec.E (V c main_v14_0 : Spec.Arr 1048576 64) (V c main_arg8 : Spec.Arr 64 40) (V c main_arg9 : Spec.Arr 40 4))
    (V c main_v24 : Spec.Arr 5 1048576) (V c main_v25 : Spec.Arr 4 40) (V c main_v26 : Spec.Arr 5 40)
    (V c main_arg13 : Spec.Arr 40 64)

/-- WHAT POINT t WRITES BACK is block t of the update of the whole arrays: the body's result is the update of the
    blocks (Part 1), and row r of the blocks is row 8192 · t + r of the arrays, which is where entry (r, d) of the
    output's block sits in the output array. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  obtain ⟨-, -, -, -, -, -, -, -, -, -, -, -, -, -, e70, e71⟩ := idx_facts t
  have ht : t.val < 128 := Nat.lt_of_lt_of_eq t.isLt N_2
  funext j
  revert j
  show ∀ j : S8192x64.Idx, out2_7 (iblk2 V c 0 t) (iblk2 V c 1 t) (iblk2 V c 2 t) (iblk2 V c 3 t) (iblk2 V c 4 t)
      (iblk2 V c 5 t) (iblk2 V c 6 t) j = G V c (((cfg2.win 7).blk t).view.emb j)
  intro j
  obtain ⟨r, d, rfl⟩ : ∃ (r : Fin 8192) (d : Fin 64), j = ix2 r d := ⟨j 0, j 1, eq_ix2 j⟩
  refine (out2_7_apply _ _ _ _ _ _ _ r d).trans ?_
  refine updK_bridge _ _ _ _ _ _ _ _ _ _ _ _ _ _ r d _ ⟨8192 * t.val + r.val, by have := r.isLt; omega⟩ ?_ ?_
    (fun d' => blk0_apply V c t r d' _ rfl) (fun b => blk1_apply V c t b r _ rfl)
    (blk2_eq V c t) (blk3_eq V c t) (blk4_eq V c t) (blk5_eq V c t) (blk6_eq V c t)
  · show win2_7.index t (0 : Fin 2) * 8192 + 1 * r.val = 8192 * t.val + r.val
    rw [e70]; omega
  · show win2_7.index t (1 : Fin 2) * 64 + 1 * d.val = d.val
    rw [e71]; omega

/-- An index of the output array is in point t's block iff each coordinate is in the block's range on its axis. -/
theorem mem_blk (t : Fin cfg2.N) (i : S1048576x64.Idx) :
    i ∈ ((cfg2.win 7).blk t).view.set ↔ ∀ a : Fin 2, win2_7.index t a * S8192x64.size a ≤ (i a).val
      ∧ (i a).val < win2_7.index t a * S8192x64.size a + S8192x64.size a := by
  show i ∈ ((View.whole main_v27).slice (win2_7.rect t)).set ↔ _
  rw [View.set_slice_whole, Rect.mem_set_unit]
  exact Iff.rfl

/-- The 128 blocks of 8192 rows tile the 1048576 rows: row i is in the block of point i / 8192. -/
theorem cover (i : S1048576x64.Idx) :
    ∃ t : Fin cfg2.N, (cfg2.win 7).flush t = true ∧ i ∈ ((cfg2.win 7).blk t).view.set := by
  have h0 : (i 0).val < 1048576 := (i 0).isLt
  have h1 : (i 1).val < 64 := (i 1).isLt
  have hN : cfg2.N = 128 := N_2
  have ht : (i 0).val / 8192 < cfg2.N := by rw [hN]; omega
  refine ⟨⟨(i 0).val / 8192, ht⟩, flush2_7 _, ?_⟩
  rw [mem_blk]
  obtain ⟨-, -, -, -, -, -, -, -, -, -, -, -, -, -, e70, e71⟩ := idx_facts ⟨(i 0).val / 8192, ht⟩
  intro a
  match a with
  | ⟨0, _⟩ =>
    show win2_7.index ⟨(i 0).val / 8192, ht⟩ (0 : Fin 2) * 8192 ≤ (i 0).val
      ∧ (i 0).val < win2_7.index ⟨(i 0).val / 8192, ht⟩ (0 : Fin 2) * 8192 + 8192
    rw [e70]
    show (i 0).val / 8192 * 8192 ≤ (i 0).val ∧ (i 0).val < (i 0).val / 8192 * 8192 + 8192
    omega
  | ⟨1, _⟩ =>
    show win2_7.index ⟨(i 0).val / 8192, ht⟩ (1 : Fin 2) * 64 ≤ (i 1).val
      ∧ (i 1).val < win2_7.index ⟨(i 0).val / 8192, ht⟩ (1 : Fin 2) * 64 + 64
    rw [e71]; omega

/-- THE ARRAY: after the region the output array is the specification's update of the arrays the region found —
    the node array, its latent recomputed from it, the transposed graph value, the halves of ow1 and ow2. -/
theorem reg2_arr7 (c : Dev nD) :
    ((Gen.dat2 (F := Ideal) V c).arrAt 7 cfg2.N : Spec.Arr 1048576 64)
      = Spec.UpdK (V c main_v14_0 : Spec.Arr 1048576 64)
          (Spec.E (V c main_v14_0 : Spec.Arr 1048576 64) (V c main_arg8 : Spec.Arr 64 40) (V c main_arg9 : Spec.Arr 40 4))
          (V c main_v24 : Spec.Arr 5 1048576) (V c main_v25 : Spec.Arr 4 40) (V c main_v26 : Spec.Arr 5 40)
          (V c main_arg13 : Spec.Arr 40 64) :=
  (Gen.dat2 (F := Ideal) V c).arrAt_eq_of_cover 7 (G V c) (fun t _ => flushed_eq V c t) cover

end Arrays

end Cert.KernelIdeal.Val2

end
-- ==== Proof.KHostA.lean ====
/-
  The kernel program's host steps before its second region, read as values.

  The program runs a stretch of host operations (the clip of the graph ids into [0, 4095]), its first region (the
  per-node latent, written transposed), and a second stretch: the latent transposed back, scattered and summed
  by graph id, the per-graph network on the sums, the read-back of its result at each node's graph id, that
  transposed, and the two row blocks of the first update weight. This file states what each buffer the later
  steps read holds at the two boundaries: the clipped ids after the first stretch; every argument array and the
  clipped ids unchanged by the first stretch, the first region and the second stretch; the first region's
  result array as the fold of its write-backs; and the second stretch's three results as terms over the
  contents at the first region's exit.
-/
import proofs.«424516_j14181982011740_3_alg».proof.Proof.Gen.KernelIdeal.Frame
import proofs.«424516_j14181982011740_3_alg».proof.Proof.HostFns
import proofs.«424516_j14181982011740_3_alg».proof.Proof.KRecs
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ValA

open Cert.KernelIdeal Cert.KernelIdeal.Gen Cert.KernelIdeal.Val
open Cert

variable (m : (ℓ : Loc nD τ sig) → Buf (Elt Ideal) ℓ) (ρ : Dev nD → PrngReg) (c : Dev nD)

/-! ## The first stretch -/

/-- The clip of the graph ids, as the first stretch leaves it. -/
theorem s0_v0 : (W2 m ρ c (Proc.devRef .tc main_v0) : IVec S1048576 32)
    = HF.clipV KT.hb (W0 m ρ c (Proc.devRef .tc main_arg1)) := by
  show StableHlo.after hostOps0_1 (StableHlo.after hostOps0 (W0 m ρ c)) (Proc.devRef .tc main_v0) = _
  after_results
  rfl

/-- The buffers the first stretch writes. -/
abbrev wr0 : List (Ref sig .tc) :=
  [main_c, main_c_0, main_call0_v0, main_call0_v1, main_call0_v2, main_call0_v3, main_call0_v4, main_v0]

theorem wr0_a : (hostOps0 : List (HloOp τ sig (Elt Ideal))).Forall fun op =>
    op.writes ⊆ (wr0.map (Proc.devRef (τ := τ) .tc)).toFinset := by
  simp only [hostOps0, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr0_b : (hostOps0_1 : List (HloOp τ sig (Elt Ideal))).Forall fun op =>
    op.writes ⊆ (wr0.map (Proc.devRef (τ := τ) .tc)).toFinset := by
  simp only [hostOps0_1, List.Forall, StableHlo.nullary_writes, StableHlo.unary_writes, StableHlo.binary_writes,
    StableHlo.ternary_writes, Finset.singleton_subset_iff]
  repeat' apply And.intro
  all_goals exact List.mem_toFinset.mpr (List.mem_map_of_mem (by decide))

/-- A buffer the first stretch does not write holds after it what it held at launch. -/
theorem s0_keep (r : Ref sig .tc) (hr : r ∉ wr0) :
    W2 m ρ c (Proc.devRef .tc r) = W0 m ρ c (Proc.devRef .tc r) :=
  (StableHlo.after_of_writes_sub hostOps0_1 _ wr0_b hr).trans (StableHlo.after_of_writes_sub hostOps0 _ wr0_a hr)

theorem s0_keep_arg0 : W2 m ρ c (Proc.devRef .tc main_arg0) = W0 m ρ c (Proc.devRef .tc main_arg0) := s0_keep m ρ c _ (by decide)
theorem s0_keep_arg2 : W2 m ρ c (Proc.devRef .tc main_arg2) = W0 m ρ c (Proc.devRef .tc main_arg2) := s0_keep m ρ c _ (by decide)
theorem s0_keep_arg3 : W2 m ρ c (Proc.devRef .tc main_arg3) = W0 m ρ c (Proc.devRef .tc main_arg3) := s0_keep m ρ c _ (by decide)
theorem s0_keep_arg4 : W2 m ρ c (Proc.devRef .tc main_arg4) = W0 m ρ c (Proc.devRef .tc main_arg4) := s0_keep m ρ c _ (by decide)
theorem s0_keep_arg5 : W2 m ρ c (Proc.devRef .tc main_arg5) = W0 m ρ c (Proc.devRef .tc main_arg5) := s0_keep m ρ c _ (by decide)
theorem s0_keep_arg6 : W2 m ρ c (Proc.devRef .tc main_arg6) = W0 m ρ c (Proc.devRef .tc main_arg6) := s0_keep m ρ c _ (by decide)
theorem s0_keep_arg7 : W2 m ρ c (Proc.devRef .tc main_arg7) = W0 m ρ c (Proc.devRef .tc main_arg7) := s0_keep m ρ c _ (by decide)
theorem s0_keep_arg8 : W2 m ρ c (Proc.devRef .tc main_arg8) = W0 m ρ c (Proc.devRef .tc main_arg8) := s0_keep m ρ c _ (by decide)
theorem s0_keep_arg9 : W2 m ρ c (Proc.devRef .tc main_arg9) = W0 m ρ c (Proc.devRef .tc main_arg9) := s0_keep m ρ c _ (by decide)
theorem s0_keep_arg10 : W2 m ρ c (Proc.devRef .tc main_arg10) = W0 m ρ c (Proc.devRef .tc main_arg10) := s0_keep m ρ c _ (by decide)
theorem s0_keep_arg11 : W2 m ρ c (Proc.devRef .tc main_arg11) = W0 m ρ c (Proc.devRef .tc main_arg11) := s0_keep m ρ c _ (by decide)
theorem s0_keep_arg12 : W2 m ρ c (Proc.devRef .tc main_arg12) = W0 m ρ c (Proc.devRef .tc main_arg12) := s0_keep m ρ c _ (by decide)
theorem s0_keep_arg13 : W2 m ρ c (Proc.devRef .tc main_arg13) = W0 m ρ c (Proc.devRef .tc main_arg13) := s0_keep m ρ c _ (by decide)
theorem s0_keep_arg14 : W2 m ρ c (Proc.devRef .tc main_arg14) = W0 m ρ c (Proc.devRef .tc main_arg14) := s0_keep m ρ c _ (by decide)
theorem s0_keep_arg15 : W2 m ρ c (Proc.devRef .tc main_arg15) = W0 m ρ c (Proc.devRef .tc main_arg15) := s0_keep m ρ c _ (by decide)

/-! ## Across the first region -/

/-- The first region's result array after the region: the write-backs of all its grid points folded. -/
theorem x0_v1 : W3 m ρ c (Proc.devRef .tc main_v1) = (dat0 (V2 m ρ) c).arrAt 3 cfg0.N := W3_arr m ρ c 3

/-- An input array of the first region holds after it what it held before. -/
theorem x0_keep_arg0 : W3 m ρ c (Proc.devRef .tc main_arg0) = W2 m ρ c (Proc.devRef .tc main_arg0) :=
  (W3_arr m ρ c 0).trans (((dat0 (V2 m ρ) c).arrAt_in 0 rfl _).trans (A_eq0 (V2 m ρ) c 0))
theorem x0_keep_arg2 : W3 m ρ c (Proc.devRef .tc main_arg2) = W2 m ρ c (Proc.devRef .tc main_arg2) :=
  (W3_arr m ρ c 1).trans (((dat0 (V2 m ρ) c).arrAt_in 1 rfl _).trans (A_eq0 (V2 m ρ) c 1))
theorem x0_keep_arg3 : W3 m ρ c (Proc.devRef .tc main_arg3) = W2 m ρ c (Proc.devRef .tc main_arg3) :=
  (W3_arr m ρ c 2).trans (((dat0 (V2 m ρ) c).arrAt_in 2 rfl _).trans (A_eq0 (V2 m ρ) c 2))

/-- A buffer that is no array of the first region holds after it what it held before. -/
theorem x0_keep (r : Ref sig .tc) (hr : r ∉ [main_arg0, main_arg2, main_arg3, main_v1]) :
    W3 m ρ c (Proc.devRef .tc r) = W2 m ρ c (Proc.devRef .tc r) :=
  W3_of_ne m ρ c r (by revert hr; revert r; decide)

theorem x0_keep_v0 : W3 m ρ c (Proc.devRef .tc main_v0) = W2 m ρ c (Proc.devRef .tc main_v0) := x0_keep m ρ c _ (by decide)
theorem x0_keep_arg1 : W3 m ρ c (Proc.devRef .tc main_arg1) = W2 m ρ c (Proc.devRef .tc main_arg1) := x0_keep m ρ c _ (by decide)
theorem x0_keep_arg4 : W3 m ρ c (Proc.devRef .tc main_arg4) = W2 m ρ c (Proc.devRef .tc main_arg4) := x0_keep m ρ c _ (by decide)
theorem x0_keep_arg5 : W3 m ρ c (Proc.devRef .tc main_arg5) = W2 m ρ c (Proc.devRef .tc main_arg5) := x0_keep m ρ c _ (by decide)
theorem x0_keep_arg6 : W3 m ρ c (Proc.devRef .tc main_arg6) = W2 m ρ c (Proc.devRef .tc main_arg6) := x0_keep m ρ c _ (by decide)
theorem x0_keep_arg7 : W3 m ρ c (Proc.devRef .tc main_arg7) = W2 m ρ c (Proc.devRef .tc main_arg7) := x0_keep m ρ c _ (by decide)
theorem x0_keep_arg8 : W3 m ρ c (Proc.devRef .tc main_arg8) = W2 m ρ c (Proc.devRef .tc main_arg8) := x0_keep m ρ c _ (by decide)
theorem x0_keep_arg9 : W3 m ρ c (Proc.devRef .tc main_arg9) = W2 m ρ c (Proc.devRef .tc main_arg9) := x0_keep m ρ c _ (by decide)
theorem x0_keep_arg10 : W3 m ρ c (Proc.devRef .tc main_arg10) = W2 m ρ c (Proc.devRef .tc main_arg10) := x0_keep m ρ c _ (by decide)
theorem x0_keep_arg11 : W3 m ρ c (Proc.devRef .tc main_arg11) = W2 m ρ c (Proc.devRef .tc main_arg11) := x0_keep m ρ c _ (by decide)
theorem x0_keep_arg12 : W3 m ρ c (Proc.devRef .tc main_arg12) = W2 m ρ c (Proc.devRef .tc main_arg12) := x0_keep m ρ c _ (by decide)
theorem x0_keep_arg13 : W3 m ρ c (Proc.devRef .tc main_arg13) = W2 m ρ c (Proc.devRef .tc main_arg13) := x0_keep m ρ c _ (by decide)
theorem x0_keep_arg14 : W3 m ρ c (Proc.devRef .tc main_arg14) = W2 m ρ c (Proc.devRef .tc main_arg14) := x0_keep m ρ c _ (by decide)
theorem x0_keep_arg15 : W3 m ρ c (Proc.devRef .tc main_arg15) = W2 m ρ c (Proc.devRef .tc main_arg15) := x0_keep m ρ c _ (by decide)

/-! ## The second stretch -/

/-- The buffers the second stretch writes. -/
abbrev wr1 : List (Ref sig .tc) :=
  [main_v2, main_cst, main_v3, main_v4, main_v5, main_v6, main_cst_1,
   main_call1_cst, main_call1_v0, main_call1_v1, main_call1_v2, main_call1_v3, main_call1_v4, main_v7,
   main_v8, main_cst_2,
   main_call2_cst, main_call2_v0, main_call2_v1, main_call2_v2, main_call2_v3, main_call2_v4, main_v9,
   main_call3_c, main_call3_v0, main_call3_v1, main_call3_c_0, main_call3_v2, main_call3_v3, main_call3_v4, main_call3_v5,
   main_call3_c_1, main_call3_c_2, main_call3_v6, main_call3_v7, main_call3_v8, main_call3_v9, main_call3_v10,
   main_call3_v11, main_call3_c_3, main_call3_v12, main_call3_v13, main_call3_v14, main_call3_cst, main_call3_v15, main_v10,
   main_v11, main_v12, main_v13]

theorem wr1_a : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr1_b : (hostOps1_1 : List (HloOp τ sig (Elt Ideal))).Forall fun op =>
    op.writes ⊆ (wr1.map (Proc.devRef (τ := τ) .tc)).toFinset := by
  simp only [hostOps1_1, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr1_c : (hostOps1_2 : List (HloOp τ sig (Elt Ideal))).Forall fun op =>
    op.writes ⊆ (wr1.map (Proc.devRef (τ := τ) .tc)).toFinset := by
  simp only [hostOps1_2, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr1_d : (hostOps1_3 : List (HloOp τ sig (Elt Ideal))).Forall fun op =>
    op.writes ⊆ (wr1.map (Proc.devRef (τ := τ) .tc)).toFinset := by
  simp only [hostOps1_3, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr1_e : (hostOps1_4 : List (HloOp τ sig (Elt Ideal))).Forall fun op =>
    op.writes ⊆ (wr1.map (Proc.devRef (τ := τ) .tc)).toFinset := by
  simp only [hostOps1_4, List.Forall, StableHlo.nullary_writes, StableHlo.unary_writes, StableHlo.binary_writes,
    StableHlo.ternary_writes, Finset.singleton_subset_iff]
  repeat' apply And.intro
  all_goals exact List.mem_toFinset.mpr (List.mem_map_of_mem (by decide))

theorem wr1_f : (hostOps1_5 : List (HloOp τ sig (Elt Ideal))).Forall fun op =>
    op.writes ⊆ (wr1.map (Proc.devRef (τ := τ) .tc)).toFinset := by
  simp only [hostOps1_5, List.Forall, StableHlo.nullary_writes, StableHlo.unary_writes, StableHlo.binary_writes,
    StableHlo.ternary_writes, Finset.singleton_subset_iff]
  repeat' apply And.intro
  all_goals exact List.mem_toFinset.mpr (List.mem_map_of_mem (by decide))

/-- A buffer the second stretch does not write holds after it what it held after the first region. -/
theorem s1_keep (r : Ref sig .tc) (hr : r ∉ wr1) :
    W9 m ρ c (Proc.devRef .tc r) = W3 m ρ c (Proc.devRef .tc r) :=
  (StableHlo.after_of_writes_sub hostOps1_5 _ wr1_f hr).trans
  ((StableHlo.after_of_writes_sub hostOps1_4 _ wr1_e hr).trans
  ((StableHlo.after_of_writes_sub hostOps1_3 _ wr1_d hr).trans
  ((StableHlo.after_of_writes_sub hostOps1_2 _ wr1_c hr).trans
  ((StableHlo.after_of_writes_sub hostOps1_1 _ wr1_b hr).trans
  (StableHlo.after_of_writes_sub hostOps1 _ wr1_a hr)))))

theorem s1_keep_v0 : W9 m ρ c (Proc.devRef .tc main_v0) = W3 m ρ c (Proc.devRef .tc main_v0) := s1_keep m ρ c _ (by decide)
theorem s1_keep_arg0 : W9 m ρ c (Proc.devRef .tc main_arg0) = W3 m ρ c (Proc.devRef .tc main_arg0) := s1_keep m ρ c _ (by decide)
theorem s1_keep_arg1 : W9 m ρ c (Proc.devRef .tc main_arg1) = W3 m ρ c (Proc.devRef .tc main_arg1) := s1_keep m ρ c _ (by decide)
theorem s1_keep_arg2 : W9 m ρ c (Proc.devRef .tc main_arg2) = W3 m ρ c (Proc.devRef .tc main_arg2) := s1_keep m ρ c _ (by decide)
theorem s1_keep_arg3 : W9 m ρ c (Proc.devRef .tc main_arg3) = W3 m ρ c (Proc.devRef .tc main_arg3) := s1_keep m ρ c _ (by decide)
theorem s1_keep_arg4 : W9 m ρ c (Proc.devRef .tc main_arg4) = W3 m ρ c (Proc.devRef .tc main_arg4) := s1_keep m ρ c _ (by decide)
theorem s1_keep_arg5 : W9 m ρ c (Proc.devRef .tc main_arg5) = W3 m ρ c (Proc.devRef .tc main_arg5) := s1_keep m ρ c _ (by decide)
theorem s1_keep_arg6 : W9 m ρ c (Proc.devRef .tc main_arg6) = W3 m ρ c (Proc.devRef .tc main_arg6) := s1_keep m ρ c _ (by decide)
theorem s1_keep_arg7 : W9 m ρ c (Proc.devRef .tc main_arg7) = W3 m ρ c (Proc.devRef .tc main_arg7) := s1_keep m ρ c _ (by decide)
theorem s1_keep_arg8 : W9 m ρ c (Proc.devRef .tc main_arg8) = W3 m ρ c (Proc.devRef .tc main_arg8) := s1_keep m ρ c _ (by decide)
theorem s1_keep_arg9 : W9 m ρ c (Proc.devRef .tc main_arg9) = W3 m ρ c (Proc.devRef .tc main_arg9) := s1_keep m ρ c _ (by decide)
theorem s1_keep_arg10 : W9 m ρ c (Proc.devRef .tc main_arg10) = W3 m ρ c (Proc.devRef .tc main_arg10) := s1_keep m ρ c _ (by decide)
theorem s1_keep_arg11 : W9 m ρ c (Proc.devRef .tc main_arg11) = W3 m ρ c (Proc.devRef .tc main_arg11) := s1_keep m ρ c _ (by decide)
theorem s1_keep_arg12 : W9 m ρ c (Proc.devRef .tc main_arg12) = W3 m ρ c (Proc.devRef .tc main_arg12) := s1_keep m ρ c _ (by decide)
theorem s1_keep_arg13 : W9 m ρ c (Proc.devRef .tc main_arg13) = W3 m ρ c (Proc.devRef .tc main_arg13) := s1_keep m ρ c _ (by decide)
theorem s1_keep_arg14 : W9 m ρ c (Proc.devRef .tc main_arg14) = W3 m ρ c (Proc.devRef .tc main_arg14) := s1_keep m ρ c _ (by decide)
theorem s1_keep_arg15 : W9 m ρ c (Proc.devRef .tc main_arg15) = W3 m ρ c (Proc.devRef .tc main_arg15) := s1_keep m ρ c _ (by decide)

/-- The two row blocks of the first update weight, as the second stretch slices them. -/
theorem s1_v12 : (W9 m ρ c (Proc.devRef .tc main_v12) : FVec Ideal S4x40 .f32)
    = extractStridedSlice S4x40 ![0, 0] (W3 m ρ c (Proc.devRef .tc main_arg6) : FVec Ideal S9x40 .f32) slices_S9x40_S4x40_0_0 := by
  show StableHlo.after hostOps1_5 (W8 m ρ c) (Proc.devRef .tc main_v12) = _
  after_results
theorem s1_v13 : (W9 m ρ c (Proc.devRef .tc main_v13) : FVec Ideal S5x40 .f32)
    = extractStridedSlice S5x40 ![4, 0] (W3 m ρ c (Proc.devRef .tc main_arg6) : FVec Ideal S9x40 .f32) slices_S9x40_S5x40_4_0 := by
  show StableHlo.after hostOps1_5 (W8 m ρ c) (Proc.devRef .tc main_v13) = _
  after_results

/-! ## The rectifier with its slope read from a buffer -/

/-- The rectifier as the callee spells it, its slope an argument: the caller hands it the slope's buffer. -/
def lreluS {s : Shape} (hb : HF.S0.BroadcastsInDim s (![] : Fin 0 → Fin s.rank)) (v : FVec Ideal s .f32)
    (a : FVec Ideal HF.S0 .f32) : FVec Ideal s .f32 :=
  select (cmpf .oge v (broadcastInDim s ![] hb (constant HF.S0 .f32 0x00000000#32))) v
    (mulf (broadcastInDim s ![] hb (id a)) v)

/-- With the slope constant in the buffer it is the array rectifier. -/
theorem lreluS_const {s : Shape} (hb : HF.S0.BroadcastsInDim s (![] : Fin 0 → Fin s.rank)) (v : FVec Ideal s .f32) :
    lreluS hb v (constant HF.S0 .f32 0x3C23D70A#32) = HF.lreluV hb v := rfl

/-! ## The read-back from the id column on -/

/-- The in-range mask of the id column, the rows gathered at it, and the select between them and the not-a-number
    word. -/
def takeC (T : HF.TakeFacts) (gd : GatherDims (HF.M2 4096 5) (HF.M2 1048576 1) (HF.M2 1048576 5))
    (g : FVec Ideal (HF.M2 4096 5) .f32) (col : IVec (HF.M2 1048576 1) 32) : FVec Ideal (HF.M2 1048576 5) .f32 :=
  select
    (broadcastInDim (HF.M2 1048576 5) ![0] T.hbm
      (Host.reduce IntOp.andi
        (andi (cmpi .sge col (broadcastInDim (HF.M2 1048576 1) ![] T.hb01 (constantI HF.S0 32 0#32)))
          (cmpi .sle col
            (broadcastInDim (HF.M2 1048576 1) ![0, 1] T.hb1n (broadcastInDim (HF.M2 1 1) ![1] T.hb11 (constantI (HF.V1 1) 32 4095#32)))))
        (constantI HF.S0 1 1#1) T.hred T.hS0))
    (Host.gather gd g col)
    (broadcastInDim (HF.M2 1048576 5) ![] T.hbn (constant HF.S0 .f32 0x7FC00000#32))

/-- The read-back is that, at the column of the wrapped ids. -/
theorem takeV_eq (T : HF.TakeFacts) (gd : GatherDims (HF.M2 4096 5) (HF.M2 1048576 1) (HF.M2 1048576 5))
    (g : FVec Ideal (HF.M2 4096 5) .f32) (a : IVec (HF.V1 1048576) 32) :
    HF.takeV T gd g a = takeC T gd g (HF.colV T.hbc (HF.normV T.hb a)) := rfl

/-! ## The second stretch, operation list by operation list

Each list is read over arbitrary entry contents V: what it leaves in the buffer the next list reads, as a function of
V at the buffers it reads, and that it leaves alone the buffers read further on. The reductions, gathers and
scatter-adds stay folded: the equations never look inside them. -/

section Lists

variable (V : Valuation τ sig (Elt Ideal))

attribute [local irreducible] Host.reduce Host.gather Host.scatterAdd in
/-- The first list: the per-graph sums of the transposed latent, times the first weight matrix. -/
theorem l1_v6 : @Eq (FVec Ideal S4096x40 .f32) (StableHlo.after hostOps1 V (Proc.devRef .tc main_v6))
      (Host.dotGeneral (φ₁ := .f32) (φ₂ := .f32) KR.dg1 none
        (Host.scatterAdd KR.sc4 (HF.zerosV KR.bz4) (HF.colV KT.hbc (V (Proc.devRef .tc main_v0)))
          (transpose S1048576x4 [1, 0] (V (Proc.devRef .tc main_v1) : FVec Ideal S4x1048576 .f32) transposes_S4x1048576_S1048576x4_1_0)) (V (Proc.devRef .tc main_arg4))) := by
  after_results <;> rfl

/-- The first list leaves the slope constant. -/
theorem l1_cst_1 : @Eq (FVec Ideal S_ .f32) (StableHlo.after hostOps1 V (Proc.devRef .tc main_cst_1))
      (constant S_ .f32 0x3C23D70A#32) := by
  after_results <;> rfl

theorem l1_keep_v0 : StableHlo.after hostOps1 V (Proc.devRef .tc main_v0) = V (Proc.devRef .tc main_v0) := by after_results
theorem l1_keep_arg5 : StableHlo.after hostOps1 V (Proc.devRef .tc main_arg5) = V (Proc.devRef .tc main_arg5) := by after_results

/-- The second list: the rectifier, its slope read from the constant's buffer. -/
theorem l1_1_v7 : @Eq (FVec Ideal S4096x40 .f32) (StableHlo.after hostOps1_1 V (Proc.devRef .tc main_v7))
      (lreluS KR.b40 (V (Proc.devRef .tc main_v6)) (V (Proc.devRef .tc main_cst_1))) := by
  after_results <;> rfl

theorem l1_1_keep_v0 : StableHlo.after hostOps1_1 V (Proc.devRef .tc main_v0) = V (Proc.devRef .tc main_v0) := by after_results
theorem l1_1_keep_arg5 : StableHlo.after hostOps1_1 V (Proc.devRef .tc main_arg5) = V (Proc.devRef .tc main_arg5) := by after_results

/-- The third list: times the second weight matrix. -/
theorem l1_2_v8 : @Eq (FVec Ideal S4096x5 .f32) (StableHlo.after hostOps1_2 V (Proc.devRef .tc main_v8))
      (Host.dotGeneral (φ₁ := .f32) (φ₂ := .f32) KR.dg2 none (V (Proc.devRef .tc main_v7)) (V (Proc.devRef .tc main_arg5))) := by
  after_results <;> rfl

theorem l1_2_cst_2 : @Eq (FVec Ideal S_ .f32) (StableHlo.after hostOps1_2 V (Proc.devRef .tc main_cst_2))
      (constant S_ .f32 0x3C23D70A#32) := by
  after_results <;> rfl

theorem l1_2_keep_v0 : StableHlo.after hostOps1_2 V (Proc.devRef .tc main_v0) = V (Proc.devRef .tc main_v0) := by after_results

/-- The fourth list: the rectifier again. -/
theorem l1_3_v9 : @Eq (FVec Ideal S4096x5 .f32) (StableHlo.after hostOps1_3 V (Proc.devRef .tc main_v9))
      (lreluS KR.b5 (V (Proc.devRef .tc main_v8)) (V (Proc.devRef .tc main_cst_2))) := by
  after_results <;> rfl

theorem l1_3_keep_v0 : StableHlo.after hostOps1_3 V (Proc.devRef .tc main_v0) = V (Proc.devRef .tc main_v0) := by after_results

/-! ### The fifth list, the masked read-back, in four parts -/

/-- The list is its first eight operations, the next ten, the nineteenth, and the last four, run in turn. -/
theorem take_split : StableHlo.after (hostOps1_4 (F := Ideal)) V
    = StableHlo.after ((hostOps1_4 (F := Ideal)).drop 19) (StableHlo.after (((hostOps1_4 (F := Ideal)).drop 18).take 1) (StableHlo.after (((hostOps1_4 (F := Ideal)).drop 8).take 10) (StableHlo.after ((hostOps1_4 (F := Ideal)).take 8) V))) := by
  simp only [hostOps1_4, List.take_succ_cons, List.take_zero, List.drop_succ_cons, List.drop_zero, StableHlo.after_cons,
    StableHlo.after_nil]

/-- The first eight operations: the ids wrapped and laid out as a column. -/
theorem take_col : @Eq (IVec S1048576x1 32) (StableHlo.after ((hostOps1_4 (F := Ideal)).take 8) V (Proc.devRef .tc main_call3_v5))
      (HF.colV KT.hbc (HF.normV KT.hb (V (Proc.devRef .tc main_v0)))) := by
  simp only [hostOps1_4, List.take_succ_cons, List.take_zero, List.drop_succ_cons, List.drop_zero]
  after_results <;> rfl

theorem take_col_keep_v9 : StableHlo.after ((hostOps1_4 (F := Ideal)).take 8) V (Proc.devRef .tc main_v9) = V (Proc.devRef .tc main_v9) := by
  simp only [hostOps1_4, List.take_succ_cons, List.take_zero, List.drop_succ_cons, List.drop_zero]
  after_results

attribute [local irreducible] Host.reduce Host.gather Host.scatterAdd in
/-- The next ten: the in-range mask of the column. -/
theorem take_mask : @Eq (IVec S1048576 1) (StableHlo.after (((hostOps1_4 (F := Ideal)).drop 8).take 10) V (Proc.devRef .tc main_call3_v12))
      (Host.reduce IntOp.andi
        (andi (cmpi .sge (V (Proc.devRef .tc main_call3_v5) : IVec S1048576x1 32) (broadcastInDim (HF.M2 1048576 1) ![] KT.hb01 (constantI HF.S0 32 0#32)))
          (cmpi .sle (V (Proc.devRef .tc main_call3_v5) : IVec S1048576x1 32)
            (broadcastInDim (HF.M2 1048576 1) ![0, 1] KT.hb1n (broadcastInDim (HF.M2 1 1) ![1] KT.hb11 (constantI (HF.V1 1) 32 4095#32)))))
        (constantI HF.S0 1 1#1) KT.hred KT.hS0) := by
  simp only [hostOps1_4, List.take_succ_cons, List.take_zero, List.drop_succ_cons, List.drop_zero]
  after_results <;> rfl

theorem take_mask_keep_v9 : StableHlo.after (((hostOps1_4 (F := Ideal)).drop 8).take 10) V (Proc.devRef .tc main_v9) = V (Proc.devRef .tc main_v9) := by
  simp only [hostOps1_4, List.take_succ_cons, List.take_zero, List.drop_succ_cons, List.drop_zero]
  after_results

theorem take_mask_keep_v5 : StableHlo.after (((hostOps1_4 (F := Ideal)).drop 8).take 10) V (Proc.devRef .tc main_call3_v5) = V (Proc.devRef .tc main_call3_v5) := by
  simp only [hostOps1_4, List.take_succ_cons, List.take_zero, List.drop_succ_cons, List.drop_zero]
  after_results

attribute [local irreducible] Host.reduce Host.gather Host.scatterAdd in
/-- The nineteenth: the rows gathered at the column. -/
theorem take_gather : @Eq (FVec Ideal S1048576x5 .f32) (StableHlo.after (((hostOps1_4 (F := Ideal)).drop 18).take 1) V (Proc.devRef .tc main_call3_v13))
      (Host.gather Kgd (V (Proc.devRef .tc main_v9)) (V (Proc.devRef .tc main_call3_v5))) := by
  simp only [hostOps1_4, List.take_succ_cons, List.take_zero, List.drop_succ_cons, List.drop_zero]
  after_results <;> rfl

theorem take_gather_keep_v12 : StableHlo.after (((hostOps1_4 (F := Ideal)).drop 18).take 1) V (Proc.devRef .tc main_call3_v12) = V (Proc.devRef .tc main_call3_v12) := by
  simp only [hostOps1_4, List.take_succ_cons, List.take_zero, List.drop_succ_cons, List.drop_zero]
  after_results

/-- The last four: the select between the gathered rows and the not-a-number word. -/
theorem take_sel : @Eq (FVec Ideal S1048576x5 .f32) (StableHlo.after ((hostOps1_4 (F := Ideal)).drop 19) V (Proc.devRef .tc main_v10))
      (select (broadcastInDim (HF.M2 1048576 5) ![0] KT.hbm (V (Proc.devRef .tc main_call3_v12) : IVec S1048576 1)) (V (Proc.devRef .tc main_call3_v13) : FVec Ideal S1048576x5 .f32)
        (broadcastInDim (HF.M2 1048576 5) ![] KT.hbn (constant HF.S0 .f32 0x7FC00000#32))) := by
  simp only [hostOps1_4, List.take_succ_cons, List.take_zero, List.drop_succ_cons, List.drop_zero]
  after_results <;> rfl

attribute [local irreducible] Host.reduce Host.gather Host.scatterAdd in
/-- The fifth list: the masked read-back at the graph ids. -/
theorem l1_4_v10 : @Eq (FVec Ideal S1048576x5 .f32) (StableHlo.after hostOps1_4 V (Proc.devRef .tc main_v10))
      (HF.takeV KT Kgd (V (Proc.devRef .tc main_v9)) (V (Proc.devRef .tc main_v0))) := by
  rw [takeV_eq, take_split, take_sel, take_gather_keep_v12, take_gather, take_mask, take_mask_keep_v9, take_mask_keep_v5,
    take_col, take_col_keep_v9]
  rfl

/-- The last list: the transpose. -/
theorem l1_5_v11 : @Eq (FVec Ideal S5x1048576 .f32) (StableHlo.after hostOps1_5 V (Proc.devRef .tc main_v11))
      (transpose S5x1048576 [1, 0] (V (Proc.devRef .tc main_v10) : FVec Ideal S1048576x5 .f32) transposes_S1048576x5_S5x1048576_1_0) := by
  after_results <;> rfl

end Lists

/-! ## The second stretch from the first region's exit, boundary by boundary -/

theorem w4_v6 : @Eq (FVec Ideal S4096x40 .f32) (W4 m ρ c (Proc.devRef .tc main_v6))
      ((Host.dotGeneral (φ₁ := .f32) (φ₂ := .f32) KR.dg1 none (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)))) := l1_v6 (W3 m ρ c)
theorem w4_cst_1 : @Eq (FVec Ideal S_ .f32) (W4 m ρ c (Proc.devRef .tc main_cst_1))
      (constant S_ .f32 0x3C23D70A#32) := l1_cst_1 (W3 m ρ c)
theorem w4_v0 : W4 m ρ c (Proc.devRef .tc main_v0) = W3 m ρ c (Proc.devRef .tc main_v0) := l1_keep_v0 (W3 m ρ c)
theorem w4_arg5 : W4 m ρ c (Proc.devRef .tc main_arg5) = W3 m ρ c (Proc.devRef .tc main_arg5) := l1_keep_arg5 (W3 m ρ c)

attribute [local irreducible] Host.reduce Host.gather Host.scatterAdd in
theorem w5_v7 : @Eq (FVec Ideal S4096x40 .f32) (W5 m ρ c (Proc.devRef .tc main_v7))
      (HF.lreluV KR.b40 (Host.dotGeneral (φ₁ := .f32) (φ₂ := .f32) KR.dg1 none (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)))) := by
  refine (l1_1_v7 (W4 m ρ c)).trans ?_
  rw [w4_cst_1, w4_v6]
  rfl
theorem w5_v0 : W5 m ρ c (Proc.devRef .tc main_v0) = W3 m ρ c (Proc.devRef .tc main_v0) := (l1_1_keep_v0 (W4 m ρ c)).trans (w4_v0 m ρ c)
theorem w5_arg5 : W5 m ρ c (Proc.devRef .tc main_arg5) = W3 m ρ c (Proc.devRef .tc main_arg5) := (l1_1_keep_arg5 (W4 m ρ c)).trans (w4_arg5 m ρ c)

theorem w6_v8 : @Eq (FVec Ideal S4096x5 .f32) (W6 m ρ c (Proc.devRef .tc main_v8))
      (Host.dotGeneral (φ₁ := .f32) (φ₂ := .f32) KR.dg2 none (HF.lreluV KR.b40 (Host.dotGeneral (φ₁ := .f32) (φ₂ := .f32) KR.dg1 none (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)))) (W3 m ρ c (Proc.devRef .tc main_arg5))) := by
  refine (l1_2_v8 (W5 m ρ c)).trans ?_
  rw [w5_v7, w5_arg5]
theorem w6_cst_2 : @Eq (FVec Ideal S_ .f32) (W6 m ρ c (Proc.devRef .tc main_cst_2))
      (constant S_ .f32 0x3C23D70A#32) := l1_2_cst_2 (W5 m ρ c)
theorem w6_v0 : W6 m ρ c (Proc.devRef .tc main_v0) = W3 m ρ c (Proc.devRef .tc main_v0) := (l1_2_keep_v0 (W5 m ρ c)).trans (w5_v0 m ρ c)

attribute [local irreducible] Host.reduce Host.gather Host.scatterAdd in
theorem w7_v9 : @Eq (FVec Ideal S4096x5 .f32) (W7 m ρ c (Proc.devRef .tc main_v9))
      ((HF.gffn KR (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)) (W3 m ρ c (Proc.devRef .tc main_arg5)))) := by
  refine (l1_3_v9 (W6 m ρ c)).trans ?_
  rw [w6_cst_2, w6_v8]
  rfl
theorem w7_v0 : W7 m ρ c (Proc.devRef .tc main_v0) = W3 m ρ c (Proc.devRef .tc main_v0) := (l1_3_keep_v0 (W6 m ρ c)).trans (w6_v0 m ρ c)

theorem w8_v10 : @Eq (FVec Ideal S1048576x5 .f32) (W8 m ρ c (Proc.devRef .tc main_v10))
      (HF.takeV KT Kgd (HF.gffn KR (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)) (W3 m ρ c (Proc.devRef .tc main_arg5))) (W3 m ρ c (Proc.devRef .tc main_v0))) := by
  refine (l1_4_v10 (W7 m ρ c)).trans ?_
  rw [w7_v9, w7_v0]

/-- What the second stretch leaves for the second region: the read-back of the per-graph network of the latent's
    sums at each node's graph id, transposed. -/
theorem s1_v11 : @Eq (FVec Ideal S5x1048576 .f32) (W9 m ρ c (Proc.devRef .tc main_v11))
      (transpose S5x1048576 [1, 0] (HF.takeV KT Kgd (HF.gffn KR (Host.scatterAdd KR.sc4 (HF.zerosV KR.bz4) (HF.colV KT.hbc (W3 m ρ c (Proc.devRef .tc main_v0)))
      (transpose S1048576x4 [1, 0] (W3 m ρ c (Proc.devRef .tc main_v1) : FVec Ideal S4x1048576 .f32) transposes_S4x1048576_S1048576x4_1_0)) (W3 m ρ c (Proc.devRef .tc main_arg4)) (W3 m ρ c (Proc.devRef .tc main_arg5))) (W3 m ρ c (Proc.devRef .tc main_v0))) transposes_S1048576x5_S5x1048576_1_0) := by
  refine (l1_5_v11 (W8 m ρ c)).trans ?_
  rw [w8_v10]

end Cert.KernelIdeal.ValA

end
-- ==== Proof.KHostB.lean ====
/-
  The second half of the kernel program's host side: from region 1's exit to the returned array.

  Region 1 and region 2 each leave their input arrays and every buffer that is no array of theirs as they found
  them, and their results at what their output windows leave. Between them the host scatters the transposed
  latent by graph id into per-graph sums, runs the two-layer rectified network on the sums, reads the result back
  at each node's graph id, transposes it, and cuts the round's [9, 40] weight matrix into its first four and last
  five rows. After region 2 it scatters that region's result by graph id and runs the last network. Each of these
  is read here as one equation between the buffer's contents at the later boundary and the shared host steps
  applied to the contents at the earlier one.
-/
import proofs.«424516_j14181982011740_3_alg».proof.Proof.Gen.KernelIdeal.Frame
import proofs.«424516_j14181982011740_3_alg».proof.Proof.HostFns
import proofs.«424516_j14181982011740_3_alg».proof.Proof.KRecs
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.ValB

open Cert.KernelIdeal Cert.KernelIdeal.Gen Cert.KernelIdeal.Val

variable (m : (ℓ : Loc nD τ sig) → Buf (Elt Ideal) ℓ) (ρ : Dev nD → PrngReg) (c : Dev nD)

/-! ## The crossing of region 1

Region 1 writes two arrays, its windows 9 and 10; the arrays of its input windows come out as they went in, and
a buffer that is no array of the region is not touched. -/

theorem x1_keep_v0 : W10 m ρ c (Proc.devRef .tc main_v0) = W9 m ρ c (Proc.devRef .tc main_v0) :=
  W10_of_ne m ρ c main_v0 (by decide)
theorem x1_keep_arg0 : W10 m ρ c (Proc.devRef .tc main_arg0) = W9 m ρ c (Proc.devRef .tc main_arg0) :=
  (W10_arr m ρ c 0).trans (((dat1 (V9 m ρ) c).arrAt_in 0 rfl _).trans (A_eq1 (V9 m ρ) c 0))
theorem x1_keep_arg1 : W10 m ρ c (Proc.devRef .tc main_arg1) = W9 m ρ c (Proc.devRef .tc main_arg1) :=
  W10_of_ne m ρ c main_arg1 (by decide)
theorem x1_keep_arg2 : W10 m ρ c (Proc.devRef .tc main_arg2) = W9 m ρ c (Proc.devRef .tc main_arg2) :=
  (W10_arr m ρ c 2).trans (((dat1 (V9 m ρ) c).arrAt_in 2 rfl _).trans (A_eq1 (V9 m ρ) c 2))
theorem x1_keep_arg3 : W10 m ρ c (Proc.devRef .tc main_arg3) = W9 m ρ c (Proc.devRef .tc main_arg3) :=
  (W10_arr m ρ c 3).trans (((dat1 (V9 m ρ) c).arrAt_in 3 rfl _).trans (A_eq1 (V9 m ρ) c 3))
theorem x1_keep_arg4 : W10 m ρ c (Proc.devRef .tc main_arg4) = W9 m ρ c (Proc.devRef .tc main_arg4) :=
  W10_of_ne m ρ c main_arg4 (by decide)
theorem x1_keep_arg5 : W10 m ρ c (Proc.devRef .tc main_arg5) = W9 m ρ c (Proc.devRef .tc main_arg5) :=
  W10_of_ne m ρ c main_arg5 (by decide)
theorem x1_keep_arg6 : W10 m ρ c (Proc.devRef .tc main_arg6) = W9 m ρ c (Proc.devRef .tc main_arg6) :=
  W10_of_ne m ρ c main_arg6 (by decide)
theorem x1_keep_arg7 : W10 m ρ c (Proc.devRef .tc main_arg7) = W9 m ρ c (Proc.devRef .tc main_arg7) :=
  (W10_arr m ρ c 6).trans (((dat1 (V9 m ρ) c).arrAt_in 6 rfl _).trans (A_eq1 (V9 m ρ) c 6))
theorem x1_keep_arg8 : W10 m ρ c (Proc.devRef .tc main_arg8) = W9 m ρ c (Proc.devRef .tc main_arg8) :=
  (W10_arr m ρ c 7).trans (((dat1 (V9 m ρ) c).arrAt_in 7 rfl _).trans (A_eq1 (V9 m ρ) c 7))
theorem x1_keep_arg9 : W10 m ρ c (Proc.devRef .tc main_arg9) = W9 m ρ c (Proc.devRef .tc main_arg9) :=
  (W10_arr m ρ c 8).trans (((dat1 (V9 m ρ) c).arrAt_in 8 rfl _).trans (A_eq1 (V9 m ρ) c 8))
theorem x1_keep_arg10 : W10 m ρ c (Proc.devRef .tc main_arg10) = W9 m ρ c (Proc.devRef .tc main_arg10) :=
  W10_of_ne m ρ c main_arg10 (by decide)
theorem x1_keep_arg11 : W10 m ρ c (Proc.devRef .tc main_arg11) = W9 m ρ c (Proc.devRef .tc main_arg11) :=
  W10_of_ne m ρ c main_arg11 (by decide)
theorem x1_keep_arg12 : W10 m ρ c (Proc.devRef .tc main_arg12) = W9 m ρ c (Proc.devRef .tc main_arg12) :=
  W10_of_ne m ρ c main_arg12 (by decide)
theorem x1_keep_arg13 : W10 m ρ c (Proc.devRef .tc main_arg13) = W9 m ρ c (Proc.devRef .tc main_arg13) :=
  W10_of_ne m ρ c main_arg13 (by decide)
theorem x1_keep_arg14 : W10 m ρ c (Proc.devRef .tc main_arg14) = W9 m ρ c (Proc.devRef .tc main_arg14) :=
  W10_of_ne m ρ c main_arg14 (by decide)
theorem x1_keep_arg15 : W10 m ρ c (Proc.devRef .tc main_arg15) = W9 m ρ c (Proc.devRef .tc main_arg15) :=
  W10_of_ne m ρ c main_arg15 (by decide)

/-- The first result of region 1 is what its window 9 leaves. -/
theorem x1_v14_0 : W10 m ρ c (Proc.devRef .tc main_v14_0) = (dat1 (V9 m ρ) c).arrAt 9 cfg1.N := W10_arr m ρ c 9
/-- The second result of region 1 is what its window 10 leaves. -/
theorem x1_v14_1 : W10 m ρ c (Proc.devRef .tc main_v14_1) = (dat1 (V9 m ρ) c).arrAt 10 cfg1.N := W10_arr m ρ c 10

/-! ## The rectifier with its slope read from a buffer -/

/-- The rectifier as the callee spells it, its slope an argument: the caller hands it the slope's buffer. -/
def lreluS {s : Shape} (hb : HF.S0.BroadcastsInDim s (![] : Fin 0 → Fin s.rank)) (v : FVec Ideal s .f32)
    (a : FVec Ideal HF.S0 .f32) : FVec Ideal s .f32 :=
  select (cmpf .oge v (broadcastInDim s ![] hb (constant HF.S0 .f32 0x00000000#32))) v
    (mulf (broadcastInDim s ![] hb (id a)) v)

/-- With the slope constant in the buffer it is the array rectifier. -/
theorem lreluS_const {s : Shape} (hb : HF.S0.BroadcastsInDim s (![] : Fin 0 → Fin s.rank)) (v : FVec Ideal s .f32) :
    lreluS hb v (constant HF.S0 .f32 0x3C23D70A#32) = HF.lreluV hb v := rfl

/-! ## The read-back from the id column on -/

/-- The in-range mask of the id column, the rows gathered at it, and the select between them and the not-a-number
    word. -/
def takeC (T : HF.TakeFacts) (gd : GatherDims (HF.M2 4096 5) (HF.M2 1048576 1) (HF.M2 1048576 5))
    (g : FVec Ideal (HF.M2 4096 5) .f32) (col : IVec (HF.M2 1048576 1) 32) : FVec Ideal (HF.M2 1048576 5) .f32 :=
  select
    (broadcastInDim (HF.M2 1048576 5) ![0] T.hbm
      (Host.reduce IntOp.andi
        (andi (cmpi .sge col (broadcastInDim (HF.M2 1048576 1) ![] T.hb01 (constantI HF.S0 32 0#32)))
          (cmpi .sle col
            (broadcastInDim (HF.M2 1048576 1) ![0, 1] T.hb1n (broadcastInDim (HF.M2 1 1) ![1] T.hb11 (constantI (HF.V1 1) 32 4095#32)))))
        (constantI HF.S0 1 1#1) T.hred T.hS0))
    (Host.gather gd g col)
    (broadcastInDim (HF.M2 1048576 5) ![] T.hbn (constant HF.S0 .f32 0x7FC00000#32))

/-- The read-back is that, at the column of the wrapped ids. -/
theorem takeV_eq (T : HF.TakeFacts) (gd : GatherDims (HF.M2 4096 5) (HF.M2 1048576 1) (HF.M2 1048576 5))
    (g : FVec Ideal (HF.M2 4096 5) .f32) (a : IVec (HF.V1 1048576) 32) :
    HF.takeV T gd g a = takeC T gd g (HF.colV T.hbc (HF.normV T.hb a)) := rfl

/-! ## Stretch 2, operation list by operation list

Each list is read over arbitrary entry contents V: what it leaves in the buffer the next list reads, as a function of
V at the buffers it reads, and that it leaves alone the buffers read further on. The reductions, gathers and
scatter-adds stay folded: the equations never look inside them. -/

section Lists

variable (V : Valuation τ sig (Elt Ideal))

attribute [local irreducible] Host.reduce Host.gather Host.scatterAdd in
/-- The first list: the per-graph sums of the transposed latent, times the first weight matrix. -/
theorem l2_v19 : @Eq (FVec Ideal S4096x40 .f32) (StableHlo.after hostOps2 V (Proc.devRef .tc main_v19))
      (Host.dotGeneral (φ₁ := .f32) (φ₂ := .f32) KR.dg1 none
        (Host.scatterAdd KR.sc4 (HF.zerosV KR.bz4) (HF.colV KT.hbc (V (Proc.devRef .tc main_v0)))
          (transpose S1048576x4 [1, 0] (V (Proc.devRef .tc main_v14_1) : FVec Ideal S4x1048576 .f32) transposes_S4x1048576_S1048576x4_1_0)) (V (Proc.devRef .tc main_arg10))) := by
  after_results <;> rfl

/-- The first list leaves the slope constant. -/
theorem l2_cst_4 : @Eq (FVec Ideal S_ .f32) (StableHlo.after hostOps2 V (Proc.devRef .tc main_cst_4))
      (constant S_ .f32 0x3C23D70A#32) := by
  after_results <;> rfl

theorem l2_keep_v0 : StableHlo.after hostOps2 V (Proc.devRef .tc main_v0) = V (Proc.devRef .tc main_v0) := by after_results
theorem l2_keep_arg11 : StableHlo.after hostOps2 V (Proc.devRef .tc main_arg11) = V (Proc.devRef .tc main_arg11) := by after_results

/-- The second list: the rectifier, its slope read from the constant's buffer. -/
theorem l2_1_v20 : @Eq (FVec Ideal S4096x40 .f32) (StableHlo.after hostOps2_1 V (Proc.devRef .tc main_v20))
      (lreluS KR.b40 (V (Proc.devRef .tc main_v19)) (V (Proc.devRef .tc main_cst_4))) := by
  after_results <;> rfl

theorem l2_1_keep_v0 : StableHlo.after hostOps2_1 V (Proc.devRef .tc main_v0) = V (Proc.devRef .tc main_v0) := by after_results
theorem l2_1_keep_arg11 : StableHlo.after hostOps2_1 V (Proc.devRef .tc main_arg11) = V (Proc.devRef .tc main_arg11) := by after_results

/-- The third list: times the second weight matrix. -/
theorem l2_2_v21 : @Eq (FVec Ideal S4096x5 .f32) (StableHlo.after hostOps2_2 V (Proc.devRef .tc main_v21))
      (Host.dotGeneral (φ₁ := .f32) (φ₂ := .f32) KR.dg2 none (V (Proc.devRef .tc main_v20)) (V (Proc.devRef .tc main_arg11))) := by
  after_results <;> rfl

theorem l2_2_cst_5 : @Eq (FVec Ideal S_ .f32) (StableHlo.after hostOps2_2 V (Proc.devRef .tc main_cst_5))
      (constant S_ .f32 0x3C23D70A#32) := by
  after_results <;> rfl

theorem l2_2_keep_v0 : StableHlo.after hostOps2_2 V (Proc.devRef .tc main_v0) = V (Proc.devRef .tc main_v0) := by after_results

/-- The fourth list: the rectifier again. -/
theorem l2_3_v22 : @Eq (FVec Ideal S4096x5 .f32) (StableHlo.after hostOps2_3 V (Proc.devRef .tc main_v22))
      (lreluS KR.b5 (V (Proc.devRef .tc main_v21)) (V (Proc.devRef .tc main_cst_5))) := by
  after_results <;> rfl

theorem l2_3_keep_v0 : StableHlo.after hostOps2_3 V (Proc.devRef .tc main_v0) = V (Proc.devRef .tc main_v0) := by after_results

/-! ### The fifth list, the masked read-back, in four parts -/

/-- The list is its first eight operations, the next ten, the nineteenth, and the last four, run in turn. -/
theorem take_split : StableHlo.after (hostOps2_4 (F := Ideal)) V
    = StableHlo.after ((hostOps2_4 (F := Ideal)).drop 19) (StableHlo.after (((hostOps2_4 (F := Ideal)).drop 18).take 1) (StableHlo.after (((hostOps2_4 (F := Ideal)).drop 8).take 10) (StableHlo.after ((hostOps2_4 (F := Ideal)).take 8) V))) := by
  simp only [hostOps2_4, List.take_succ_cons, List.take_zero, List.drop_succ_cons, List.drop_zero, StableHlo.after_cons,
    StableHlo.after_nil]

/-- The first eight operations: the ids wrapped and laid out as a column. -/
theorem take_col : @Eq (IVec S1048576x1 32) (StableHlo.after ((hostOps2_4 (F := Ideal)).take 8) V (Proc.devRef .tc main_call6_v5))
      (HF.colV KT.hbc (HF.normV KT.hb (V (Proc.devRef .tc main_v0)))) := by
  simp only [hostOps2_4, List.take_succ_cons, List.take_zero, List.drop_succ_cons, List.drop_zero]
  after_results <;> rfl

theorem take_col_keep_v22 : StableHlo.after ((hostOps2_4 (F := Ideal)).take 8) V (Proc.devRef .tc main_v22) = V (Proc.devRef .tc main_v22) := by
  simp only [hostOps2_4, List.take_succ_cons, List.take_zero, List.drop_succ_cons, List.drop_zero]
  after_results

attribute [local irreducible] Host.reduce Host.gather Host.scatterAdd in
/-- The next ten: the in-range mask of the column. -/
theorem take_mask : @Eq (IVec S1048576 1) (StableHlo.after (((hostOps2_4 (F := Ideal)).drop 8).take 10) V (Proc.devRef .tc main_call6_v12))
      (Host.reduce IntOp.andi
        (andi (cmpi .sge (V (Proc.devRef .tc main_call6_v5) : IVec S1048576x1 32) (broadcastInDim (HF.M2 1048576 1) ![] KT.hb01 (constantI HF.S0 32 0#32)))
          (cmpi .sle (V (Proc.devRef .tc main_call6_v5) : IVec S1048576x1 32)
            (broadcastInDim (HF.M2 1048576 1) ![0, 1] KT.hb1n (broadcastInDim (HF.M2 1 1) ![1] KT.hb11 (constantI (HF.V1 1) 32 4095#32)))))
        (constantI HF.S0 1 1#1) KT.hred KT.hS0) := by
  simp only [hostOps2_4, List.take_succ_cons, List.take_zero, List.drop_succ_cons, List.drop_zero]
  after_results <;> rfl

theorem take_mask_keep_v22 : StableHlo.after (((hostOps2_4 (F := Ideal)).drop 8).take 10) V (Proc.devRef .tc main_v22) = V (Proc.devRef .tc main_v22) := by
  simp only [hostOps2_4, List.take_succ_cons, List.take_zero, List.drop_succ_cons, List.drop_zero]
  after_results

theorem take_mask_keep_v5 : StableHlo.after (((hostOps2_4 (F := Ideal)).drop 8).take 10) V (Proc.devRef .tc main_call6_v5) = V (Proc.devRef .tc main_call6_v5) := by
  simp only [hostOps2_4, List.take_succ_cons, List.take_zero, List.drop_succ_cons, List.drop_zero]
  after_results

attribute [local irreducible] Host.reduce Host.gather Host.scatterAdd in
/-- The nineteenth: the rows gathered at the column. -/
theorem take_gather : @Eq (FVec Ideal S1048576x5 .f32) (StableHlo.after (((hostOps2_4 (F := Ideal)).drop 18).take 1) V (Proc.devRef .tc main_call6_v13))
      (Host.gather Kgd (V (Proc.devRef .tc main_v22)) (V (Proc.devRef .tc main_call6_v5))) := by
  simp only [hostOps2_4, List.take_succ_cons, List.take_zero, List.drop_succ_cons, List.drop_zero]
  after_results <;> rfl

theorem take_gather_keep_v12 : StableHlo.after (((hostOps2_4 (F := Ideal)).drop 18).take 1) V (Proc.devRef .tc main_call6_v12) = V (Proc.devRef .tc main_call6_v12) := by
  simp only [hostOps2_4, List.take_succ_cons, List.take_zero, List.drop_succ_cons, List.drop_zero]
  after_results

/-- The last four: the select between the gathered rows and the not-a-number word. -/
theorem take_sel : @Eq (FVec Ideal S1048576x5 .f32) (StableHlo.after ((hostOps2_4 (F := Ideal)).drop 19) V (Proc.devRef .tc main_v23))
      (select (broadcastInDim (HF.M2 1048576 5) ![0] KT.hbm (V (Proc.devRef .tc main_call6_v12) : IVec S1048576 1)) (V (Proc.devRef .tc main_call6_v13) : FVec Ideal S1048576x5 .f32)
        (broadcastInDim (HF.M2 1048576 5) ![] KT.hbn (constant HF.S0 .f32 0x7FC00000#32))) := by
  simp only [hostOps2_4, List.take_succ_cons, List.take_zero, List.drop_succ_cons, List.drop_zero]
  after_results <;> rfl

attribute [local irreducible] Host.reduce Host.gather Host.scatterAdd in
/-- The fifth list: the masked read-back at the graph ids. -/
theorem l2_4_v23 : @Eq (FVec Ideal S1048576x5 .f32) (StableHlo.after hostOps2_4 V (Proc.devRef .tc main_v23))
      (HF.takeV KT Kgd (V (Proc.devRef .tc main_v22)) (V (Proc.devRef .tc main_v0))) := by
  rw [takeV_eq, take_split, take_sel, take_gather_keep_v12, take_gather, take_mask, take_mask_keep_v22, take_mask_keep_v5,
    take_col, take_col_keep_v22]
  rfl

/-- The last list: the transpose. -/
theorem l2_5_v24 : @Eq (FVec Ideal S5x1048576 .f32) (StableHlo.after hostOps2_5 V (Proc.devRef .tc main_v24))
      (transpose S5x1048576 [1, 0] (V (Proc.devRef .tc main_v23) : FVec Ideal S1048576x5 .f32) transposes_S1048576x5_S5x1048576_1_0) := by
  after_results <;> rfl

end Lists

/-! ## Stretch 2 from region 1's exit, boundary by boundary -/

theorem w11_v19 : @Eq (FVec Ideal S4096x40 .f32) (W11 m ρ c (Proc.devRef .tc main_v19))
      ((Host.dotGeneral (φ₁ := .f32) (φ₂ := .f32) KR.dg1 none (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)))) := l2_v19 (W10 m ρ c)
theorem w11_cst_4 : @Eq (FVec Ideal S_ .f32) (W11 m ρ c (Proc.devRef .tc main_cst_4))
      (constant S_ .f32 0x3C23D70A#32) := l2_cst_4 (W10 m ρ c)
theorem w11_v0 : W11 m ρ c (Proc.devRef .tc main_v0) = W10 m ρ c (Proc.devRef .tc main_v0) := l2_keep_v0 (W10 m ρ c)
theorem w11_arg11 : W11 m ρ c (Proc.devRef .tc main_arg11) = W10 m ρ c (Proc.devRef .tc main_arg11) := l2_keep_arg11 (W10 m ρ c)

attribute [local irreducible] Host.reduce Host.gather Host.scatterAdd in
theorem w12_v20 : @Eq (FVec Ideal S4096x40 .f32) (W12 m ρ c (Proc.devRef .tc main_v20))
      (HF.lreluV KR.b40 (Host.dotGeneral (φ₁ := .f32) (φ₂ := .f32) KR.dg1 none (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)))) := by
  refine (l2_1_v20 (W11 m ρ c)).trans ?_
  rw [w11_cst_4, w11_v19]
  rfl
theorem w12_v0 : W12 m ρ c (Proc.devRef .tc main_v0) = W10 m ρ c (Proc.devRef .tc main_v0) := (l2_1_keep_v0 (W11 m ρ c)).trans (w11_v0 m ρ c)
theorem w12_arg11 : W12 m ρ c (Proc.devRef .tc main_arg11) = W10 m ρ c (Proc.devRef .tc main_arg11) := (l2_1_keep_arg11 (W11 m ρ c)).trans (w11_arg11 m ρ c)

theorem w13_v21 : @Eq (FVec Ideal S4096x5 .f32) (W13 m ρ c (Proc.devRef .tc main_v21))
      (Host.dotGeneral (φ₁ := .f32) (φ₂ := .f32) KR.dg2 none (HF.lreluV KR.b40 (Host.dotGeneral (φ₁ := .f32) (φ₂ := .f32) KR.dg1 none (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)))) (W10 m ρ c (Proc.devRef .tc main_arg11))) := by
  refine (l2_2_v21 (W12 m ρ c)).trans ?_
  rw [w12_v20, w12_arg11]
theorem w13_cst_5 : @Eq (FVec Ideal S_ .f32) (W13 m ρ c (Proc.devRef .tc main_cst_5))
      (constant S_ .f32 0x3C23D70A#32) := l2_2_cst_5 (W12 m ρ c)
theorem w13_v0 : W13 m ρ c (Proc.devRef .tc main_v0) = W10 m ρ c (Proc.devRef .tc main_v0) := (l2_2_keep_v0 (W12 m ρ c)).trans (w12_v0 m ρ c)

attribute [local irreducible] Host.reduce Host.gather Host.scatterAdd in
theorem w14_v22 : @Eq (FVec Ideal S4096x5 .f32) (W14 m ρ c (Proc.devRef .tc main_v22))
      ((HF.gffn KR (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)) (W10 m ρ c (Proc.devRef .tc main_arg11)))) := by
  refine (l2_3_v22 (W13 m ρ c)).trans ?_
  rw [w13_cst_5, w13_v21]
  rfl
theorem w14_v0 : W14 m ρ c (Proc.devRef .tc main_v0) = W10 m ρ c (Proc.devRef .tc main_v0) := (l2_3_keep_v0 (W13 m ρ c)).trans (w13_v0 m ρ c)

theorem w15_v23 : @Eq (FVec Ideal S1048576x5 .f32) (W15 m ρ c (Proc.devRef .tc main_v23))
      (HF.takeV KT Kgd (HF.gffn KR (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)) (W10 m ρ c (Proc.devRef .tc main_arg11))) (W10 m ρ c (Proc.devRef .tc main_v0))) := by
  refine (l2_4_v23 (W14 m ρ c)).trans ?_
  rw [w14_v22, w14_v0]

/-- What stretch 2 leaves in region 2's second window: the read-back of the per-graph network of the latent's sums,
    transposed. -/
theorem s2_v24 : @Eq (FVec Ideal S5x1048576 .f32) (W16 m ρ c (Proc.devRef .tc main_v24))
      (transpose S5x1048576 [1, 0] (HF.takeV KT Kgd (HF.gffn KR (Host.scatterAdd KR.sc4 (HF.zerosV KR.bz4) (HF.colV KT.hbc (W10 m ρ c (Proc.devRef .tc main_v0)))
      (transpose S1048576x4 [1, 0] (W10 m ρ c (Proc.devRef .tc main_v14_1) : FVec Ideal S4x1048576 .f32) transposes_S4x1048576_S1048576x4_1_0)) (W10 m ρ c (Proc.devRef .tc main_arg10)) (W10 m ρ c (Proc.devRef .tc main_arg11))) (W10 m ρ c (Proc.devRef .tc main_v0))) transposes_S1048576x5_S5x1048576_1_0) := by
  refine (l2_5_v24 (W15 m ρ c)).trans ?_
  rw [w15_v23]

/-! ## The two weight slices stretch 2 cuts for region 2 -/

/-- Region 2's fifth window holds the first four rows of the round's [9, 40] weight matrix. -/
theorem s2_v25 : @Eq (FVec Ideal S4x40 .f32) (W16 m ρ c (Proc.devRef .tc main_v25))
      (extractStridedSlice S4x40 ![0, 0] (W10 m ρ c (Proc.devRef .tc main_arg12) : FVec Ideal S9x40 .f32) slices_S9x40_S4x40_0_0) := by
  show StableHlo.after hostOps2_5 _ (Proc.devRef .tc main_v25) = _
  after_results <;> rfl

/-- Region 2's sixth window holds its last five rows. -/
theorem s2_v26 : @Eq (FVec Ideal S5x40 .f32) (W16 m ρ c (Proc.devRef .tc main_v26))
      (extractStridedSlice S5x40 ![4, 0] (W10 m ρ c (Proc.devRef .tc main_arg12) : FVec Ideal S9x40 .f32) slices_S9x40_S5x40_4_0) := by
  show StableHlo.after hostOps2_5 _ (Proc.devRef .tc main_v26) = _
  after_results <;> rfl

/-! ## Stretch 2 leaves the ids, region 1's first result and the arguments alone

None of the operations of stretch 2 writes any of these buffers. -/

theorem s2_keep_v0 : W16 m ρ c (Proc.devRef .tc main_v0) = W10 m ρ c (Proc.devRef .tc main_v0) := by
  show StableHlo.after hostOps2_5 _ _ = _
  after_results
theorem s2_keep_v14_0 : W16 m ρ c (Proc.devRef .tc main_v14_0) = W10 m ρ c (Proc.devRef .tc main_v14_0) := by
  show StableHlo.after hostOps2_5 _ _ = _
  after_results
theorem s2_keep_arg0 : W16 m ρ c (Proc.devRef .tc main_arg0) = W10 m ρ c (Proc.devRef .tc main_arg0) := by
  show StableHlo.after hostOps2_5 _ _ = _
  after_results
theorem s2_keep_arg1 : W16 m ρ c (Proc.devRef .tc main_arg1) = W10 m ρ c (Proc.devRef .tc main_arg1) := by
  show StableHlo.after hostOps2_5 _ _ = _
  after_results
theorem s2_keep_arg2 : W16 m ρ c (Proc.devRef .tc main_arg2) = W10 m ρ c (Proc.devRef .tc main_arg2) := by
  show StableHlo.after hostOps2_5 _ _ = _
  after_results
theorem s2_keep_arg3 : W16 m ρ c (Proc.devRef .tc main_arg3) = W10 m ρ c (Proc.devRef .tc main_arg3) := by
  show StableHlo.after hostOps2_5 _ _ = _
  after_results
theorem s2_keep_arg4 : W16 m ρ c (Proc.devRef .tc main_arg4) = W10 m ρ c (Proc.devRef .tc main_arg4) := by
  show StableHlo.after hostOps2_5 _ _ = _
  after_results
theorem s2_keep_arg5 : W16 m ρ c (Proc.devRef .tc main_arg5) = W10 m ρ c (Proc.devRef .tc main_arg5) := by
  show StableHlo.after hostOps2_5 _ _ = _
  after_results
theorem s2_keep_arg6 : W16 m ρ c (Proc.devRef .tc main_arg6) = W10 m ρ c (Proc.devRef .tc main_arg6) := by
  show StableHlo.after hostOps2_5 _ _ = _
  after_results
theorem s2_keep_arg7 : W16 m ρ c (Proc.devRef .tc main_arg7) = W10 m ρ c (Proc.devRef .tc main_arg7) := by
  show StableHlo.after hostOps2_5 _ _ = _
  after_results
theorem s2_keep_arg8 : W16 m ρ c (Proc.devRef .tc main_arg8) = W10 m ρ c (Proc.devRef .tc main_arg8) := by
  show StableHlo.after hostOps2_5 _ _ = _
  after_results
theorem s2_keep_arg9 : W16 m ρ c (Proc.devRef .tc main_arg9) = W10 m ρ c (Proc.devRef .tc main_arg9) := by
  show StableHlo.after hostOps2_5 _ _ = _
  after_results
theorem s2_keep_arg10 : W16 m ρ c (Proc.devRef .tc main_arg10) = W10 m ρ c (Proc.devRef .tc main_arg10) := by
  show StableHlo.after hostOps2_5 _ _ = _
  after_results
theorem s2_keep_arg11 : W16 m ρ c (Proc.devRef .tc main_arg11) = W10 m ρ c (Proc.devRef .tc main_arg11) := by
  show StableHlo.after hostOps2_5 _ _ = _
  after_results
theorem s2_keep_arg12 : W16 m ρ c (Proc.devRef .tc main_arg12) = W10 m ρ c (Proc.devRef .tc main_arg12) := by
  show StableHlo.after hostOps2_5 _ _ = _
  after_results
theorem s2_keep_arg13 : W16 m ρ c (Proc.devRef .tc main_arg13) = W10 m ρ c (Proc.devRef .tc main_arg13) := by
  show StableHlo.after hostOps2_5 _ _ = _
  after_results
theorem s2_keep_arg14 : W16 m ρ c (Proc.devRef .tc main_arg14) = W10 m ρ c (Proc.devRef .tc main_arg14) := by
  show StableHlo.after hostOps2_5 _ _ = _
  after_results
theorem s2_keep_arg15 : W16 m ρ c (Proc.devRef .tc main_arg15) = W10 m ρ c (Proc.devRef .tc main_arg15) := by
  show StableHlo.after hostOps2_5 _ _ = _
  after_results

/-! ## The crossing of region 2

Region 2 writes one array, its window 7. -/

theorem x2_keep_v0 : W17 m ρ c (Proc.devRef .tc main_v0) = W16 m ρ c (Proc.devRef .tc main_v0) :=
  W17_of_ne m ρ c main_v0 (by decide)
theorem x2_keep_arg0 : W17 m ρ c (Proc.devRef .tc main_arg0) = W16 m ρ c (Proc.devRef .tc main_arg0) :=
  W17_of_ne m ρ c main_arg0 (by decide)
theorem x2_keep_arg1 : W17 m ρ c (Proc.devRef .tc main_arg1) = W16 m ρ c (Proc.devRef .tc main_arg1) :=
  W17_of_ne m ρ c main_arg1 (by decide)
theorem x2_keep_arg2 : W17 m ρ c (Proc.devRef .tc main_arg2) = W16 m ρ c (Proc.devRef .tc main_arg2) :=
  W17_of_ne m ρ c main_arg2 (by decide)
theorem x2_keep_arg3 : W17 m ρ c (Proc.devRef .tc main_arg3) = W16 m ρ c (Proc.devRef .tc main_arg3) :=
  W17_of_ne m ρ c main_arg3 (by decide)
theorem x2_keep_arg4 : W17 m ρ c (Proc.devRef .tc main_arg4) = W16 m ρ c (Proc.devRef .tc main_arg4) :=
  W17_of_ne m ρ c main_arg4 (by decide)
theorem x2_keep_arg5 : W17 m ρ c (Proc.devRef .tc main_arg5) = W16 m ρ c (Proc.devRef .tc main_arg5) :=
  W17_of_ne m ρ c main_arg5 (by decide)
theorem x2_keep_arg6 : W17 m ρ c (Proc.devRef .tc main_arg6) = W16 m ρ c (Proc.devRef .tc main_arg6) :=
  W17_of_ne m ρ c main_arg6 (by decide)
theorem x2_keep_arg7 : W17 m ρ c (Proc.devRef .tc main_arg7) = W16 m ρ c (Proc.devRef .tc main_arg7) :=
  W17_of_ne m ρ c main_arg7 (by decide)
theorem x2_keep_arg8 : W17 m ρ c (Proc.devRef .tc main_arg8) = W16 m ρ c (Proc.devRef .tc main_arg8) :=
  (W17_arr m ρ c 2).trans (((dat2 (V16 m ρ) c).arrAt_in 2 rfl _).trans (A_eq2 (V16 m ρ) c 2))
theorem x2_keep_arg9 : W17 m ρ c (Proc.devRef .tc main_arg9) = W16 m ρ c (Proc.devRef .tc main_arg9) :=
  (W17_arr m ρ c 3).trans (((dat2 (V16 m ρ) c).arrAt_in 3 rfl _).trans (A_eq2 (V16 m ρ) c 3))
theorem x2_keep_arg10 : W17 m ρ c (Proc.devRef .tc main_arg10) = W16 m ρ c (Proc.devRef .tc main_arg10) :=
  W17_of_ne m ρ c main_arg10 (by decide)
theorem x2_keep_arg11 : W17 m ρ c (Proc.devRef .tc main_arg11) = W16 m ρ c (Proc.devRef .tc main_arg11) :=
  W17_of_ne m ρ c main_arg11 (by decide)
theorem x2_keep_arg12 : W17 m ρ c (Proc.devRef .tc main_arg12) = W16 m ρ c (Proc.devRef .tc main_arg12) :=
  W17_of_ne m ρ c main_arg12 (by decide)
theorem x2_keep_arg13 : W17 m ρ c (Proc.devRef .tc main_arg13) = W16 m ρ c (Proc.devRef .tc main_arg13) :=
  (W17_arr m ρ c 6).trans (((dat2 (V16 m ρ) c).arrAt_in 6 rfl _).trans (A_eq2 (V16 m ρ) c 6))
theorem x2_keep_arg14 : W17 m ρ c (Proc.devRef .tc main_arg14) = W16 m ρ c (Proc.devRef .tc main_arg14) :=
  W17_of_ne m ρ c main_arg14 (by decide)
theorem x2_keep_arg15 : W17 m ρ c (Proc.devRef .tc main_arg15) = W16 m ρ c (Proc.devRef .tc main_arg15) :=
  W17_of_ne m ρ c main_arg15 (by decide)

/-- The result of region 2 is what its window 7 leaves. -/
theorem x2_v27 : W17 m ρ c (Proc.devRef .tc main_v27) = (dat2 (V16 m ρ) c).arrAt 7 cfg2.N := W17_arr m ρ c 7

/-! ## Stretch 3, operation list by operation list -/

section Lists3

variable (V : Valuation τ sig (Elt Ideal))

attribute [local irreducible] Host.reduce Host.gather Host.scatterAdd in
/-- The first list: the per-graph sums of region 2's result, times the first weight matrix. -/
theorem l3_v31 : @Eq (FVec Ideal S4096x40 .f32) (StableHlo.after hostOps3 V (Proc.devRef .tc main_v31))
      (Host.dotGeneral (φ₁ := .f32) (φ₂ := .f32) KR.dd1 none
        (Host.scatterAdd KR.sc64 (HF.zerosV KR.bz64) (HF.colV KT.hbc (V (Proc.devRef .tc main_v0))) (V (Proc.devRef .tc main_v27) : FVec Ideal S1048576x64 .f32))
        (V (Proc.devRef .tc main_arg14))) := by
  after_results <;> rfl

/-- The first list leaves the slope constant. -/
theorem l3_cst_7 : @Eq (FVec Ideal S_ .f32) (StableHlo.after hostOps3 V (Proc.devRef .tc main_cst_7))
      (constant S_ .f32 0x3C23D70A#32) := by
  after_results <;> rfl

theorem l3_keep_arg15 : StableHlo.after hostOps3 V (Proc.devRef .tc main_arg15) = V (Proc.devRef .tc main_arg15) := by after_results

/-- The second list: the rectifier, its slope read from the constant's buffer. -/
theorem l3_1_v32 : @Eq (FVec Ideal S4096x40 .f32) (StableHlo.after hostOps3_1 V (Proc.devRef .tc main_v32))
      (lreluS KR.b40 (V (Proc.devRef .tc main_v31)) (V (Proc.devRef .tc main_cst_7))) := by
  after_results <;> rfl

theorem l3_1_keep_arg15 : StableHlo.after hostOps3_1 V (Proc.devRef .tc main_arg15) = V (Proc.devRef .tc main_arg15) := by after_results

/-- The last operation: times the second weight matrix. -/
theorem l3_2_v33 : @Eq (FVec Ideal S4096x1 .f32) (StableHlo.after hostOps3_2 V (Proc.devRef .tc main_v33))
      (Host.dotGeneral (φ₁ := .f32) (φ₂ := .f32) KR.dd2 none (V (Proc.devRef .tc main_v32)) (V (Proc.devRef .tc main_arg15))) := by
  after_results <;> rfl

end Lists3

/-! ## Stretch 3 from region 2's exit, boundary by boundary -/

theorem w18_v31 : @Eq (FVec Ideal S4096x40 .f32) (W18 m ρ c (Proc.devRef .tc main_v31))
      ((Host.dotGeneral (φ₁ := .f32) (φ₂ := .f32) KR.dd1 none (Host.scatterAdd KR.sc64 (HF.zerosV KR.bz64) (HF.colV KT.hbc (W17 m ρ c (Proc.devRef .tc main_v0))) (W17 m ρ c (Proc.devRef .tc main_v27) : FVec Ideal S1048576x64 .f32)) (W17 m ρ c (Proc.devRef .tc main_arg14)))) := l3_v31 (W17 m ρ c)
theorem w18_cst_7 : @Eq (FVec Ideal S_ .f32) (W18 m ρ c (Proc.devRef .tc main_cst_7))
      (constant S_ .f32 0x3C23D70A#32) := l3_cst_7 (W17 m ρ c)
theorem w18_arg15 : W18 m ρ c (Proc.devRef .tc main_arg15) = W17 m ρ c (Proc.devRef .tc main_arg15) := l3_keep_arg15 (W17 m ρ c)

attribute [local irreducible] Host.reduce Host.gather Host.scatterAdd in
theorem w19_v32 : @Eq (FVec Ideal S4096x40 .f32) (W19 m ρ c (Proc.devRef .tc main_v32))
      (HF.lreluV KR.b40 (Host.dotGeneral (φ₁ := .f32) (φ₂ := .f32) KR.dd1 none (Host.scatterAdd KR.sc64 (HF.zerosV KR.bz64) (HF.colV KT.hbc (W17 m ρ c (Proc.devRef .tc main_v0))) (W17 m ρ c (Proc.devRef .tc main_v27) : FVec Ideal S1048576x64 .f32)) (W17 m ρ c (Proc.devRef .tc main_arg14)))) := by
  refine (l3_1_v32 (W18 m ρ c)).trans ?_
  rw [w18_cst_7, w18_v31]
  rfl
theorem w19_arg15 : W19 m ρ c (Proc.devRef .tc main_arg15) = W17 m ρ c (Proc.devRef .tc main_arg15) := (l3_1_keep_arg15 (W18 m ρ c)).trans (w18_arg15 m ρ c)

attribute [local irreducible] Host.reduce Host.gather Host.scatterAdd in
/-- What the program returns: the last network on the per-graph sums of region 2's result. -/
theorem s3_v33 : @Eq (FVec Ideal S4096x1 .f32) (W20 m ρ c (Proc.devRef .tc main_v33))
      (HF.dffn KR (Host.scatterAdd KR.sc64 (HF.zerosV KR.bz64) (HF.colV KT.hbc (W17 m ρ c (Proc.devRef .tc main_v0))) (W17 m ρ c (Proc.devRef .tc main_v27)))
        (W17 m ρ c (Proc.devRef .tc main_arg14)) (W17 m ρ c (Proc.devRef .tc main_arg15))) := by
  refine (l3_2_v33 (W19 m ρ c)).trans ?_
  rw [w19_v32, w19_arg15]
  rfl

end Cert.KernelIdeal.ValB

end
-- ==== Proof.KValue.lean ====
/-
  The kernel program's result as ONE term of the launch arrays: the last boundary's contents at the result
  buffer, walked back through the host stretches and the three regions, is HostFns.lean's out at the clipped
  graph ids and the masked read-back.

  Each host stretch leaves its operations' values over the contents it was entered with; each region leaves its
  output arrays at the per-node functions of Spec.lean of the arrays it was entered with (the three region
  modules) and every other buffer alone. Composing these from the launch memory: the clipped ids, the latent of
  round 0 (written transposed), the per-graph network's read-back (written transposed), the updated nodes and
  round 1's latent, the second read-back, the second update, and the last scatter-add and network.
-/
import proofs.«424516_j14181982011740_3_alg».proof.Proof.Gen.KernelIdeal.Frame
import proofs.«424516_j14181982011740_3_alg».proof.Proof.KRecs
import proofs.«424516_j14181982011740_3_alg».proof.Proof.KLayer
import proofs.«424516_j14181982011740_3_alg».proof.Proof.KReg0
import proofs.«424516_j14181982011740_3_alg».proof.Proof.KReg1
import proofs.«424516_j14181982011740_3_alg».proof.Proof.KReg2
import proofs.«424516_j14181982011740_3_alg».proof.Proof.KHostA
import proofs.«424516_j14181982011740_3_alg».proof.Proof.KHostB

noncomputable section

namespace Cert.KernelIdeal.Val

open Idealize.ShloMosaic Idealize.ShloMosaic.TcCoe
open Cert.KernelIdeal Cert.KernelIdeal.Gen Cert.KernelIdeal.Facts₀ Cert.KernelIdeal.Facts
open Cert.KernelIdeal.ValA Cert.KernelIdeal.ValB

variable (m : (ℓ : Loc nD τ sig) → Buf (Elt Ideal) ℓ) (ρ : Dev nD → PrngReg) (c : Dev nD)

/-- The graph ids clipped into [0, 4095]. -/
def bi : IVec S1048576 32 := HF.clipV KT.hb (m ((c : Thread nD τ).loc main_arg1))

/-- The node array after round 0. -/
def Xa : Spec.Arr 1048576 64 :=
  HF.layer KR (HF.colV KT.hbc (bi m c)) (fun g => HF.takeV KT Kgd g (bi m c))
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The node array after round 1. -/
def Xb : Spec.Arr 1048576 64 :=
  HF.layer KR (HF.colV KT.hbc (bi m c)) (fun g => HF.takeV KT Kgd g (bi m c))
    (Xa m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The kernel program's result. -/
def KOut : FVec Ideal (HF.M2 4096 1) .f32 :=
  HF.out KR (HF.colV KT.hbc (bi m c)) (fun g => HF.takeV KT Kgd g (bi m c))
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! ## After region 0: the clipped ids, the arguments, the transposed latent -/

theorem v0_3 : W3 m ρ c (Proc.devRef .tc main_v0) = bi m c := (x0_keep_v0 m ρ c).trans (s0_v0 m ρ c)
theorem arg0_3 : W3 m ρ c (Proc.devRef .tc main_arg0) = m ((c : Thread nD τ).loc main_arg0) := (x0_keep_arg0 m ρ c).trans (s0_keep_arg0 m ρ c)
theorem arg2_3 : W3 m ρ c (Proc.devRef .tc main_arg2) = m ((c : Thread nD τ).loc main_arg2) := (x0_keep_arg2 m ρ c).trans (s0_keep_arg2 m ρ c)
theorem arg3_3 : W3 m ρ c (Proc.devRef .tc main_arg3) = m ((c : Thread nD τ).loc main_arg3) := (x0_keep_arg3 m ρ c).trans (s0_keep_arg3 m ρ c)
theorem arg4_3 : W3 m ρ c (Proc.devRef .tc main_arg4) = m ((c : Thread nD τ).loc main_arg4) := (x0_keep_arg4 m ρ c).trans (s0_keep_arg4 m ρ c)
theorem arg5_3 : W3 m ρ c (Proc.devRef .tc main_arg5) = m ((c : Thread nD τ).loc main_arg5) := (x0_keep_arg5 m ρ c).trans (s0_keep_arg5 m ρ c)
theorem arg6_3 : W3 m ρ c (Proc.devRef .tc main_arg6) = m ((c : Thread nD τ).loc main_arg6) := (x0_keep_arg6 m ρ c).trans (s0_keep_arg6 m ρ c)
theorem arg7_3 : W3 m ρ c (Proc.devRef .tc main_arg7) = m ((c : Thread nD τ).loc main_arg7) := (x0_keep_arg7 m ρ c).trans (s0_keep_arg7 m ρ c)
theorem arg8_3 : W3 m ρ c (Proc.devRef .tc main_arg8) = m ((c : Thread nD τ).loc main_arg8) := (x0_keep_arg8 m ρ c).trans (s0_keep_arg8 m ρ c)
theorem arg9_3 : W3 m ρ c (Proc.devRef .tc main_arg9) = m ((c : Thread nD τ).loc main_arg9) := (x0_keep_arg9 m ρ c).trans (s0_keep_arg9 m ρ c)
theorem arg10_3 : W3 m ρ c (Proc.devRef .tc main_arg10) = m ((c : Thread nD τ).loc main_arg10) := (x0_keep_arg10 m ρ c).trans (s0_keep_arg10 m ρ c)
theorem arg11_3 : W3 m ρ c (Proc.devRef .tc main_arg11) = m ((c : Thread nD τ).loc main_arg11) := (x0_keep_arg11 m ρ c).trans (s0_keep_arg11 m ρ c)
theorem arg12_3 : W3 m ρ c (Proc.devRef .tc main_arg12) = m ((c : Thread nD τ).loc main_arg12) := (x0_keep_arg12 m ρ c).trans (s0_keep_arg12 m ρ c)
theorem arg13_3 : W3 m ρ c (Proc.devRef .tc main_arg13) = m ((c : Thread nD τ).loc main_arg13) := (x0_keep_arg13 m ρ c).trans (s0_keep_arg13 m ρ c)
theorem arg14_3 : W3 m ρ c (Proc.devRef .tc main_arg14) = m ((c : Thread nD τ).loc main_arg14) := (x0_keep_arg14 m ρ c).trans (s0_keep_arg14 m ρ c)
theorem arg15_3 : W3 m ρ c (Proc.devRef .tc main_arg15) = m ((c : Thread nD τ).loc main_arg15) := (x0_keep_arg15 m ρ c).trans (s0_keep_arg15 m ρ c)

theorem v1_3 : @Eq (Spec.Arr 4 1048576) (W3 m ρ c (Proc.devRef .tc main_v1)) (Spec.ET (m ((c : Thread nD τ).loc main_arg0)) (m ((c : Thread nD τ).loc main_arg2)) (m ((c : Thread nD τ).loc main_arg3))) := by
  refine (x0_v1 m ρ c).trans ((Val0.reg0_arr (V2 m ρ) c).trans ?_)
  show Spec.ET (W2 m ρ c (Proc.devRef .tc main_arg0)) (W2 m ρ c (Proc.devRef .tc main_arg2)) (W2 m ρ c (Proc.devRef .tc main_arg3)) = _
  rw [s0_keep_arg0 m ρ c, s0_keep_arg2 m ρ c, s0_keep_arg3 m ρ c]

/-! ## Before region 1 -/

theorem v0_9 : W9 m ρ c (Proc.devRef .tc main_v0) = bi m c := (s1_keep_v0 m ρ c).trans (v0_3 m ρ c)
theorem arg0_9 : W9 m ρ c (Proc.devRef .tc main_arg0) = m ((c : Thread nD τ).loc main_arg0) := (s1_keep_arg0 m ρ c).trans (arg0_3 m ρ c)
theorem arg2_9 : W9 m ρ c (Proc.devRef .tc main_arg2) = m ((c : Thread nD τ).loc main_arg2) := (s1_keep_arg2 m ρ c).trans (arg2_3 m ρ c)
theorem arg3_9 : W9 m ρ c (Proc.devRef .tc main_arg3) = m ((c : Thread nD τ).loc main_arg3) := (s1_keep_arg3 m ρ c).trans (arg3_3 m ρ c)
theorem arg4_9 : W9 m ρ c (Proc.devRef .tc main_arg4) = m ((c : Thread nD τ).loc main_arg4) := (s1_keep_arg4 m ρ c).trans (arg4_3 m ρ c)
theorem arg5_9 : W9 m ρ c (Proc.devRef .tc main_arg5) = m ((c : Thread nD τ).loc main_arg5) := (s1_keep_arg5 m ρ c).trans (arg5_3 m ρ c)
theorem arg6_9 : W9 m ρ c (Proc.devRef .tc main_arg6) = m ((c : Thread nD τ).loc main_arg6) := (s1_keep_arg6 m ρ c).trans (arg6_3 m ρ c)
theorem arg7_9 : W9 m ρ c (Proc.devRef .tc main_arg7) = m ((c : Thread nD τ).loc main_arg7) := (s1_keep_arg7 m ρ c).trans (arg7_3 m ρ c)
theorem arg8_9 : W9 m ρ c (Proc.devRef .tc main_arg8) = m ((c : Thread nD τ).loc main_arg8) := (s1_keep_arg8 m ρ c).trans (arg8_3 m ρ c)
theorem arg9_9 : W9 m ρ c (Proc.devRef .tc main_arg9) = m ((c : Thread nD τ).loc main_arg9) := (s1_keep_arg9 m ρ c).trans (arg9_3 m ρ c)
theorem arg10_9 : W9 m ρ c (Proc.devRef .tc main_arg10) = m ((c : Thread nD τ).loc main_arg10) := (s1_keep_arg10 m ρ c).trans (arg10_3 m ρ c)
theorem arg11_9 : W9 m ρ c (Proc.devRef .tc main_arg11) = m ((c : Thread nD τ).loc main_arg11) := (s1_keep_arg11 m ρ c).trans (arg11_3 m ρ c)
theorem arg12_9 : W9 m ρ c (Proc.devRef .tc main_arg12) = m ((c : Thread nD τ).loc main_arg12) := (s1_keep_arg12 m ρ c).trans (arg12_3 m ρ c)
theorem arg13_9 : W9 m ρ c (Proc.devRef .tc main_arg13) = m ((c : Thread nD τ).loc main_arg13) := (s1_keep_arg13 m ρ c).trans (arg13_3 m ρ c)
theorem arg14_9 : W9 m ρ c (Proc.devRef .tc main_arg14) = m ((c : Thread nD τ).loc main_arg14) := (s1_keep_arg14 m ρ c).trans (arg14_3 m ρ c)
theorem arg15_9 : W9 m ρ c (Proc.devRef .tc main_arg15) = m ((c : Thread nD τ).loc main_arg15) := (s1_keep_arg15 m ρ c).trans (arg15_3 m ρ c)

/-! ## After region 1: the nodes after round 0 and round 1's latent, transposed -/

theorem v14_0_10 : @Eq (Spec.Arr 1048576 64) (W10 m ρ c (Proc.devRef .tc main_v14_0)) (Xa m c) := by
  refine (x1_v14_0 m ρ c).trans ((Val1.reg1_arr9 (V9 m ρ) c).trans ?_)
  show Spec.UpdK (W9 m ρ c (Proc.devRef .tc main_arg0))
      (Spec.E (W9 m ρ c (Proc.devRef .tc main_arg0)) (W9 m ρ c (Proc.devRef .tc main_arg2)) (W9 m ρ c (Proc.devRef .tc main_arg3)))
      (W9 m ρ c (Proc.devRef .tc main_v11)) (W9 m ρ c (Proc.devRef .tc main_v12)) (W9 m ρ c (Proc.devRef .tc main_v13)) (W9 m ρ c (Proc.devRef .tc main_arg7)) = _
  rw [s1_v11 m ρ c, s1_v12 m ρ c, s1_v13 m ρ c, v0_3 m ρ c, v1_3 m ρ c, arg0_9 m ρ c, arg2_9 m ρ c, arg3_9 m ρ c,
    arg7_9 m ρ c, arg4_3 m ρ c, arg5_3 m ρ c, arg6_3 m ρ c]
  exact layerK_eq (bi m c) _ _ _ _ _ _ _

theorem v0_10 : W10 m ρ c (Proc.devRef .tc main_v0) = bi m c := (x1_keep_v0 m ρ c).trans (v0_9 m ρ c)
theorem arg0_10 : W10 m ρ c (Proc.devRef .tc main_arg0) = m ((c : Thread nD τ).loc main_arg0) := (x1_keep_arg0 m ρ c).trans (arg0_9 m ρ c)
theorem arg2_10 : W10 m ρ c (Proc.devRef .tc main_arg2) = m ((c : Thread nD τ).loc main_arg2) := (x1_keep_arg2 m ρ c).trans (arg2_9 m ρ c)
theorem arg3_10 : W10 m ρ c (Proc.devRef .tc main_arg3) = m ((c : Thread nD τ).loc main_arg3) := (x1_keep_arg3 m ρ c).trans (arg3_9 m ρ c)
theorem arg4_10 : W10 m ρ c (Proc.devRef .tc main_arg4) = m ((c : Thread nD τ).loc main_arg4) := (x1_keep_arg4 m ρ c).trans (arg4_9 m ρ c)
theorem arg5_10 : W10 m ρ c (Proc.devRef .tc main_arg5) = m ((c : Thread nD τ).loc main_arg5) := (x1_keep_arg5 m ρ c).trans (arg5_9 m ρ c)
theorem arg6_10 : W10 m ρ c (Proc.devRef .tc main_arg6) = m ((c : Thread nD τ).loc main_arg6) := (x1_keep_arg6 m ρ c).trans (arg6_9 m ρ c)
theorem arg7_10 : W10 m ρ c (Proc.devRef .tc main_arg7) = m ((c : Thread nD τ).loc main_arg7) := (x1_keep_arg7 m ρ c).trans (arg7_9 m ρ c)
theorem arg8_10 : W10 m ρ c (Proc.devRef .tc main_arg8) = m ((c : Thread nD τ).loc main_arg8) := (x1_keep_arg8 m ρ c).trans (arg8_9 m ρ c)
theorem arg9_10 : W10 m ρ c (Proc.devRef .tc main_arg9) = m ((c : Thread nD τ).loc main_arg9) := (x1_keep_arg9 m ρ c).trans (arg9_9 m ρ c)
theorem arg10_10 : W10 m ρ c (Proc.devRef .tc main_arg10) = m ((c : Thread nD τ).loc main_arg10) := (x1_keep_arg10 m ρ c).trans (arg10_9 m ρ c)
theorem arg11_10 : W10 m ρ c (Proc.devRef .tc main_arg11) = m ((c : Thread nD τ).loc main_arg11) := (x1_keep_arg11 m ρ c).trans (arg11_9 m ρ c)
theorem arg12_10 : W10 m ρ c (Proc.devRef .tc main_arg12) = m ((c : Thread nD τ).loc main_arg12) := (x1_keep_arg12 m ρ c).trans (arg12_9 m ρ c)
theorem arg13_10 : W10 m ρ c (Proc.devRef .tc main_arg13) = m ((c : Thread nD τ).loc main_arg13) := (x1_keep_arg13 m ρ c).trans (arg13_9 m ρ c)
theorem arg14_10 : W10 m ρ c (Proc.devRef .tc main_arg14) = m ((c : Thread nD τ).loc main_arg14) := (x1_keep_arg14 m ρ c).trans (arg14_9 m ρ c)
theorem arg15_10 : W10 m ρ c (Proc.devRef .tc main_arg15) = m ((c : Thread nD τ).loc main_arg15) := (x1_keep_arg15 m ρ c).trans (arg15_9 m ρ c)

theorem v14_1_10 : @Eq (Spec.Arr 4 1048576) (W10 m ρ c (Proc.devRef .tc main_v14_1)) (Spec.ET (Xa m c) (m ((c : Thread nD τ).loc main_arg8)) (m ((c : Thread nD τ).loc main_arg9))) := by
  refine (x1_v14_1 m ρ c).trans ((Val1.reg1_arr10 (V9 m ρ) c).trans ?_)
  have hx : Val1.X1 (V9 m ρ) c = Xa m c := (Val1.reg1_arr9 (V9 m ρ) c).symm.trans ((x1_v14_0 m ρ c).symm.trans (v14_0_10 m ρ c))
  rw [hx]
  show Spec.ET (Xa m c) (W9 m ρ c (Proc.devRef .tc main_arg8)) (W9 m ρ c (Proc.devRef .tc main_arg9)) = _
  rw [arg8_9 m ρ c, arg9_9 m ρ c]

/-! ## Before region 2 -/

theorem v0_16 : W16 m ρ c (Proc.devRef .tc main_v0) = bi m c := (s2_keep_v0 m ρ c).trans (v0_10 m ρ c)
theorem v14_0_16 : @Eq (Spec.Arr 1048576 64) (W16 m ρ c (Proc.devRef .tc main_v14_0)) (Xa m c) := (s2_keep_v14_0 m ρ c).trans (v14_0_10 m ρ c)
theorem arg0_16 : W16 m ρ c (Proc.devRef .tc main_arg0) = m ((c : Thread nD τ).loc main_arg0) := (s2_keep_arg0 m ρ c).trans (arg0_10 m ρ c)
theorem arg2_16 : W16 m ρ c (Proc.devRef .tc main_arg2) = m ((c : Thread nD τ).loc main_arg2) := (s2_keep_arg2 m ρ c).trans (arg2_10 m ρ c)
theorem arg3_16 : W16 m ρ c (Proc.devRef .tc main_arg3) = m ((c : Thread nD τ).loc main_arg3) := (s2_keep_arg3 m ρ c).trans (arg3_10 m ρ c)
theorem arg4_16 : W16 m ρ c (Proc.devRef .tc main_arg4) = m ((c : Thread nD τ).loc main_arg4) := (s2_keep_arg4 m ρ c).trans (arg4_10 m ρ c)
theorem arg5_16 : W16 m ρ c (Proc.devRef .tc main_arg5) = m ((c : Thread nD τ).loc main_arg5) := (s2_keep_arg5 m ρ c).trans (arg5_10 m ρ c)
theorem arg6_16 : W16 m ρ c (Proc.devRef .tc main_arg6) = m ((c : Thread nD τ).loc main_arg6) := (s2_keep_arg6 m ρ c).trans (arg6_10 m ρ c)
theorem arg7_16 : W16 m ρ c (Proc.devRef .tc main_arg7) = m ((c : Thread nD τ).loc main_arg7) := (s2_keep_arg7 m ρ c).trans (arg7_10 m ρ c)
theorem arg8_16 : W16 m ρ c (Proc.devRef .tc main_arg8) = m ((c : Thread nD τ).loc main_arg8) := (s2_keep_arg8 m ρ c).trans (arg8_10 m ρ c)
theorem arg9_16 : W16 m ρ c (Proc.devRef .tc main_arg9) = m ((c : Thread nD τ).loc main_arg9) := (s2_keep_arg9 m ρ c).trans (arg9_10 m ρ c)
theorem arg10_16 : W16 m ρ c (Proc.devRef .tc main_arg10) = m ((c : Thread nD τ).loc main_arg10) := (s2_keep_arg10 m ρ c).trans (arg10_10 m ρ c)
theorem arg11_16 : W16 m ρ c (Proc.devRef .tc main_arg11) = m ((c : Thread nD τ).loc main_arg11) := (s2_keep_arg11 m ρ c).trans (arg11_10 m ρ c)
theorem arg12_16 : W16 m ρ c (Proc.devRef .tc main_arg12) = m ((c : Thread nD τ).loc main_arg12) := (s2_keep_arg12 m ρ c).trans (arg12_10 m ρ c)
theorem arg13_16 : W16 m ρ c (Proc.devRef .tc main_arg13) = m ((c : Thread nD τ).loc main_arg13) := (s2_keep_arg13 m ρ c).trans (arg13_10 m ρ c)
theorem arg14_16 : W16 m ρ c (Proc.devRef .tc main_arg14) = m ((c : Thread nD τ).loc main_arg14) := (s2_keep_arg14 m ρ c).trans (arg14_10 m ρ c)
theorem arg15_16 : W16 m ρ c (Proc.devRef .tc main_arg15) = m ((c : Thread nD τ).loc main_arg15) := (s2_keep_arg15 m ρ c).trans (arg15_10 m ρ c)

/-! ## After region 2: the nodes after round 1 -/

theorem v27_17 : @Eq (Spec.Arr 1048576 64) (W17 m ρ c (Proc.devRef .tc main_v27)) (Xb m c) := by
  refine (x2_v27 m ρ c).trans ((Val2.reg2_arr7 (V16 m ρ) c).trans ?_)
  show Spec.UpdK (W16 m ρ c (Proc.devRef .tc main_v14_0))
      (Spec.E (W16 m ρ c (Proc.devRef .tc main_v14_0)) (W16 m ρ c (Proc.devRef .tc main_arg8)) (W16 m ρ c (Proc.devRef .tc main_arg9)))
      (W16 m ρ c (Proc.devRef .tc main_v24)) (W16 m ρ c (Proc.devRef .tc main_v25)) (W16 m ρ c (Proc.devRef .tc main_v26)) (W16 m ρ c (Proc.devRef .tc main_arg13)) = _
  rw [s2_v24 m ρ c, s2_v25 m ρ c, s2_v26 m ρ c, v0_10 m ρ c, v14_1_10 m ρ c, v14_0_16 m ρ c, arg8_16 m ρ c, arg9_16 m ρ c,
    arg13_16 m ρ c, arg10_10 m ρ c, arg11_10 m ρ c, arg12_10 m ρ c]
  exact layerK_eq (bi m c) _ _ _ _ _ _ _

theorem v0_17 : W17 m ρ c (Proc.devRef .tc main_v0) = bi m c := (x2_keep_v0 m ρ c).trans (v0_16 m ρ c)
theorem arg14_17 : W17 m ρ c (Proc.devRef .tc main_arg14) = m ((c : Thread nD τ).loc main_arg14) := (x2_keep_arg14 m ρ c).trans (arg14_16 m ρ c)
theorem arg15_17 : W17 m ρ c (Proc.devRef .tc main_arg15) = m ((c : Thread nD τ).loc main_arg15) := (x2_keep_arg15 m ρ c).trans (arg15_16 m ρ c)

/-! ## The result -/

/-- The result buffer at the last boundary is the kernel program's result term. -/
theorem kernel_value : @Eq (FVec Ideal (HF.M2 4096 1) .f32) (W20 m ρ c (Proc.devRef .tc main_v33)) (KOut m c) := by
  refine (s3_v33 m ρ c).trans ?_
  rw [v0_17 m ρ c, v27_17 m ρ c, arg14_17 m ρ c, arg15_17 m ρ c]
  rfl

end Cert.KernelIdeal.Val

end
-- ==== Proof.RRun.lean ====
/-
  The reference program's run. @main of the reference is a straight line of host operations: two message-passing
  layers and a read-out. Each layer: the node features through a 64×40 matrix and a leaky relu, a 40×4 matrix and a
  leaky relu (the edge message), the messages summed per graph (scatter-add over the batch index), the per-graph sums
  through a 4×40 matrix, a leaky relu, a 40×5 matrix and a leaky relu, read back per node (the batch index wrapped
  when negative, a gather), concatenated to the message (nine columns), through a 9×40 matrix, a leaky relu and a
  40×64 matrix, and added twice over to the layer's input (x + (x + update)). The read-out: the second layer's
  result summed per graph, through a 64×40 matrix, a leaky relu and a 40×1 matrix.
  A leaky relu is a call: seven operations at the call site over the call's own buffers (the scalar zero, its
  broadcast, the comparison x ≥ 0, the slope converted to its own type, its broadcast, the product slope · x, the
  select). Here the operations are listed in order, cut at the two layer boundaries, @main is shown to be that list
  run in order, and every buffer ends at the operations' fold over the launch contents.
-/
import proofs.«424516_j14181982011740_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer: from the node features (argument 0) to x₁ = x + (x + update), 62 operations; the last writes
    the layer's result. -/
abbrev ops0 : List (HloOp τ sig (Elt F)) :=
  [ binary main_arg0 main_arg2 main_v0 ((fun l r => Host.dotGeneral dot_S1048576x64_S64x40_S1048576x40_1_0_0_1_n_n none l r) : (⟨S1048576x64, .f32⟩ : BufTy).Contents (Elt F) → (⟨S64x40, .f32⟩ : BufTy).Contents (Elt F) → (⟨S1048576x40, .f32⟩ : BufTy).Contents (Elt F)),
    nullary main_cst (constant S_ .f32 0x3C23D70A#32),
    TRef.nullary main_call0.cst (constant S_ .f32 0x00000000#32),
    TRef.unary main_call0.cst main_call0.v0 (broadcastInDim S1048576x40 ![] bcast_S_S1048576x40),
    TRef.binary (.of main_v0 : TRef sig ⟨S1048576x40, .f32⟩) main_call0.v0 main_call0.v1 (cmpf .oge),
    TRef.unary (.of main_cst : TRef sig ⟨S_, .f32⟩) main_call0.v2 id,
    TRef.unary main_call0.v2 main_call0.v3 (broadcastInDim S1048576x40 ![] bcast_S_S1048576x40),
    TRef.binary main_call0.v3 (.of main_v0 : TRef sig ⟨S1048576x40, .f32⟩) main_call0.v4 mulf,
    TRef.ternary main_call0.v1 (.of main_v0 : TRef sig ⟨S1048576x40, .f32⟩) main_call0.v4 main_call0.call0.v0 select,
    binary main_v1 main_arg3 main_v2 ((fun l r => Host.dotGeneral dot_S1048576x40_S40x4_S1048576x4_1_0_0_1_n_n none l r) : (⟨S1048576x40, .f32⟩ : BufTy).Contents (Elt F) → (⟨S40x4, .f32⟩ : BufTy).Contents (Elt F) → (⟨S1048576x4, .f32⟩ : BufTy).Contents (Elt F)),
    nullary main_cst_0 (constant S_ .f32 0x3C23D70A#32),
    TRef.nullary main_call1.cst (constant S_ .f32 0x00000000#32),
    TRef.unary main_call1.cst main_call1.v0 (broadcastInDim S1048576x4 ![] bcast_S_S1048576x4),
    TRef.binary (.of main_v2 : TRef sig ⟨S1048576x4, .f32⟩) main_call1.v0 main_call1.v1 (cmpf .oge),
    TRef.unary (.of main_cst_0 : TRef sig ⟨S_, .f32⟩) main_call1.v2 id,
    TRef.unary main_call1.v2 main_call1.v3 (broadcastInDim S1048576x4 ![] bcast_S_S1048576x4),
    TRef.binary main_call1.v3 (.of main_v2 : TRef sig ⟨S1048576x4, .f32⟩) main_call1.v4 mulf,
    TRef.ternary main_call1.v1 (.of main_v2 : TRef sig ⟨S1048576x4, .f32⟩) main_call1.v4 main_call1.call0.v0 select,
    nullary main_cst_1 (constant S_ .f32 0x00000000#32),
    unary main_cst_1 main_v4 (broadcastInDim S4096x4 ![] bcast_S_S4096x4 : (⟨S_, .f32⟩ : BufTy).Contents (Elt F) → (⟨S4096x4, .f32⟩ : BufTy).Contents (Elt F)),
    unary main_arg1 main_v5 (broadcastInDim S1048576x1 ![0] bcast_S1048576_S1048576x1_0 : (⟨S1048576, .i32⟩ : BufTy).Contents (Elt F) → (⟨S1048576x1, .i32⟩ : BufTy).Contents (Elt F)),
    ternary main_v4 main_v5 main_v3 main_v6 ((fun x i u => Host.scatterAdd scatter_S4096x4_S1048576x1_S1048576x4_1_0_0_1 x i u) : (⟨S4096x4, .f32⟩ : BufTy).Contents (Elt F) → (⟨S1048576x1, .i32⟩ : BufTy).Contents (Elt F) → (⟨S1048576x4, .f32⟩ : BufTy).Contents (Elt F) → (⟨S4096x4, .f32⟩ : BufTy).Contents (Elt F)),
    binary main_v6 main_arg4 main_v7 ((fun l r => Host.dotGeneral dot_S4096x4_S4x40_S4096x40_1_0_0_1_n_n none l r) : (⟨S4096x4, .f32⟩ : BufTy).Contents (Elt F) → (⟨S4x40, .f32⟩ : BufTy).Contents (Elt F) → (⟨S4096x40, .f32⟩ : BufTy).Contents (Elt F)),
    nullary main_cst_2 (constant S_ .f32 0x3C23D70A#32),
    TRef.nullary main_call2.cst (constant S_ .f32 0x00000000#32),
    TRef.unary main_call2.cst main_call2.v0 (broadcastInDim S4096x40 ![] bcast_S_S4096x40),
    TRef.binary (.of main_v7 : TRef sig ⟨S4096x40, .f32⟩) main_call2.v0 main_call2.v1 (cmpf .oge),
    TRef.unary (.of main_cst_2 : TRef sig ⟨S_, .f32⟩) main_call2.v2 id,
    TRef.unary main_call2.v2 main_call2.v3 (broadcastInDim S4096x40 ![] bcast_S_S4096x40),
    TRef.binary main_call2.v3 (.of main_v7 : TRef sig ⟨S4096x40, .f32⟩) main_call2.v4 mulf,
    TRef.ternary main_call2.v1 (.of main_v7 : TRef sig ⟨S4096x40, .f32⟩) main_call2.v4 main_call2.call0.v0 select,
    binary main_v8 main_arg5 main_v9 ((fun l r => Host.dotGeneral dot_S4096x40_S40x5_S4096x5_1_0_0_1_n_n none l r) : (⟨S4096x40, .f32⟩ : BufTy).Contents (Elt F) → (⟨S40x5, .f32⟩ : BufTy).Contents (Elt F) → (⟨S4096x5, .f32⟩ : BufTy).Contents (Elt F)),
    nullary main_cst_3 (constant S_ .f32 0x3C23D70A#32),
    TRef.nullary main_call3.cst (constant S_ .f32 0x00000000#32),
    TRef.unary main_call3.cst main_call3.v0 (broadcastInDim S4096x5 ![] bcast_S_S4096x5),
    TRef.binary (.of main_v9 : TRef sig ⟨S4096x5, .f32⟩) main_call3.v0 main_call3.v1 (cmpf .oge),
    TRef.unary (.of main_cst_3 : TRef sig ⟨S_, .f32⟩) main_call3.v2 id,
    TRef.unary main_call3.v2 main_call3.v3 (broadcastInDim S4096x5 ![] bcast_S_S4096x5),
    TRef.binary main_call3.v3 (.of main_v9 : TRef sig ⟨S4096x5, .f32⟩) main_call3.v4 mulf,
    TRef.ternary main_call3.v1 (.of main_v9 : TRef sig ⟨S4096x5, .f32⟩) main_call3.v4 main_call3.call0.v0 select,
    nullary main_c (constantI S_ 32 0#32),
    unary main_c main_v11 (broadcastInDim S1048576 ![] bcast_S_S1048576 : (⟨S_, .i32⟩ : BufTy).Contents (Elt F) → (⟨S1048576, .i32⟩ : BufTy).Contents (Elt F)),
    binary main_arg1 main_v11 main_v12 (cmpi .slt : (⟨S1048576, .i32⟩ : BufTy).Contents (Elt F) → (⟨S1048576, .i32⟩ : BufTy).Contents (Elt F) → (⟨S1048576, .i1⟩ : BufTy).Contents (Elt F)),
    nullary main_c_4 (constantI S_ 32 4096#32),
    unary main_c_4 main_v13 (broadcastInDim S1048576 ![] bcast_S_S1048576 : (⟨S_, .i32⟩ : BufTy).Contents (Elt F) → (⟨S1048576, .i32⟩ : BufTy).Contents (Elt F)),
    binary main_arg1 main_v13 main_v14 (addi : (⟨S1048576, .i32⟩ : BufTy).Contents (Elt F) → (⟨S1048576, .i32⟩ : BufTy).Contents (Elt F) → (⟨S1048576, .i32⟩ : BufTy).Contents (Elt F)),
    ternary main_v12 main_v14 main_arg1 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v15 main_v16 (broadcastInDim S1048576x1 ![0] bcast_S1048576_S1048576x1_0 : (⟨S1048576, .i32⟩ : BufTy).Contents (Elt F) → (⟨S1048576x1, .i32⟩ : BufTy).Contents (Elt F)),
    binary main_v10 main_v16 main_v17 ((fun x i => Host.gather gather_S4096x5_S1048576x1_S1048576x5_1_0_n_n_0_1_15 x i) : (⟨S4096x5, .f32⟩ : BufTy).Contents (Elt F) → (⟨S1048576x1, .i32⟩ : BufTy).Contents (Elt F) → (⟨S1048576x5, .f32⟩ : BufTy).Contents (Elt F)),
    binary main_v3 main_v17 main_v18 ((fun a b => concatenate S1048576x9 1 [⟨S1048576x4, a⟩, ⟨S1048576x5, b⟩] concatenates_S1048576x4_S1048576x5_S1048576x9_d1) : (⟨S1048576x4, .f32⟩ : BufTy).Contents (Elt F) → (⟨S1048576x5, .f32⟩ : BufTy).Contents (Elt F) → (⟨S1048576x9, .f32⟩ : BufTy).Contents (Elt F)),
    binary main_v18 main_arg6 main_v19 ((fun l r => Host.dotGeneral dot_S1048576x9_S9x40_S1048576x40_1_0_0_1_n_n none l r) : (⟨S1048576x9, .f32⟩ : BufTy).Contents (Elt F) → (⟨S9x40, .f32⟩ : BufTy).Contents (Elt F) → (⟨S1048576x40, .f32⟩ : BufTy).Contents (Elt F)),
    nullary main_cst_5 (constant S_ .f32 0x3C23D70A#32),
    TRef.nullary main_call4.cst (constant S_ .f32 0x00000000#32),
    TRef.unary main_call4.cst main_call4.v0 (broadcastInDim S1048576x40 ![] bcast_S_S1048576x40),
    TRef.binary (.of main_v19 : TRef sig ⟨S1048576x40, .f32⟩) main_call4.v0 main_call4.v1 (cmpf .oge),
    TRef.unary (.of main_cst_5 : TRef sig ⟨S_, .f32⟩) main_call4.v2 id,
    TRef.unary main_call4.v2 main_call4.v3 (broadcastInDim S1048576x40 ![] bcast_S_S1048576x40),
    TRef.binary main_call4.v3 (.of main_v19 : TRef sig ⟨S1048576x40, .f32⟩) main_call4.v4 mulf,
    TRef.ternary main_call4.v1 (.of main_v19 : TRef sig ⟨S1048576x40, .f32⟩) main_call4.v4 main_call4.call0.v0 select,
    binary main_v20 main_arg7 main_v21 ((fun l r => Host.dotGeneral dot_S1048576x40_S40x64_S1048576x64_1_0_0_1_n_n none l r) : (⟨S1048576x40, .f32⟩ : BufTy).Contents (Elt F) → (⟨S40x64, .f32⟩ : BufTy).Contents (Elt F) → (⟨S1048576x64, .f32⟩ : BufTy).Contents (Elt F)),
    binary main_arg0 main_v21 main_v22 (addf : (⟨S1048576x64, .f32⟩ : BufTy).Contents (Elt F) → (⟨S1048576x64, .f32⟩ : BufTy).Contents (Elt F) → (⟨S1048576x64, .f32⟩ : BufTy).Contents (Elt F)),
    binary main_arg0 main_v22 main_v23 (addf : (⟨S1048576x64, .f32⟩ : BufTy).Contents (Elt F) → (⟨S1048576x64, .f32⟩ : BufTy).Contents (Elt F) → (⟨S1048576x64, .f32⟩ : BufTy).Contents (Elt F)) ]

/-- The second layer, the same 62 operations over the first layer's result and the second set of matrices; the
    last writes the layer's result. -/
abbrev ops1 : List (HloOp τ sig (Elt F)) :=
  [ binary main_v23 main_arg8 main_v24 ((fun l r => Host.dotGeneral dot_S1048576x64_S64x40_S1048576x40_1_0_0_1_n_n none l r) : (⟨S1048576x64, .f32⟩ : BufTy).Contents (Elt F) → (⟨S64x40, .f32⟩ : BufTy).Contents (Elt F) → (⟨S1048576x40, .f32⟩ : BufTy).Contents (Elt F)),
    nullary main_cst_6 (constant S_ .f32 0x3C23D70A#32),
    TRef.nullary main_call5.cst (constant S_ .f32 0x00000000#32),
    TRef.unary main_call5.cst main_call5.v0 (broadcastInDim S1048576x40 ![] bcast_S_S1048576x40),
    TRef.binary (.of main_v24 : TRef sig ⟨S1048576x40, .f32⟩) main_call5.v0 main_call5.v1 (cmpf .oge),
    TRef.unary (.of main_cst_6 : TRef sig ⟨S_, .f32⟩) main_call5.v2 id,
    TRef.unary main_call5.v2 main_call5.v3 (broadcastInDim S1048576x40 ![] bcast_S_S1048576x40),
    TRef.binary main_call5.v3 (.of main_v24 : TRef sig ⟨S1048576x40, .f32⟩) main_call5.v4 mulf,
    TRef.ternary main_call5.v1 (.of main_v24 : TRef sig ⟨S1048576x40, .f32⟩) main_call5.v4 main_call5.call0.v0 select,
    binary main_v25 main_arg9 main_v26 ((fun l r => Host.dotGeneral dot_S1048576x40_S40x4_S1048576x4_1_0_0_1_n_n none l r) : (⟨S1048576x40, .f32⟩ : BufTy).Contents (Elt F) → (⟨S40x4, .f32⟩ : BufTy).Contents (Elt F) → (⟨S1048576x4, .f32⟩ : BufTy).Contents (Elt F)),
    nullary main_cst_7 (constant S_ .f32 0x3C23D70A#32),
    TRef.nullary main_call6.cst (constant S_ .f32 0x00000000#32),
    TRef.unary main_call6.cst main_call6.v0 (broadcastInDim S1048576x4 ![] bcast_S_S1048576x4),
    TRef.binary (.of main_v26 : TRef sig ⟨S1048576x4, .f32⟩) main_call6.v0 main_call6.v1 (cmpf .oge),
    TRef.unary (.of main_cst_7 : TRef sig ⟨S_, .f32⟩) main_call6.v2 id,
    TRef.unary main_call6.v2 main_call6.v3 (broadcastInDim S1048576x4 ![] bcast_S_S1048576x4),
    TRef.binary main_call6.v3 (.of main_v26 : TRef sig ⟨S1048576x4, .f32⟩) main_call6.v4 mulf,
    TRef.ternary main_call6.v1 (.of main_v26 : TRef sig ⟨S1048576x4, .f32⟩) main_call6.v4 main_call6.call0.v0 select,
    nullary main_cst_8 (constant S_ .f32 0x00000000#32),
    unary main_cst_8 main_v28 (broadcastInDim S4096x4 ![] bcast_S_S4096x4 : (⟨S_, .f32⟩ : BufTy).Contents (Elt F) → (⟨S4096x4, .f32⟩ : BufTy).Contents (Elt F)),
    unary main_arg1 main_v29 (broadcastInDim S1048576x1 ![0] bcast_S1048576_S1048576x1_0 : (⟨S1048576, .i32⟩ : BufTy).Contents (Elt F) → (⟨S1048576x1, .i32⟩ : BufTy).Contents (Elt F)),
    ternary main_v28 main_v29 main_v27 main_v30 ((fun x i u => Host.scatterAdd scatter_S4096x4_S1048576x1_S1048576x4_1_0_0_1 x i u) : (⟨S4096x4, .f32⟩ : BufTy).Contents (Elt F) → (⟨S1048576x1, .i32⟩ : BufTy).Contents (Elt F) → (⟨S1048576x4, .f32⟩ : BufTy).Contents (Elt F) → (⟨S4096x4, .f32⟩ : BufTy).Contents (Elt F)),
    binary main_v30 main_arg10 main_v31 ((fun l r => Host.dotGeneral dot_S4096x4_S4x40_S4096x40_1_0_0_1_n_n none l r) : (⟨S4096x4, .f32⟩ : BufTy).Contents (Elt F) → (⟨S4x40, .f32⟩ : BufTy).Contents (Elt F) → (⟨S4096x40, .f32⟩ : BufTy).Contents (Elt F)),
    nullary main_cst_9 (constant S_ .f32 0x3C23D70A#32),
    TRef.nullary main_call7.cst (constant S_ .f32 0x00000000#32),
    TRef.unary main_call7.cst main_call7.v0 (broadcastInDim S4096x40 ![] bcast_S_S4096x40),
    TRef.binary (.of main_v31 : TRef sig ⟨S4096x40, .f32⟩) main_call7.v0 main_call7.v1 (cmpf .oge),
    TRef.unary (.of main_cst_9 : TRef sig ⟨S_, .f32⟩) main_call7.v2 id,
    TRef.unary main_call7.v2 main_call7.v3 (broadcastInDim S4096x40 ![] bcast_S_S4096x40),
    TRef.binary main_call7.v3 (.of main_v31 : TRef sig ⟨S4096x40, .f32⟩) main_call7.v4 mulf,
    TRef.ternary main_call7.v1 (.of main_v31 : TRef sig ⟨S4096x40, .f32⟩) main_call7.v4 main_call7.call0.v0 select,
    binary main_v32 main_arg11 main_v33 ((fun l r => Host.dotGeneral dot_S4096x40_S40x5_S4096x5_1_0_0_1_n_n none l r) : (⟨S4096x40, .f32⟩ : BufTy).Contents (Elt F) → (⟨S40x5, .f32⟩ : BufTy).Contents (Elt F) → (⟨S4096x5, .f32⟩ : BufTy).Contents (Elt F)),
    nullary main_cst_10 (constant S_ .f32 0x3C23D70A#32),
    TRef.nullary main_call8.cst (constant S_ .f32 0x00000000#32),
    TRef.unary main_call8.cst main_call8.v0 (broadcastInDim S4096x5 ![] bcast_S_S4096x5),
    TRef.binary (.of main_v33 : TRef sig ⟨S4096x5, .f32⟩) main_call8.v0 main_call8.v1 (cmpf .oge),
    TRef.unary (.of main_cst_10 : TRef sig ⟨S_, .f32⟩) main_call8.v2 id,
    TRef.unary main_call8.v2 main_call8.v3 (broadcastInDim S4096x5 ![] bcast_S_S4096x5),
    TRef.binary main_call8.v3 (.of main_v33 : TRef sig ⟨S4096x5, .f32⟩) main_call8.v4 mulf,
    TRef.ternary main_call8.v1 (.of main_v33 : TRef sig ⟨S4096x5, .f32⟩) main_call8.v4 main_call8.call0.v0 select,
    nullary main_c_11 (constantI S_ 32 0#32),
    unary main_c_11 main_v35 (broadcastInDim S1048576 ![] bcast_S_S1048576 : (⟨S_, .i32⟩ : BufTy).Contents (Elt F) → (⟨S1048576, .i32⟩ : BufTy).Contents (Elt F)),
    binary main_arg1 main_v35 main_v36 (cmpi .slt : (⟨S1048576, .i32⟩ : BufTy).Contents (Elt F) → (⟨S1048576, .i32⟩ : BufTy).Contents (Elt F) → (⟨S1048576, .i1⟩ : BufTy).Contents (Elt F)),
    nullary main_c_12 (constantI S_ 32 4096#32),
    unary main_c_12 main_v37 (broadcastInDim S1048576 ![] bcast_S_S1048576 : (⟨S_, .i32⟩ : BufTy).Contents (Elt F) → (⟨S1048576, .i32⟩ : BufTy).Contents (Elt F)),
    binary main_arg1 main_v37 main_v38 (addi : (⟨S1048576, .i32⟩ : BufTy).Contents (Elt F) → (⟨S1048576, .i32⟩ : BufTy).Contents (Elt F) → (⟨S1048576, .i32⟩ : BufTy).Contents (Elt F)),
    ternary main_v36 main_v38 main_arg1 main_v39 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v39 main_v40 (broadcastInDim S1048576x1 ![0] bcast_S1048576_S1048576x1_0 : (⟨S1048576, .i32⟩ : BufTy).Contents (Elt F) → (⟨S1048576x1, .i32⟩ : BufTy).Contents (Elt F)),
    binary main_v34 main_v40 main_v41 ((fun x i => Host.gather gather_S4096x5_S1048576x1_S1048576x5_1_0_n_n_0_1_15 x i) : (⟨S4096x5, .f32⟩ : BufTy).Contents (Elt F) → (⟨S1048576x1, .i32⟩ : BufTy).Contents (Elt F) → (⟨S1048576x5, .f32⟩ : BufTy).Contents (Elt F)),
    binary main_v27 main_v41 main_v42 ((fun a b => concatenate S1048576x9 1 [⟨S1048576x4, a⟩, ⟨S1048576x5, b⟩] concatenates_S1048576x4_S1048576x5_S1048576x9_d1) : (⟨S1048576x4, .f32⟩ : BufTy).Contents (Elt F) → (⟨S1048576x5, .f32⟩ : BufTy).Contents (Elt F) → (⟨S1048576x9, .f32⟩ : BufTy).Contents (Elt F)),
    binary main_v42 main_arg12 main_v43 ((fun l r => Host.dotGeneral dot_S1048576x9_S9x40_S1048576x40_1_0_0_1_n_n none l r) : (⟨S1048576x9, .f32⟩ : BufTy).Contents (Elt F) → (⟨S9x40, .f32⟩ : BufTy).Contents (Elt F) → (⟨S1048576x40, .f32⟩ : BufTy).Contents (Elt F)),
    nullary main_cst_13 (constant S_ .f32 0x3C23D70A#32),
    TRef.nullary main_call9.cst (constant S_ .f32 0x00000000#32),
    TRef.unary main_call9.cst main_call9.v0 (broadcastInDim S1048576x40 ![] bcast_S_S1048576x40),
    TRef.binary (.of main_v43 : TRef sig ⟨S1048576x40, .f32⟩) main_call9.v0 main_call9.v1 (cmpf .oge),
    TRef.unary (.of main_cst_13 : TRef sig ⟨S_, .f32⟩) main_call9.v2 id,
    TRef.unary main_call9.v2 main_call9.v3 (broadcastInDim S1048576x40 ![] bcast_S_S1048576x40),
    TRef.binary main_call9.v3 (.of main_v43 : TRef sig ⟨S1048576x40, .f32⟩) main_call9.v4 mulf,
    TRef.ternary main_call9.v1 (.of main_v43 : TRef sig ⟨S1048576x40, .f32⟩) main_call9.v4 main_call9.call0.v0 select,
    binary main_v44 main_arg13 main_v45 ((fun l r => Host.dotGeneral dot_S1048576x40_S40x64_S1048576x64_1_0_0_1_n_n none l r) : (⟨S1048576x40, .f32⟩ : BufTy).Contents (Elt F) → (⟨S40x64, .f32⟩ : BufTy).Contents (Elt F) → (⟨S1048576x64, .f32⟩ : BufTy).Contents (Elt F)),
    binary main_v23 main_v45 main_v46 (addf : (⟨S1048576x64, .f32⟩ : BufTy).Contents (Elt F) → (⟨S1048576x64, .f32⟩ : BufTy).Contents (Elt F) → (⟨S1048576x64, .f32⟩ : BufTy).Contents (Elt F)),
    binary main_v23 main_v46 main_v47 (addf : (⟨S1048576x64, .f32⟩ : BufTy).Contents (Elt F) → (⟨S1048576x64, .f32⟩ : BufTy).Contents (Elt F) → (⟨S1048576x64, .f32⟩ : BufTy).Contents (Elt F)) ]

/-- The read-out, 14 operations: the per-graph sum of the second layer's result, a 64×40 matrix, a leaky relu, a
    40×1 matrix. -/
abbrev ops2 : List (HloOp τ sig (Elt F)) :=
  [ nullary main_cst_14 (constant S_ .f32 0x00000000#32),
    unary main_cst_14 main_v48 (broadcastInDim S4096x64 ![] bcast_S_S4096x64 : (⟨S_, .f32⟩ : BufTy).Contents (Elt F) → (⟨S4096x64, .f32⟩ : BufTy).Contents (Elt F)),
    unary main_arg1 main_v49 (broadcastInDim S1048576x1 ![0] bcast_S1048576_S1048576x1_0 : (⟨S1048576, .i32⟩ : BufTy).Contents (Elt F) → (⟨S1048576x1, .i32⟩ : BufTy).Contents (Elt F)),
    ternary main_v48 main_v49 main_v47 main_v50 ((fun x i u => Host.scatterAdd scatter_S4096x64_S1048576x1_S1048576x64_1_0_0_1 x i u) : (⟨S4096x64, .f32⟩ : BufTy).Contents (Elt F) → (⟨S1048576x1, .i32⟩ : BufTy).Contents (Elt F) → (⟨S1048576x64, .f32⟩ : BufTy).Contents (Elt F) → (⟨S4096x64, .f32⟩ : BufTy).Contents (Elt F)),
    binary main_v50 main_arg14 main_v51 ((fun l r => Host.dotGeneral dot_S4096x64_S64x40_S4096x40_1_0_0_1_n_n none l r) : (⟨S4096x64, .f32⟩ : BufTy).Contents (Elt F) → (⟨S64x40, .f32⟩ : BufTy).Contents (Elt F) → (⟨S4096x40, .f32⟩ : BufTy).Contents (Elt F)),
    nullary main_cst_15 (constant S_ .f32 0x3C23D70A#32),
    TRef.nullary main_call10.cst (constant S_ .f32 0x00000000#32),
    TRef.unary main_call10.cst main_call10.v0 (broadcastInDim S4096x40 ![] bcast_S_S4096x40),
    TRef.binary (.of main_v51 : TRef sig ⟨S4096x40, .f32⟩) main_call10.v0 main_call10.v1 (cmpf .oge),
    TRef.unary (.of main_cst_15 : TRef sig ⟨S_, .f32⟩) main_call10.v2 id,
    TRef.unary main_call10.v2 main_call10.v3 (broadcastInDim S4096x40 ![] bcast_S_S4096x40),
    TRef.binary main_call10.v3 (.of main_v51 : TRef sig ⟨S4096x40, .f32⟩) main_call10.v4 mulf,
    TRef.ternary main_call10.v1 (.of main_v51 : TRef sig ⟨S4096x40, .f32⟩) main_call10.v4 main_call10.call0.v0 select,
    binary main_v52 main_arg15 main_v53 ((fun l r => Host.dotGeneral dot_S4096x40_S40x1_S4096x1_1_0_0_1_n_n none l r) : (⟨S4096x40, .f32⟩ : BufTy).Contents (Elt F) → (⟨S40x1, .f32⟩ : BufTy).Contents (Elt F) → (⟨S4096x1, .f32⟩ : BufTy).Contents (Elt F)) ]

/-- @main's 138 operations, in order. -/
abbrev ops : List (HloOp τ sig (Elt F)) := ops0 ++ ops1 ++ ops2

/-- A fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole line's fold is the read-out's over the second layer's over the first layer's. -/
theorem after_ops (V : Valuation τ sig (Elt F)) : after ops V = after ops2 (after ops1 (after ops0 V)) := by
  rw [show (ops : List (HloOp τ sig (Elt F))) = ops0 ++ ops1 ++ ops2 from rfl, after_append, after_append]

-- 138 binds re-associated: the rewrite under the chain recurses once per statement
set_option maxRecDepth 8192 in
/-- @main is that straight line: its two windows in turn, the leaky relus' and the selects' definitions unfolded at
    their calls and the calls' records at their fields; both sides are one chain of steps once sequencing is
    reassociated. -/
theorem main_eq (c : Dev nD) : main (F := F) c = seq ops := by
  rw [show (ops : List (HloOp τ sig (Elt F))) = ops0 ++ ops1 ++ ops2 from rfl, seq_append, seq_append]
  simp only [main, main_part0, main_part1, fn_leaky_relu.body, fn_leaky_relu_0.body, fn_leaky_relu_2.body, fn_leaky_relu_4.body,
    fn_where.body, fn_where_1.body, fn_where_3.body, fn_where_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the first layer touches TensorCore references only. -/
theorem ops0_sub : (ops0 : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., unary_bufs_sub .., ternary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    binary_bufs_sub .., binary_bufs_sub ..⟩

/-- The same of the second layer. -/
theorem ops1_sub : (ops1 : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., unary_bufs_sub .., ternary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    binary_bufs_sub .., binary_bufs_sub ..⟩

/-- The same of the read-out. -/
theorem ops2_sub : (ops2 : List (HloOp τ sig (Elt F))).Forall fun op => op.bufs ⊆ tcRefs τ sig :=
  ⟨nullary_bufs_sub .., unary_bufs_sub .., unary_bufs_sub .., ternary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub ..⟩

/-- A property of every operation of the three stretches is one of every operation of the line. -/
theorem forall_ops {p : HloOp τ sig (Elt F) → Prop} (h0 : ∀ op ∈ (ops0 : List (HloOp τ sig (Elt F))), p op)
    (h1 : ∀ op ∈ (ops1 : List (HloOp τ sig (Elt F))), p op) (h2 : ∀ op ∈ (ops2 : List (HloOp τ sig (Elt F))), p op) :
    ∀ op ∈ (ops : List (HloOp τ sig (Elt F))), p op := by
  intro op h
  rcases List.mem_append.1 h with h | h
  · rcases List.mem_append.1 h with h | h
    · exact h0 op h
    · exact h1 op h
  · exact h2 op h

theorem ops_sub : (ops : List (HloOp τ sig (Elt F))).Forall fun op => op.bufs ⊆ tcRefs τ sig :=
  List.forall_iff_forall_mem.2
    (forall_ops (List.forall_iff_forall_mem.1 ops0_sub) (List.forall_iff_forall_mem.1 ops1_sub) (List.forall_iff_forall_mem.1 ops2_sub))

/-- Every operation determines its results: none leaves a buffer to the machine's choice. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => forall_ops ops0_fresh ops1_fresh ops2_fresh)

end Cert.ReferenceIdeal.RefRun

end
-- ==== Proof.HostRead.lean ====
/-
  The reference's per-node host chains read entry by entry: the array rectifier is the scalar one at each entry,
  the two-layer rectified product is the latent of Spec.lean, and the residual update over the concatenated
  [latent | graph value] is Spec.lean's update.
-/
import Idealize.ShloMosaic.PureOps.Ideal
import Idealize.ShloMosaic.PureOps.Ideal.Laws
import Idealize.ShloMosaic.Lib.ValueIdx
import Idealize.ShloMosaic.Lib.Pipeline.Value
import proofs.«424516_j14181982011740_3_alg».proof.Proof.Spec
import proofs.«424516_j14181982011740_3_alg».proof.Proof.LibDot
import proofs.«424516_j14181982011740_3_alg».proof.Proof.HostFns

open scoped BigOperators

noncomputable section

namespace Cert.HF

open Idealize.ShloMosaic
open Idealize.ShloMosaic.ValueIdx
open Cert.Lib.Dot

/-- The array rectifier at an entry is the scalar rectifier of that entry. -/
theorem lreluV_apply {s : Shape} (hb : S0.BroadcastsInDim s (![] : Fin 0 → Fin s.rank)) (v : FVec Ideal s .f32) (i : s.Idx) :
    lreluV hb v i = Spec.lr (v i) := rfl

/-- lrelu (lrelu (x · w1) · w2), as the host computes it on an [n, 64] array, is the latent. -/
theorem refE {n : Nat} (d1 : DotDims (M2 n 64) (M2 64 40) (M2 n 40)) (d2 : DotDims (M2 n 40) (M2 40 4) (M2 n 4))
    (h1 : IsRowsCols d1) (h2 : IsRowsCols d2)
    (hb40 : S0.BroadcastsInDim (M2 n 40) (![] : Fin 0 → Fin (M2 n 40).rank))
    (hb4 : S0.BroadcastsInDim (M2 n 4) (![] : Fin 0 → Fin (M2 n 4).rank))
    (x : Spec.Arr n 64) (w1 : Spec.Arr 64 40) (w2 : Spec.Arr 40 4) :
    lreluV hb4 (Host.dotGeneral (F := Ideal) (φ₁ := .f32) (φ₂ := .f32) d2 none (lreluV hb40 (Host.dotGeneral (F := Ideal) (φ₁ := .f32) (φ₂ := .f32) d1 none x w1)) w2)
      = Spec.E x w1 w2 := by
  funext j
  obtain ⟨p, q, rfl⟩ : ∃ (p : Fin n) (q : Fin 4), j = ix2 p q := ⟨j 0, j 1, eq_ix2 j⟩
  show _ = Spec.e x w1 w2 p q
  rw [lreluV_apply, hostDot_rc d2 h2]
  unfold Spec.e
  congr 1
  refine Finset.sum_congr rfl fun k _ => ?_
  rw [lreluV_apply, hostDot_rc d1 h1]

/-- The concatenation [ev | gb] along the columns, read in one of the first four columns, is ev there. -/
private theorem cat_left {n : Nat} (hcat : Shape.Concatenates [M2 n 4, M2 n 5] (M2 n 9) 1)
    (ev : Spec.Arr n 4) (gb : Spec.Arr n 5) (i : Fin n) (a : Fin 4) :
    concatenate (α := EReal) (M2 n 9) 1 [⟨M2 n 4, ev⟩, ⟨M2 n 5, gb⟩] hcat (ix2 i (Fin.castAdd 5 a)) = ev (ix2 i a) := by
  refine concatenate_pair_apply_left 1 ev gb hcat _ rfl (ix2 i a) ?_
  intro b
  match b with
  | ⟨0, _⟩ => rfl
  | ⟨1, _⟩ => rfl

/-- The concatenation read in one of the last five columns is gb at that column less four. -/
private theorem cat_right {n : Nat} (hcat : Shape.Concatenates [M2 n 4, M2 n 5] (M2 n 9) 1)
    (ev : Spec.Arr n 4) (gb : Spec.Arr n 5) (i : Fin n) (b : Fin 5) :
    concatenate (α := EReal) (M2 n 9) 1 [⟨M2 n 4, ev⟩, ⟨M2 n 5, gb⟩] hcat (ix2 i (Fin.natAdd 4 b)) = gb (ix2 i b) := by
  refine concatenate_pair_apply_right 1 ev gb hcat _ rfl rfl (ix2 i b) ?_ ?_
  · intro c hc
    match c with
    | ⟨0, _⟩ => rfl
    | ⟨1, _⟩ => exact absurd rfl hc
  · show b.val + 4 = 4 + b.val
    exact Nat.add_comm _ _

/-- x + (x + lrelu ([ev | gb] · ow1) · ow2), as the host computes it, is the update. -/
theorem refUpd {n : Nat} (dc : DotDims (M2 n 9) (M2 9 40) (M2 n 40)) (dOut : DotDims (M2 n 40) (M2 40 64) (M2 n 64))
    (hc : IsRowsCols dc) (ho : IsRowsCols dOut)
    (hcat : Shape.Concatenates [M2 n 4, M2 n 5] (M2 n 9) 1)
    (hb40 : S0.BroadcastsInDim (M2 n 40) (![] : Fin 0 → Fin (M2 n 40).rank))
    (x : Spec.Arr n 64) (ev : Spec.Arr n 4) (gb : Spec.Arr n 5) (ow1 : Spec.Arr 9 40) (ow2 : Spec.Arr 40 64) :
    addf (F := Ideal) (φ := .f32) x (addf (F := Ideal) (φ := .f32) x
      (Host.dotGeneral (F := Ideal) (φ₁ := .f32) (φ₂ := .f32) dOut none
        (lreluV hb40 (Host.dotGeneral (F := Ideal) (φ₁ := .f32) (φ₂ := .f32) dc none
          (concatenate (α := EReal) (M2 n 9) 1 [⟨M2 n 4, ev⟩, ⟨M2 n 5, gb⟩] hcat) ow1)) ow2))
      = Spec.Upd x ev gb ow1 ow2 := by
  funext j
  obtain ⟨p, q, rfl⟩ : ∃ (p : Fin n) (q : Fin 64), j = ix2 p q := ⟨j 0, j 1, eq_ix2 j⟩
  show _ = Spec.upd x ev gb ow1 ow2 p q
  rw [addf_apply, addf_apply, hostDot_rc dOut ho]
  unfold Spec.upd
  congr 2
  refine Finset.sum_congr rfl fun k _ => ?_
  rw [lreluV_apply, hostDot_rc dc hc, Spec.sum_nine]
  unfold Spec.hid
  simp only [cat_left, cat_right]

end Cert.HF

end
-- ==== Proof.RValue.lean ====
/-
  The reference's value.

  The reference program is a straight line of host operations. This file reads the contents of its result
  buffer after the line as ONE term over the contents of the argument buffers: two rounds of the node update
  (the latent, its per-graph sums, the per-graph network, the read-back of the network's rows at the wrapped
  graph ids, the residual update), the per-graph sums of the node features, and the last network. First the
  printed round is shown to be the shared round of HostFns.lean at this program's dimension records; then the
  line is cut into the two rounds and the tail, each chunk's result buffer is read, and the three are composed.
  The argument buffers are written by no operation and keep their contents.
-/
import Idealize.ShloMosaic.PureOps.Ideal
import Idealize.ShloMosaic.PureOps.Ideal.Laws
import Idealize.ShloMosaic.Lib.ValueIdx
import Idealize.ShloMosaic.Lib.StableHlo.Run
import proofs.«424516_j14181982011740_3_alg».proof.Proof.Gen.ReferenceIdeal
import proofs.«424516_j14181982011740_3_alg».proof.Proof.Spec
import proofs.«424516_j14181982011740_3_alg».proof.Proof.LibDot
import proofs.«424516_j14181982011740_3_alg».proof.Proof.HostFns
import proofs.«424516_j14181982011740_3_alg».proof.Proof.HostRead
import proofs.«424516_j14181982011740_3_alg».proof.Proof.RRun

noncomputable section

namespace Cert.ReferenceIdeal.RefValue

open Idealize.ShloMosaic
open Idealize.ShloMosaic.ValueIdx
open Cert.ReferenceIdeal Cert.ReferenceIdeal.Facts₀ Cert.ReferenceIdeal.Facts
open Cert

/-! ## The printed round is the shared round -/

/-- The records of the reference program's scatter-adds and per-graph products, bundled as the shared host
    steps take them. -/
def RR : HF.Recs where
  sc4 := scatter_S4096x4_S1048576x1_S1048576x4_1_0_0_1
  sc64 := scatter_S4096x64_S1048576x1_S1048576x64_1_0_0_1
  dg1 := dot_S4096x4_S4x40_S4096x40_1_0_0_1_n_n
  dg2 := dot_S4096x40_S40x5_S4096x5_1_0_0_1_n_n
  dd1 := dot_S4096x64_S64x40_S4096x40_1_0_0_1_n_n
  dd2 := dot_S4096x40_S40x1_S4096x1_1_0_0_1_n_n
  bz4 := bcast_S_S4096x4
  bz64 := bcast_S_S4096x64
  b40 := bcast_S_S4096x40
  b5 := bcast_S_S4096x5

/-- The record of the reference program's row gather. -/
abbrev Rgd : GatherDims (HF.M2 4096 5) (HF.M2 1048576 1) (HF.M2 1048576 5) :=
  gather_S4096x5_S1048576x1_S1048576x5_1_0_n_n_0_1_15

/-- The latent as the program spells it: lrelu (lrelu (x · ew1) · ew2) with the program's own records. -/
def evT (x : Spec.Arr 1048576 64) (ew1 : Spec.Arr 64 40) (ew2 : Spec.Arr 40 4) : Spec.Arr 1048576 4 :=
  HF.lreluV bcast_S_S1048576x4
    (Host.dotGeneral (F := Ideal) (φ₁ := .f32) (φ₂ := .f32) dot_S1048576x40_S40x4_S1048576x4_1_0_0_1_n_n none
      (HF.lreluV bcast_S_S1048576x40
        (Host.dotGeneral (F := Ideal) (φ₁ := .f32) (φ₂ := .f32) dot_S1048576x64_S64x40_S1048576x40_1_0_0_1_n_n none x ew1)) ew2)

/-- One round as the program spells it: x + (x + lrelu ([ev | tk (g-network of the per-graph sums of ev)] · ow1) · ow2). -/
def layerT (idx : IVec S1048576x1 32) (tk : FVec Ideal S4096x5 .f32 → FVec Ideal S1048576x5 .f32)
    (x : Spec.Arr 1048576 64) (ew1 : Spec.Arr 64 40) (ew2 : Spec.Arr 40 4) (gw1 : Spec.Arr 4 40) (gw2 : Spec.Arr 40 5)
    (ow1 : Spec.Arr 9 40) (ow2 : Spec.Arr 40 64) : Spec.Arr 1048576 64 :=
  addf (F := Ideal) (φ := .f32) x (addf (F := Ideal) (φ := .f32) x
    (Host.dotGeneral (F := Ideal) (φ₁ := .f32) (φ₂ := .f32) dot_S1048576x40_S40x64_S1048576x64_1_0_0_1_n_n none
      (HF.lreluV bcast_S_S1048576x40
        (Host.dotGeneral (F := Ideal) (φ₁ := .f32) (φ₂ := .f32) dot_S1048576x9_S9x40_S1048576x40_1_0_0_1_n_n none
          (concatenate (α := EReal) S1048576x9 1
            [⟨S1048576x4, evT x ew1 ew2⟩,
             ⟨S1048576x5, tk (HF.gffn RR (Host.scatterAdd RR.sc4 (HF.zerosV RR.bz4) idx (evT x ew1 ew2)) gw1 gw2)⟩]
            concatenates_S1048576x4_S1048576x5_S1048576x9_d1) ow1)) ow2))

/-- The program's latent is the latent of Spec.lean: both products are rows by columns. -/
theorem evT_eq (x : Spec.Arr 1048576 64) (ew1 : Spec.Arr 64 40) (ew2 : Spec.Arr 40 4) :
    evT x ew1 ew2 = Spec.E x ew1 ew2 :=
  HF.refE dot_S1048576x64_S64x40_S1048576x40_1_0_0_1_n_n dot_S1048576x40_S40x4_S1048576x4_1_0_0_1_n_n
    ⟨rfl, rfl, rfl, rfl, rfl, rfl⟩ ⟨rfl, rfl, rfl, rfl, rfl, rfl⟩ bcast_S_S1048576x40 bcast_S_S1048576x4 x ew1 ew2

/-- The printed round is the shared round at this program's records. -/
theorem layer_term (idx : IVec S1048576x1 32) (tk : FVec Ideal S4096x5 .f32 → FVec Ideal S1048576x5 .f32)
    (x : Spec.Arr 1048576 64) (ew1 : Spec.Arr 64 40) (ew2 : Spec.Arr 40 4) (gw1 : Spec.Arr 4 40) (gw2 : Spec.Arr 40 5)
    (ow1 : Spec.Arr 9 40) (ow2 : Spec.Arr 40 64) :
    layerT idx tk x ew1 ew2 gw1 gw2 ow1 ow2 = HF.layer RR idx tk x ew1 ew2 gw1 gw2 ow1 ow2 := by
  unfold layerT HF.layer
  rw [evT_eq]
  exact HF.refUpd dot_S1048576x9_S9x40_S1048576x40_1_0_0_1_n_n dot_S1048576x40_S40x64_S1048576x64_1_0_0_1_n_n
    ⟨rfl, rfl, rfl, rfl, rfl, rfl⟩ ⟨rfl, rfl, rfl, rfl, rfl, rfl⟩ concatenates_S1048576x4_S1048576x5_S1048576x9_d1
    bcast_S_S1048576x40 x (Spec.E x ew1 ew2) _ ow1 ow2

/-! ## The line, cut into the two rounds and the tail -/

section Run

open Idealize.ShloMosaic.StableHlo

local notation "⟪" b "⟫" => (Proc.devRef Proc.tc b : DevRef τ sig)

/-- A line's fold, cut after its first k operations. -/
theorem after_cut (k : Nat) (l : List (HloOp τ sig (Elt Ideal))) (V : Valuation τ sig (Elt Ideal)) :
    after l V = after (l.drop k) (after (l.take k) V) := by
  rw [← RefRun.after_append, List.take_append_drop]

/-- The fold of a line's first b operations, cut after its first a. -/
theorem after_cut2 (a b : Nat) (h : a ≤ b) (l : List (HloOp τ sig (Elt Ideal))) (V : Valuation τ sig (Elt Ideal)) :
    after (l.take b) V = after ((l.take b).drop a) (after (l.take a) V) := by
  have e : (l.take b).take a = l.take a := by rw [List.take_take, Nat.min_eq_left h]
  rw [← e]
  exact after_cut a (l.take b) V

/-! ### The first round: the result buffer main_v23, and the argument buffers -/

/-- The latent: after the round's first eighteen operations the buffer main_v3 holds the latent of the round's input. -/
theorem ops0_p18_ev (V : Valuation τ sig (Elt Ideal)) :
    after ((RefRun.ops0 (F := Ideal)).take 18) V ⟪main_v3⟫ = evT (V ⟪main_arg0⟫) (V ⟪main_arg2⟫) (V ⟪main_arg3⟫) := by
  simp only [RefRun.ops0, List.take_succ_cons, List.take_zero, List.drop_succ_cons, List.drop_zero]
  after_results_simp
  rfl

/-- The first 18 operations of the stretch do not write the buffer main_arg1. -/
theorem ops0_p18_arg1 (V : Valuation τ sig (Elt Ideal)) :
    after ((RefRun.ops0 (F := Ideal)).take 18) V ⟪main_arg1⟫ = V ⟪main_arg1⟫ := by
  simp only [RefRun.ops0, List.take_succ_cons, List.take_zero, List.drop_succ_cons, List.drop_zero]
  after_results_simp

/-- The first 18 operations of the stretch do not write the buffer main_arg4. -/
theorem ops0_p18_arg4 (V : Valuation τ sig (Elt Ideal)) :
    after ((RefRun.ops0 (F := Ideal)).take 18) V ⟪main_arg4⟫ = V ⟪main_arg4⟫ := by
  simp only [RefRun.ops0, List.take_succ_cons, List.take_zero, List.drop_succ_cons, List.drop_zero]
  after_results_simp

/-- Operations 19 to 23: zeros, the ids as a column, the scatter-add of the latent, the product with gw1. -/
theorem ops0_segB (V : Valuation τ sig (Elt Ideal)) :
    after (((RefRun.ops0 (F := Ideal)).take 23).drop 18) V ⟪main_v7⟫
      = Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (V ⟪main_v3⟫ : FVec Ideal S1048576x4 .f32)) (V ⟪main_arg4⟫) := by
  simp only [RefRun.ops0, List.take_succ_cons, List.take_zero, List.drop_succ_cons, List.drop_zero]
  after_results_simp
  rfl

/-- The per-graph sums of the latent against gw1. -/
theorem ops0_p23_v7 (V : Valuation τ sig (Elt Ideal)) :
    after ((RefRun.ops0 (F := Ideal)).take 23) V ⟪main_v7⟫ = (Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (evT (V ⟪main_arg0⟫) (V ⟪main_arg2⟫) (V ⟪main_arg3⟫))) (V ⟪main_arg4⟫)) := by
  rw [after_cut2 18 23 (by decide), ops0_segB, ops0_p18_ev, ops0_p18_arg1, ops0_p18_arg4]

/-- Operations 24 to 31: the rectifier on the buffer main_v7. -/
theorem ops0_segC (V : Valuation τ sig (Elt Ideal)) :
    after (((RefRun.ops0 (F := Ideal)).take 31).drop 23) V ⟪main_v8⟫ = HF.lreluV (F := Ideal) RR.b40 (V ⟪main_v7⟫ : FVec Ideal S4096x40 .f32) := by
  simp only [RefRun.ops0, List.take_succ_cons, List.take_zero, List.drop_succ_cons, List.drop_zero]
  after_results_simp
  rfl

/-- The rectified product of the per-graph sums with gw1. -/
theorem ops0_p31_v8 (V : Valuation τ sig (Elt Ideal)) :
    after ((RefRun.ops0 (F := Ideal)).take 31) V ⟪main_v8⟫ = (HF.lreluV (F := Ideal) RR.b40 (Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (evT (V ⟪main_arg0⟫) (V ⟪main_arg2⟫) (V ⟪main_arg3⟫))) (V ⟪main_arg4⟫))) := by
  rw [after_cut2 23 31 (by decide), ops0_segC, ops0_p23_v7]

/-- The first 31 operations of the stretch do not write the buffer main_arg5. -/
theorem ops0_p31_arg5 (V : Valuation τ sig (Elt Ideal)) :
    after ((RefRun.ops0 (F := Ideal)).take 31) V ⟪main_arg5⟫ = V ⟪main_arg5⟫ := by
  simp only [RefRun.ops0, List.take_succ_cons, List.take_zero, List.drop_succ_cons, List.drop_zero]
  after_results_simp

/-- Operations 32 to 40: the product with gw2 and the rectifier. -/
theorem ops0_segD (V : Valuation τ sig (Elt Ideal)) :
    after (((RefRun.ops0 (F := Ideal)).take 40).drop 31) V ⟪main_v10⟫
      = HF.lreluV (F := Ideal) RR.b5 (Host.dotGeneral (F := Ideal) (φ₁ := .f32) (φ₂ := .f32) RR.dg2 none (V ⟪main_v8⟫ : FVec Ideal S4096x40 .f32) (V ⟪main_arg5⟫)) := by
  simp only [RefRun.ops0, List.take_succ_cons, List.take_zero, List.drop_succ_cons, List.drop_zero]
  after_results_simp
  rfl

/-- The per-graph network of the latent's per-graph sums. -/
theorem ops0_p40_v10 (V : Valuation τ sig (Elt Ideal)) :
    after ((RefRun.ops0 (F := Ideal)).take 40) V ⟪main_v10⟫ = HF.gffn RR (Host.scatterAdd (F := Ideal) (φ := .f32) RR.sc4 (HF.zerosV RR.bz4) (HF.colV bcast_S1048576_S1048576x1_0 (V ⟪main_arg1⟫)) (evT (V ⟪main_arg0⟫) (V ⟪main_arg2⟫) (V ⟪main_arg3⟫))) (V ⟪main_arg4⟫) (V ⟪main_arg5⟫) := by
  rw [after_cut2 31 40 (by decide), ops0_segD, ops0_p31_v8, ops0_p31_arg5]
  rfl

/-- The first 40 operations of the stretch do not write the buffer main_arg1. -/
theorem ops0_p40_arg1 (V : Valuation τ sig (Elt Ideal)) :
    after ((RefRun.ops0 (F := Ideal)).take 40) V ⟪main_arg1⟫ = V ⟪main_arg1⟫ := by
  simp only [RefRun.ops0, List.take_succ_cons, List.take_zero, List.drop_succ_cons, List.drop_zero]
  after_results_simp

/-- Operations 41 to 49: the wrap of negative ids, the ids as a column, the gather of the network's rows. -/
theorem ops0_segE (V : Valuation τ sig (Elt Ideal)) :
    after (((RefRun.ops0 (F := Ideal)).take 49).drop 40) V ⟪main_v17⟫ = Host.gather Rgd (V ⟪main_v10⟫ : FVec Ideal S4096x5 .f32) (HF.colV bcast_S1048576_S1048576x1_0 (HF.normV bcast_S_S1048576 (V ⟪main_arg1⟫))) := by
  simp only [RefRun.ops0, List.take_succ_cons, List.take_zero, List.drop_succ_cons, List.drop_zero]
  after_results_simp
  rfl

/-- Before the concatenation the buffer main_v17 holds the network's rows gathered at the wrapped ids. -/
theorem ops0_p49_gb (V : Valuation τ sig (Elt Ideal)) :
    after ((RefRun.ops0 (F := Ideal)).take 49) V ⟪main_v17⟫ = Host.gather Rgd (HF.gffn RR (Host.scatterAdd (F := Ideal) (φ := .f32) RR.sc4 (HF.zerosV RR.bz4) (HF.colV bcast_S1048576_S1048576x1_0 (V ⟪main_arg1⟫)) (evT (V ⟪main_arg0⟫) (V ⟪main_arg2⟫) (V ⟪main_arg3⟫))) (V ⟪main_arg4⟫) (V ⟪main_arg5⟫)) (HF.colV bcast_S1048576_S1048576x1_0 (HF.normV bcast_S_S1048576 (V ⟪main_arg1⟫))) := by
  rw [after_cut2 40 49 (by decide), ops0_segE, ops0_p40_v10, ops0_p40_arg1]

/-- Before the concatenation the buffer main_v3 still holds the latent. -/
theorem ops0_p49_ev (V : Valuation τ sig (Elt Ideal)) :
    after ((RefRun.ops0 (F := Ideal)).take 49) V ⟪main_v3⟫ = evT (V ⟪main_arg0⟫) (V ⟪main_arg2⟫) (V ⟪main_arg3⟫) := by
  simp only [RefRun.ops0, List.take_succ_cons, List.take_zero, List.drop_succ_cons, List.drop_zero]
  after_results_simp
  rfl

/-- The first 49 operations of the stretch do not write the buffer main_arg0. -/
theorem ops0_p49_arg0 (V : Valuation τ sig (Elt Ideal)) :
    after ((RefRun.ops0 (F := Ideal)).take 49) V ⟪main_arg0⟫ = V ⟪main_arg0⟫ := by
  simp only [RefRun.ops0, List.take_succ_cons, List.take_zero, List.drop_succ_cons, List.drop_zero]
  after_results_simp

/-- The first 49 operations of the stretch do not write the buffer main_arg6. -/
theorem ops0_p49_arg6 (V : Valuation τ sig (Elt Ideal)) :
    after ((RefRun.ops0 (F := Ideal)).take 49) V ⟪main_arg6⟫ = V ⟪main_arg6⟫ := by
  simp only [RefRun.ops0, List.take_succ_cons, List.take_zero, List.drop_succ_cons, List.drop_zero]
  after_results_simp

/-- The first 49 operations of the stretch do not write the buffer main_arg7. -/
theorem ops0_p49_arg7 (V : Valuation τ sig (Elt Ideal)) :
    after ((RefRun.ops0 (F := Ideal)).take 49) V ⟪main_arg7⟫ = V ⟪main_arg7⟫ := by
  simp only [RefRun.ops0, List.take_succ_cons, List.take_zero, List.drop_succ_cons, List.drop_zero]
  after_results_simp

/-- From the concatenation on: the buffer main_v23 holds x + (x + lrelu ([ev | gb] · ow1) · ow2) of the buffers the
    concatenation and the products read. -/
theorem ops0_segF (V : Valuation τ sig (Elt Ideal)) :
    after ((RefRun.ops0 (F := Ideal)).drop 49) V ⟪main_v23⟫
      = addf (F := Ideal) (φ := .f32) (V ⟪main_arg0⟫) (addf (F := Ideal) (φ := .f32) (V ⟪main_arg0⟫)
          (Host.dotGeneral (F := Ideal) (φ₁ := .f32) (φ₂ := .f32) dot_S1048576x40_S40x64_S1048576x64_1_0_0_1_n_n none
            (HF.lreluV bcast_S_S1048576x40
              (Host.dotGeneral (F := Ideal) (φ₁ := .f32) (φ₂ := .f32) dot_S1048576x9_S9x40_S1048576x40_1_0_0_1_n_n none
                (concatenate (α := EReal) S1048576x9 1
                  [⟨S1048576x4, V ⟪main_v3⟫⟩, ⟨S1048576x5, V ⟪main_v17⟫⟩]
                  concatenates_S1048576x4_S1048576x5_S1048576x9_d1) (V ⟪main_arg6⟫))) (V ⟪main_arg7⟫))) := by
  simp only [RefRun.ops0, List.take_succ_cons, List.take_zero, List.drop_succ_cons, List.drop_zero]
  after_results_simp
  rfl

/-- After the first round's operations the buffer main_v23 holds the shared round of the argument arrays: the sums scattered by the ids as a column, the read-back a gather at the wrapped ids. -/
theorem ops0_out (V : Valuation τ sig (Elt Ideal)) :
    after (RefRun.ops0 (F := Ideal)) V ⟪main_v23⟫
      = HF.layer RR (HF.colV bcast_S1048576_S1048576x1_0 (V ⟪main_arg1⟫)) (fun g => Host.gather Rgd g (HF.colV bcast_S1048576_S1048576x1_0 (HF.normV bcast_S_S1048576 (V ⟪main_arg1⟫))))
          (V ⟪main_arg0⟫) (V ⟪main_arg2⟫) (V ⟪main_arg3⟫) (V ⟪main_arg4⟫) (V ⟪main_arg5⟫) (V ⟪main_arg6⟫) (V ⟪main_arg7⟫) := by
  rw [after_cut 49, ops0_segF, ops0_p49_ev, ops0_p49_gb, ops0_p49_arg0, ops0_p49_arg6, ops0_p49_arg7]
  exact layer_term (HF.colV bcast_S1048576_S1048576x1_0 (V ⟪main_arg1⟫)) (fun g => Host.gather Rgd g (HF.colV bcast_S1048576_S1048576x1_0 (HF.normV bcast_S_S1048576 (V ⟪main_arg1⟫))))
    (V ⟪main_arg0⟫) (V ⟪main_arg2⟫) (V ⟪main_arg3⟫) (V ⟪main_arg4⟫) (V ⟪main_arg5⟫) (V ⟪main_arg6⟫) (V ⟪main_arg7⟫)

/-- The stretch does not write the argument buffer 0. -/
theorem ops0_arg0 (V : Valuation τ sig (Elt Ideal)) :
    after (RefRun.ops0 (F := Ideal)) V ⟪main_arg0⟫ = V ⟪main_arg0⟫ := by
  simp only [RefRun.ops0]
  after_results_simp

/-- The stretch does not write the argument buffer 1. -/
theorem ops0_arg1 (V : Valuation τ sig (Elt Ideal)) :
    after (RefRun.ops0 (F := Ideal)) V ⟪main_arg1⟫ = V ⟪main_arg1⟫ := by
  simp only [RefRun.ops0]
  after_results_simp

/-- The stretch does not write the argument buffer 2. -/
theorem ops0_arg2 (V : Valuation τ sig (Elt Ideal)) :
    after (RefRun.ops0 (F := Ideal)) V ⟪main_arg2⟫ = V ⟪main_arg2⟫ := by
  simp only [RefRun.ops0]
  after_results_simp

/-- The stretch does not write the argument buffer 3. -/
theorem ops0_arg3 (V : Valuation τ sig (Elt Ideal)) :
    after (RefRun.ops0 (F := Ideal)) V ⟪main_arg3⟫ = V ⟪main_arg3⟫ := by
  simp only [RefRun.ops0]
  after_results_simp

/-- The stretch does not write the argument buffer 4. -/
theorem ops0_arg4 (V : Valuation τ sig (Elt Ideal)) :
    after (RefRun.ops0 (F := Ideal)) V ⟪main_arg4⟫ = V ⟪main_arg4⟫ := by
  simp only [RefRun.ops0]
  after_results_simp

/-- The stretch does not write the argument buffer 5. -/
theorem ops0_arg5 (V : Valuation τ sig (Elt Ideal)) :
    after (RefRun.ops0 (F := Ideal)) V ⟪main_arg5⟫ = V ⟪main_arg5⟫ := by
  simp only [RefRun.ops0]
  after_results_simp

/-- The stretch does not write the argument buffer 6. -/
theorem ops0_arg6 (V : Valuation τ sig (Elt Ideal)) :
    after (RefRun.ops0 (F := Ideal)) V ⟪main_arg6⟫ = V ⟪main_arg6⟫ := by
  simp only [RefRun.ops0]
  after_results_simp

/-- The stretch does not write the argument buffer 7. -/
theorem ops0_arg7 (V : Valuation τ sig (Elt Ideal)) :
    after (RefRun.ops0 (F := Ideal)) V ⟪main_arg7⟫ = V ⟪main_arg7⟫ := by
  simp only [RefRun.ops0]
  after_results_simp

/-- The stretch does not write the argument buffer 8. -/
theorem ops0_arg8 (V : Valuation τ sig (Elt Ideal)) :
    after (RefRun.ops0 (F := Ideal)) V ⟪main_arg8⟫ = V ⟪main_arg8⟫ := by
  simp only [RefRun.ops0]
  after_results_simp

/-- The stretch does not write the argument buffer 9. -/
theorem ops0_arg9 (V : Valuation τ sig (Elt Ideal)) :
    after (RefRun.ops0 (F := Ideal)) V ⟪main_arg9⟫ = V ⟪main_arg9⟫ := by
  simp only [RefRun.ops0]
  after_results_simp

/-- The stretch does not write the argument buffer 10. -/
theorem ops0_arg10 (V : Valuation τ sig (Elt Ideal)) :
    after (RefRun.ops0 (F := Ideal)) V ⟪main_arg10⟫ = V ⟪main_arg10⟫ := by
  simp only [RefRun.ops0]
  after_results_simp

/-- The stretch does not write the argument buffer 11. -/
theorem ops0_arg11 (V : Valuation τ sig (Elt Ideal)) :
    after (RefRun.ops0 (F := Ideal)) V ⟪main_arg11⟫ = V ⟪main_arg11⟫ := by
  simp only [RefRun.ops0]
  after_results_simp

/-- The stretch does not write the argument buffer 12. -/
theorem ops0_arg12 (V : Valuation τ sig (Elt Ideal)) :
    after (RefRun.ops0 (F := Ideal)) V ⟪main_arg12⟫ = V ⟪main_arg12⟫ := by
  simp only [RefRun.ops0]
  after_results_simp

/-- The stretch does not write the argument buffer 13. -/
theorem ops0_arg13 (V : Valuation τ sig (Elt Ideal)) :
    after (RefRun.ops0 (F := Ideal)) V ⟪main_arg13⟫ = V ⟪main_arg13⟫ := by
  simp only [RefRun.ops0]
  after_results_simp

/-- The stretch does not write the argument buffer 14. -/
theorem ops0_arg14 (V : Valuation τ sig (Elt Ideal)) :
    after (RefRun.ops0 (F := Ideal)) V ⟪main_arg14⟫ = V ⟪main_arg14⟫ := by
  simp only [RefRun.ops0]
  after_results_simp

/-- The stretch does not write the argument buffer 15. -/
theorem ops0_arg15 (V : Valuation τ sig (Elt Ideal)) :
    after (RefRun.ops0 (F := Ideal)) V ⟪main_arg15⟫ = V ⟪main_arg15⟫ := by
  simp only [RefRun.ops0]
  after_results_simp

/-! ### The second round: the result buffer main_v47, and the argument buffers -/

/-- The latent: after the round's first eighteen operations the buffer main_v27 holds the latent of the round's input. -/
theorem ops1_p18_ev (V : Valuation τ sig (Elt Ideal)) :
    after ((RefRun.ops1 (F := Ideal)).take 18) V ⟪main_v27⟫ = evT (V ⟪main_v23⟫) (V ⟪main_arg8⟫) (V ⟪main_arg9⟫) := by
  simp only [RefRun.ops1, List.take_succ_cons, List.take_zero, List.drop_succ_cons, List.drop_zero]
  after_results_simp
  rfl

/-- The first 18 operations of the stretch do not write the buffer main_arg1. -/
theorem ops1_p18_arg1 (V : Valuation τ sig (Elt Ideal)) :
    after ((RefRun.ops1 (F := Ideal)).take 18) V ⟪main_arg1⟫ = V ⟪main_arg1⟫ := by
  simp only [RefRun.ops1, List.take_succ_cons, List.take_zero, List.drop_succ_cons, List.drop_zero]
  after_results_simp

/-- The first 18 operations of the stretch do not write the buffer main_arg10. -/
theorem ops1_p18_arg10 (V : Valuation τ sig (Elt Ideal)) :
    after ((RefRun.ops1 (F := Ideal)).take 18) V ⟪main_arg10⟫ = V ⟪main_arg10⟫ := by
  simp only [RefRun.ops1, List.take_succ_cons, List.take_zero, List.drop_succ_cons, List.drop_zero]
  after_results_simp

/-- Operations 19 to 23: zeros, the ids as a column, the scatter-add of the latent, the product with gw1. -/
theorem ops1_segB (V : Valuation τ sig (Elt Ideal)) :
    after (((RefRun.ops1 (F := Ideal)).take 23).drop 18) V ⟪main_v31⟫
      = Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (V ⟪main_v27⟫ : FVec Ideal S1048576x4 .f32)) (V ⟪main_arg10⟫) := by
  simp only [RefRun.ops1, List.take_succ_cons, List.take_zero, List.drop_succ_cons, List.drop_zero]
  after_results_simp
  rfl

/-- The per-graph sums of the latent against gw1. -/
theorem ops1_p23_v7 (V : Valuation τ sig (Elt Ideal)) :
    after ((RefRun.ops1 (F := Ideal)).take 23) V ⟪main_v31⟫ = (Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (evT (V ⟪main_v23⟫) (V ⟪main_arg8⟫) (V ⟪main_arg9⟫))) (V ⟪main_arg10⟫)) := by
  rw [after_cut2 18 23 (by decide), ops1_segB, ops1_p18_ev, ops1_p18_arg1, ops1_p18_arg10]

/-- Operations 24 to 31: the rectifier on the buffer main_v31. -/
theorem ops1_segC (V : Valuation τ sig (Elt Ideal)) :
    after (((RefRun.ops1 (F := Ideal)).take 31).drop 23) V ⟪main_v32⟫ = HF.lreluV (F := Ideal) RR.b40 (V ⟪main_v31⟫ : FVec Ideal S4096x40 .f32) := by
  simp only [RefRun.ops1, List.take_succ_cons, List.take_zero, List.drop_succ_cons, List.drop_zero]
  after_results_simp
  rfl

/-- The rectified product of the per-graph sums with gw1. -/
theorem ops1_p31_v8 (V : Valuation τ sig (Elt Ideal)) :
    after ((RefRun.ops1 (F := Ideal)).take 31) V ⟪main_v32⟫ = (HF.lreluV (F := Ideal) RR.b40 (Host.dotGeneral (F := Ideal) (φ₁ := .f32) (φ₂ := .f32) RR.dg1 none (Host.scatterAdd (F := Ideal) (φ := .f32) RR.sc4 (HF.zerosV RR.bz4) (HF.colV bcast_S1048576_S1048576x1_0 (V ⟪main_arg1⟫)) (evT (V ⟪main_v23⟫) (V ⟪main_arg8⟫) (V ⟪main_arg9⟫))) (V ⟪main_arg10⟫))) := by
  rw [after_cut2 23 31 (by decide), ops1_segC, ops1_p23_v7]

/-- The first 31 operations of the stretch do not write the buffer main_arg11. -/
theorem ops1_p31_arg11 (V : Valuation τ sig (Elt Ideal)) :
    after ((RefRun.ops1 (F := Ideal)).take 31) V ⟪main_arg11⟫ = V ⟪main_arg11⟫ := by
  simp only [RefRun.ops1, List.take_succ_cons, List.take_zero, List.drop_succ_cons, List.drop_zero]
  after_results_simp

/-- Operations 32 to 40: the product with gw2 and the rectifier. -/
theorem ops1_segD (V : Valuation τ sig (Elt Ideal)) :
    after (((RefRun.ops1 (F := Ideal)).take 40).drop 31) V ⟪main_v34⟫
      = HF.lreluV (F := Ideal) RR.b5 (Host.dotGeneral (F := Ideal) (φ₁ := .f32) (φ₂ := .f32) RR.dg2 none (V ⟪main_v32⟫ : FVec Ideal S4096x40 .f32) (V ⟪main_arg11⟫)) := by
  simp only [RefRun.ops1, List.take_succ_cons, List.take_zero, List.drop_succ_cons, List.drop_zero]
  after_results_simp
  rfl

/-- The per-graph network of the latent's per-graph sums. -/
theorem ops1_p40_v10 (V : Valuation τ sig (Elt Ideal)) :
    after ((RefRun.ops1 (F := Ideal)).take 40) V ⟪main_v34⟫ = HF.gffn RR (Host.scatterAdd (F := Ideal) (φ := .f32) RR.sc4 (HF.zerosV RR.bz4) (HF.colV bcast_S1048576_S1048576x1_0 (V ⟪main_arg1⟫)) (evT (V ⟪main_v23⟫) (V ⟪main_arg8⟫) (V ⟪main_arg9⟫))) (V ⟪main_arg10⟫) (V ⟪main_arg11⟫) := by
  rw [after_cut2 31 40 (by decide), ops1_segD, ops1_p31_v8, ops1_p31_arg11]
  rfl

/-- The first 40 operations of the stretch do not write the buffer main_arg1. -/
theorem ops1_p40_arg1 (V : Valuation τ sig (Elt Ideal)) :
    after ((RefRun.ops1 (F := Ideal)).take 40) V ⟪main_arg1⟫ = V ⟪main_arg1⟫ := by
  simp only [RefRun.ops1, List.take_succ_cons, List.take_zero, List.drop_succ_cons, List.drop_zero]
  after_results_simp

/-- Operations 41 to 49: the wrap of negative ids, the ids as a column, the gather of the network's rows. -/
theorem ops1_segE (V : Valuation τ sig (Elt Ideal)) :
    after (((RefRun.ops1 (F := Ideal)).take 49).drop 40) V ⟪main_v41⟫ = Host.gather Rgd (V ⟪main_v34⟫ : FVec Ideal S4096x5 .f32) (HF.colV bcast_S1048576_S1048576x1_0 (HF.normV bcast_S_S1048576 (V ⟪main_arg1⟫))) := by
  simp only [RefRun.ops1, List.take_succ_cons, List.take_zero, List.drop_succ_cons, List.drop_zero]
  after_results_simp
  rfl

/-- Before the concatenation the buffer main_v41 holds the network's rows gathered at the wrapped ids. -/
theorem ops1_p49_gb (V : Valuation τ sig (Elt Ideal)) :
    after ((RefRun.ops1 (F := Ideal)).take 49) V ⟪main_v41⟫ = Host.gather Rgd (HF.gffn RR (Host.scatterAdd (F := Ideal) (φ := .f32) RR.sc4 (HF.zerosV RR.bz4) (HF.colV bcast_S1048576_S1048576x1_0 (V ⟪main_arg1⟫)) (evT (V ⟪main_v23⟫) (V ⟪main_arg8⟫) (V ⟪main_arg9⟫))) (V ⟪main_arg10⟫) (V ⟪main_arg11⟫)) (HF.colV bcast_S1048576_S1048576x1_0 (HF.normV bcast_S_S1048576 (V ⟪main_arg1⟫))) := by
  rw [after_cut2 40 49 (by decide), ops1_segE, ops1_p40_v10, ops1_p40_arg1]

/-- Before the concatenation the buffer main_v27 still holds the latent. -/
theorem ops1_p49_ev (V : Valuation τ sig (Elt Ideal)) :
    after ((RefRun.ops1 (F := Ideal)).take 49) V ⟪main_v27⟫ = evT (V ⟪main_v23⟫) (V ⟪main_arg8⟫) (V ⟪main_arg9⟫) := by
  simp only [RefRun.ops1, List.take_succ_cons, List.take_zero, List.drop_succ_cons, List.drop_zero]
  after_results_simp
  rfl

/-- The first 49 operations of the stretch do not write the buffer main_v23. -/
theorem ops1_p49_v23 (V : Valuation τ sig (Elt Ideal)) :
    after ((RefRun.ops1 (F := Ideal)).take 49) V ⟪main_v23⟫ = V ⟪main_v23⟫ := by
  simp only [RefRun.ops1, List.take_succ_cons, List.take_zero, List.drop_succ_cons, List.drop_zero]
  after_results_simp

/-- The first 49 operations of the stretch do not write the buffer main_arg12. -/
theorem ops1_p49_arg12 (V : Valuation τ sig (Elt Ideal)) :
    after ((RefRun.ops1 (F := Ideal)).take 49) V ⟪main_arg12⟫ = V ⟪main_arg12⟫ := by
  simp only [RefRun.ops1, List.take_succ_cons, List.take_zero, List.drop_succ_cons, List.drop_zero]
  after_results_simp

/-- The first 49 operations of the stretch do not write the buffer main_arg13. -/
theorem ops1_p49_arg13 (V : Valuation τ sig (Elt Ideal)) :
    after ((RefRun.ops1 (F := Ideal)).take 49) V ⟪main_arg13⟫ = V ⟪main_arg13⟫ := by
  simp only [RefRun.ops1, List.take_succ_cons, List.take_zero, List.drop_succ_cons, List.drop_zero]
  after_results_simp

/-- From the concatenation on: the buffer main_v47 holds x + (x + lrelu ([ev | gb] · ow1) · ow2) of the buffers the
    concatenation and the products read. -/
theorem ops1_segF (V : Valuation τ sig (Elt Ideal)) :
    after ((RefRun.ops1 (F := Ideal)).drop 49) V ⟪main_v47⟫
      = addf (F := Ideal) (φ := .f32) (V ⟪main_v23⟫) (addf (F := Ideal) (φ := .f32) (V ⟪main_v23⟫)
          (Host.dotGeneral (F := Ideal) (φ₁ := .f32) (φ₂ := .f32) dot_S1048576x40_S40x64_S1048576x64_1_0_0_1_n_n none
            (HF.lreluV bcast_S_S1048576x40
              (Host.dotGeneral (F := Ideal) (φ₁ := .f32) (φ₂ := .f32) dot_S1048576x9_S9x40_S1048576x40_1_0_0_1_n_n none
                (concatenate (α := EReal) S1048576x9 1
                  [⟨S1048576x4, V ⟪main_v27⟫⟩, ⟨S1048576x5, V ⟪main_v41⟫⟩]
                  concatenates_S1048576x4_S1048576x5_S1048576x9_d1) (V ⟪main_arg12⟫))) (V ⟪main_arg13⟫))) := by
  simp only [RefRun.ops1, List.take_succ_cons, List.take_zero, List.drop_succ_cons, List.drop_zero]
  after_results_simp
  rfl

/-- After the second round's operations the buffer main_v47 holds the shared round of the first round's result, with the second set of weights. -/
theorem ops1_out (V : Valuation τ sig (Elt Ideal)) :
    after (RefRun.ops1 (F := Ideal)) V ⟪main_v47⟫
      = HF.layer RR (HF.colV bcast_S1048576_S1048576x1_0 (V ⟪main_arg1⟫)) (fun g => Host.gather Rgd g (HF.colV bcast_S1048576_S1048576x1_0 (HF.normV bcast_S_S1048576 (V ⟪main_arg1⟫))))
          (V ⟪main_v23⟫) (V ⟪main_arg8⟫) (V ⟪main_arg9⟫) (V ⟪main_arg10⟫) (V ⟪main_arg11⟫) (V ⟪main_arg12⟫) (V ⟪main_arg13⟫) := by
  rw [after_cut 49, ops1_segF, ops1_p49_ev, ops1_p49_gb, ops1_p49_v23, ops1_p49_arg12, ops1_p49_arg13]
  exact layer_term (HF.colV bcast_S1048576_S1048576x1_0 (V ⟪main_arg1⟫)) (fun g => Host.gather Rgd g (HF.colV bcast_S1048576_S1048576x1_0 (HF.normV bcast_S_S1048576 (V ⟪main_arg1⟫))))
    (V ⟪main_v23⟫) (V ⟪main_arg8⟫) (V ⟪main_arg9⟫) (V ⟪main_arg10⟫) (V ⟪main_arg11⟫) (V ⟪main_arg12⟫) (V ⟪main_arg13⟫)

/-- The stretch does not write the argument buffer 0. -/
theorem ops1_arg0 (V : Valuation τ sig (Elt Ideal)) :
    after (RefRun.ops1 (F := Ideal)) V ⟪main_arg0⟫ = V ⟪main_arg0⟫ := by
  simp only [RefRun.ops1]
  after_results_simp

/-- The stretch does not write the argument buffer 1. -/
theorem ops1_arg1 (V : Valuation τ sig (Elt Ideal)) :
    after (RefRun.ops1 (F := Ideal)) V ⟪main_arg1⟫ = V ⟪main_arg1⟫ := by
  simp only [RefRun.ops1]
  after_results_simp

/-- The stretch does not write the argument buffer 2. -/
theorem ops1_arg2 (V : Valuation τ sig (Elt Ideal)) :
    after (RefRun.ops1 (F := Ideal)) V ⟪main_arg2⟫ = V ⟪main_arg2⟫ := by
  simp only [RefRun.ops1]
  after_results_simp

/-- The stretch does not write the argument buffer 3. -/
theorem ops1_arg3 (V : Valuation τ sig (Elt Ideal)) :
    after (RefRun.ops1 (F := Ideal)) V ⟪main_arg3⟫ = V ⟪main_arg3⟫ := by
  simp only [RefRun.ops1]
  after_results_simp

/-- The stretch does not write the argument buffer 4. -/
theorem ops1_arg4 (V : Valuation τ sig (Elt Ideal)) :
    after (RefRun.ops1 (F := Ideal)) V ⟪main_arg4⟫ = V ⟪main_arg4⟫ := by
  simp only [RefRun.ops1]
  after_results_simp

/-- The stretch does not write the argument buffer 5. -/
theorem ops1_arg5 (V : Valuation τ sig (Elt Ideal)) :
    after (RefRun.ops1 (F := Ideal)) V ⟪main_arg5⟫ = V ⟪main_arg5⟫ := by
  simp only [RefRun.ops1]
  after_results_simp

/-- The stretch does not write the argument buffer 6. -/
theorem ops1_arg6 (V : Valuation τ sig (Elt Ideal)) :
    after (RefRun.ops1 (F := Ideal)) V ⟪main_arg6⟫ = V ⟪main_arg6⟫ := by
  simp only [RefRun.ops1]
  after_results_simp

/-- The stretch does not write the argument buffer 7. -/
theorem ops1_arg7 (V : Valuation τ sig (Elt Ideal)) :
    after (RefRun.ops1 (F := Ideal)) V ⟪main_arg7⟫ = V ⟪main_arg7⟫ := by
  simp only [RefRun.ops1]
  after_results_simp

/-- The stretch does not write the argument buffer 8. -/
theorem ops1_arg8 (V : Valuation τ sig (Elt Ideal)) :
    after (RefRun.ops1 (F := Ideal)) V ⟪main_arg8⟫ = V ⟪main_arg8⟫ := by
  simp only [RefRun.ops1]
  after_results_simp

/-- The stretch does not write the argument buffer 9. -/
theorem ops1_arg9 (V : Valuation τ sig (Elt Ideal)) :
    after (RefRun.ops1 (F := Ideal)) V ⟪main_arg9⟫ = V ⟪main_arg9⟫ := by
  simp only [RefRun.ops1]
  after_results_simp

/-- The stretch does not write the argument buffer 10. -/
theorem ops1_arg10 (V : Valuation τ sig (Elt Ideal)) :
    after (RefRun.ops1 (F := Ideal)) V ⟪main_arg10⟫ = V ⟪main_arg10⟫ := by
  simp only [RefRun.ops1]
  after_results_simp

/-- The stretch does not write the argument buffer 11. -/
theorem ops1_arg11 (V : Valuation τ sig (Elt Ideal)) :
    after (RefRun.ops1 (F := Ideal)) V ⟪main_arg11⟫ = V ⟪main_arg11⟫ := by
  simp only [RefRun.ops1]
  after_results_simp

/-- The stretch does not write the argument buffer 12. -/
theorem ops1_arg12 (V : Valuation τ sig (Elt Ideal)) :
    after (RefRun.ops1 (F := Ideal)) V ⟪main_arg12⟫ = V ⟪main_arg12⟫ := by
  simp only [RefRun.ops1]
  after_results_simp

/-- The stretch does not write the argument buffer 13. -/
theorem ops1_arg13 (V : Valuation τ sig (Elt Ideal)) :
    after (RefRun.ops1 (F := Ideal)) V ⟪main_arg13⟫ = V ⟪main_arg13⟫ := by
  simp only [RefRun.ops1]
  after_results_simp

/-- The stretch does not write the argument buffer 14. -/
theorem ops1_arg14 (V : Valuation τ sig (Elt Ideal)) :
    after (RefRun.ops1 (F := Ideal)) V ⟪main_arg14⟫ = V ⟪main_arg14⟫ := by
  simp only [RefRun.ops1]
  after_results_simp

/-- The stretch does not write the argument buffer 15. -/
theorem ops1_arg15 (V : Valuation τ sig (Elt Ideal)) :
    after (RefRun.ops1 (F := Ideal)) V ⟪main_arg15⟫ = V ⟪main_arg15⟫ := by
  simp only [RefRun.ops1]
  after_results_simp

/-! ### The tail: the result buffer main_v53, and the argument buffers -/

/-- The tail's first five operations: zeros, the ids as a column, the scatter-add of the node features, the product
    with the last network's first matrix. -/
theorem ops2_p5_v51 (V : Valuation τ sig (Elt Ideal)) :
    after ((RefRun.ops2 (F := Ideal)).take 5) V ⟪main_v51⟫ = Host.dotGeneral (F := Ideal) (φ₁ := .f32) (φ₂ := .f32) RR.dd1 none (Host.scatterAdd (F := Ideal) (φ := .f32) RR.sc64 (HF.zerosV RR.bz64) (HF.colV bcast_S1048576_S1048576x1_0 (V ⟪main_arg1⟫)) (V ⟪main_v47⟫)) (V ⟪main_arg14⟫) := by
  simp only [RefRun.ops2, List.take_succ_cons, List.take_zero, List.drop_succ_cons, List.drop_zero]
  after_results_simp
  rfl

/-- The first 5 operations of the stretch do not write the buffer main_arg15. -/
theorem ops2_p5_arg15 (V : Valuation τ sig (Elt Ideal)) :
    after ((RefRun.ops2 (F := Ideal)).take 5) V ⟪main_arg15⟫ = V ⟪main_arg15⟫ := by
  simp only [RefRun.ops2, List.take_succ_cons, List.take_zero, List.drop_succ_cons, List.drop_zero]
  after_results_simp

/-- The tail's last nine operations: the rectifier on the buffer main_v51 and the product with the last matrix. -/
theorem ops2_segB (V : Valuation τ sig (Elt Ideal)) :
    after ((RefRun.ops2 (F := Ideal)).drop 5) V ⟪main_v53⟫
      = Host.dotGeneral (F := Ideal) (φ₁ := .f32) (φ₂ := .f32) RR.dd2 none (HF.lreluV (F := Ideal) RR.b40 (V ⟪main_v51⟫ : FVec Ideal S4096x40 .f32)) (V ⟪main_arg15⟫) := by
  simp only [RefRun.ops2, List.take_succ_cons, List.take_zero, List.drop_succ_cons, List.drop_zero]
  after_results_simp
  rfl

/-- After the tail's operations the buffer main_v53 holds the last network of the per-graph sums of the second
    round's result. -/
theorem ops2_out (V : Valuation τ sig (Elt Ideal)) :
    after (RefRun.ops2 (F := Ideal)) V ⟪main_v53⟫
      = HF.dffn RR (Host.scatterAdd (F := Ideal) (φ := .f32) RR.sc64 (HF.zerosV RR.bz64) (HF.colV bcast_S1048576_S1048576x1_0 (V ⟪main_arg1⟫)) (V ⟪main_v47⟫)) (V ⟪main_arg14⟫) (V ⟪main_arg15⟫) := by
  rw [after_cut 5, ops2_segB, ops2_p5_v51, ops2_p5_arg15]
  rfl

/-- The stretch does not write the argument buffer 0. -/
theorem ops2_arg0 (V : Valuation τ sig (Elt Ideal)) :
    after (RefRun.ops2 (F := Ideal)) V ⟪main_arg0⟫ = V ⟪main_arg0⟫ := by
  simp only [RefRun.ops2]
  after_results_simp

/-- The stretch does not write the argument buffer 1. -/
theorem ops2_arg1 (V : Valuation τ sig (Elt Ideal)) :
    after (RefRun.ops2 (F := Ideal)) V ⟪main_arg1⟫ = V ⟪main_arg1⟫ := by
  simp only [RefRun.ops2]
  after_results_simp

/-- The stretch does not write the argument buffer 2. -/
theorem ops2_arg2 (V : Valuation τ sig (Elt Ideal)) :
    after (RefRun.ops2 (F := Ideal)) V ⟪main_arg2⟫ = V ⟪main_arg2⟫ := by
  simp only [RefRun.ops2]
  after_results_simp

/-- The stretch does not write the argument buffer 3. -/
theorem ops2_arg3 (V : Valuation τ sig (Elt Ideal)) :
    after (RefRun.ops2 (F := Ideal)) V ⟪main_arg3⟫ = V ⟪main_arg3⟫ := by
  simp only [RefRun.ops2]
  after_results_simp

/-- The stretch does not write the argument buffer 4. -/
theorem ops2_arg4 (V : Valuation τ sig (Elt Ideal)) :
    after (RefRun.ops2 (F := Ideal)) V ⟪main_arg4⟫ = V ⟪main_arg4⟫ := by
  simp only [RefRun.ops2]
  after_results_simp

/-- The stretch does not write the argument buffer 5. -/
theorem ops2_arg5 (V : Valuation τ sig (Elt Ideal)) :
    after (RefRun.ops2 (F := Ideal)) V ⟪main_arg5⟫ = V ⟪main_arg5⟫ := by
  simp only [RefRun.ops2]
  after_results_simp

/-- The stretch does not write the argument buffer 6. -/
theorem ops2_arg6 (V : Valuation τ sig (Elt Ideal)) :
    after (RefRun.ops2 (F := Ideal)) V ⟪main_arg6⟫ = V ⟪main_arg6⟫ := by
  simp only [RefRun.ops2]
  after_results_simp

/-- The stretch does not write the argument buffer 7. -/
theorem ops2_arg7 (V : Valuation τ sig (Elt Ideal)) :
    after (RefRun.ops2 (F := Ideal)) V ⟪main_arg7⟫ = V ⟪main_arg7⟫ := by
  simp only [RefRun.ops2]
  after_results_simp

/-- The stretch does not write the argument buffer 8. -/
theorem ops2_arg8 (V : Valuation τ sig (Elt Ideal)) :
    after (RefRun.ops2 (F := Ideal)) V ⟪main_arg8⟫ = V ⟪main_arg8⟫ := by
  simp only [RefRun.ops2]
  after_results_simp

/-- The stretch does not write the argument buffer 9. -/
theorem ops2_arg9 (V : Valuation τ sig (Elt Ideal)) :
    after (RefRun.ops2 (F := Ideal)) V ⟪main_arg9⟫ = V ⟪main_arg9⟫ := by
  simp only [RefRun.ops2]
  after_results_simp

/-- The stretch does not write the argument buffer 10. -/
theorem ops2_arg10 (V : Valuation τ sig (Elt Ideal)) :
    after (RefRun.ops2 (F := Ideal)) V ⟪main_arg10⟫ = V ⟪main_arg10⟫ := by
  simp only [RefRun.ops2]
  after_results_simp

/-- The stretch does not write the argument buffer 11. -/
theorem ops2_arg11 (V : Valuation τ sig (Elt Ideal)) :
    after (RefRun.ops2 (F := Ideal)) V ⟪main_arg11⟫ = V ⟪main_arg11⟫ := by
  simp only [RefRun.ops2]
  after_results_simp

/-- The stretch does not write the argument buffer 12. -/
theorem ops2_arg12 (V : Valuation τ sig (Elt Ideal)) :
    after (RefRun.ops2 (F := Ideal)) V ⟪main_arg12⟫ = V ⟪main_arg12⟫ := by
  simp only [RefRun.ops2]
  after_results_simp

/-- The stretch does not write the argument buffer 13. -/
theorem ops2_arg13 (V : Valuation τ sig (Elt Ideal)) :
    after (RefRun.ops2 (F := Ideal)) V ⟪main_arg13⟫ = V ⟪main_arg13⟫ := by
  simp only [RefRun.ops2]
  after_results_simp

/-- The stretch does not write the argument buffer 14. -/
theorem ops2_arg14 (V : Valuation τ sig (Elt Ideal)) :
    after (RefRun.ops2 (F := Ideal)) V ⟪main_arg14⟫ = V ⟪main_arg14⟫ := by
  simp only [RefRun.ops2]
  after_results_simp

/-- The stretch does not write the argument buffer 15. -/
theorem ops2_arg15 (V : Valuation τ sig (Elt Ideal)) :
    after (RefRun.ops2 (F := Ideal)) V ⟪main_arg15⟫ = V ⟪main_arg15⟫ := by
  simp only [RefRun.ops2]
  after_results_simp

/-! ### The whole line -/

/-- The reference's result: after the whole line the result buffer holds the shared term of the argument arrays,
    the sums scattered by the ids as a column and the read-back a gather at the wrapped ids. -/
theorem ref_value (V : Valuation τ sig (Elt Ideal)) :
    after (RefRun.ops (F := Ideal)) V ⟪main_v53⟫
      = HF.out RR (HF.colV bcast_S1048576_S1048576x1_0 (V ⟪main_arg1⟫)) (fun g => Host.gather Rgd g (HF.colV bcast_S1048576_S1048576x1_0 (HF.normV bcast_S_S1048576 (V ⟪main_arg1⟫))))
          (V ⟪main_arg0⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) (V ⟪main_arg14⟫) (V ⟪main_arg15⟫) := by
  rw [RefRun.after_ops, ops2_out, ops1_out, ops1_arg1, ops1_arg14, ops1_arg15, ops0_out, ops0_arg1,
    ops0_arg8, ops0_arg9, ops0_arg10, ops0_arg11, ops0_arg12, ops0_arg13, ops0_arg14, ops0_arg15]
  rfl

/-- The argument buffer 0 is written by no operation. -/
theorem ref_arg0 (V : Valuation τ sig (Elt Ideal)) :
    after (RefRun.ops (F := Ideal)) V ⟪main_arg0⟫ = V ⟪main_arg0⟫ := by
  rw [RefRun.after_ops, ops2_arg0, ops1_arg0, ops0_arg0]

/-- The argument buffer 1 is written by no operation. -/
theorem ref_arg1 (V : Valuation τ sig (Elt Ideal)) :
    after (RefRun.ops (F := Ideal)) V ⟪main_arg1⟫ = V ⟪main_arg1⟫ := by
  rw [RefRun.after_ops, ops2_arg1, ops1_arg1, ops0_arg1]

/-- The argument buffer 2 is written by no operation. -/
theorem ref_arg2 (V : Valuation τ sig (Elt Ideal)) :
    after (RefRun.ops (F := Ideal)) V ⟪main_arg2⟫ = V ⟪main_arg2⟫ := by
  rw [RefRun.after_ops, ops2_arg2, ops1_arg2, ops0_arg2]

/-- The argument buffer 3 is written by no operation. -/
theorem ref_arg3 (V : Valuation τ sig (Elt Ideal)) :
    after (RefRun.ops (F := Ideal)) V ⟪main_arg3⟫ = V ⟪main_arg3⟫ := by
  rw [RefRun.after_ops, ops2_arg3, ops1_arg3, ops0_arg3]

/-- The argument buffer 4 is written by no operation. -/
theorem ref_arg4 (V : Valuation τ sig (Elt Ideal)) :
    after (RefRun.ops (F := Ideal)) V ⟪main_arg4⟫ = V ⟪main_arg4⟫ := by
  rw [RefRun.after_ops, ops2_arg4, ops1_arg4, ops0_arg4]

/-- The argument buffer 5 is written by no operation. -/
theorem ref_arg5 (V : Valuation τ sig (Elt Ideal)) :
    after (RefRun.ops (F := Ideal)) V ⟪main_arg5⟫ = V ⟪main_arg5⟫ := by
  rw [RefRun.after_ops, ops2_arg5, ops1_arg5, ops0_arg5]

/-- The argument buffer 6 is written by no operation. -/
theorem ref_arg6 (V : Valuation τ sig (Elt Ideal)) :
    after (RefRun.ops (F := Ideal)) V ⟪main_arg6⟫ = V ⟪main_arg6⟫ := by
  rw [RefRun.after_ops, ops2_arg6, ops1_arg6, ops0_arg6]

/-- The argument buffer 7 is written by no operation. -/
theorem ref_arg7 (V : Valuation τ sig (Elt Ideal)) :
    after (RefRun.ops (F := Ideal)) V ⟪main_arg7⟫ = V ⟪main_arg7⟫ := by
  rw [RefRun.after_ops, ops2_arg7, ops1_arg7, ops0_arg7]

/-- The argument buffer 8 is written by no operation. -/
theorem ref_arg8 (V : Valuation τ sig (Elt Ideal)) :
    after (RefRun.ops (F := Ideal)) V ⟪main_arg8⟫ = V ⟪main_arg8⟫ := by
  rw [RefRun.after_ops, ops2_arg8, ops1_arg8, ops0_arg8]

/-- The argument buffer 9 is written by no operation. -/
theorem ref_arg9 (V : Valuation τ sig (Elt Ideal)) :
    after (RefRun.ops (F := Ideal)) V ⟪main_arg9⟫ = V ⟪main_arg9⟫ := by
  rw [RefRun.after_ops, ops2_arg9, ops1_arg9, ops0_arg9]

/-- The argument buffer 10 is written by no operation. -/
theorem ref_arg10 (V : Valuation τ sig (Elt Ideal)) :
    after (RefRun.ops (F := Ideal)) V ⟪main_arg10⟫ = V ⟪main_arg10⟫ := by
  rw [RefRun.after_ops, ops2_arg10, ops1_arg10, ops0_arg10]

/-- The argument buffer 11 is written by no operation. -/
theorem ref_arg11 (V : Valuation τ sig (Elt Ideal)) :
    after (RefRun.ops (F := Ideal)) V ⟪main_arg11⟫ = V ⟪main_arg11⟫ := by
  rw [RefRun.after_ops, ops2_arg11, ops1_arg11, ops0_arg11]

/-- The argument buffer 12 is written by no operation. -/
theorem ref_arg12 (V : Valuation τ sig (Elt Ideal)) :
    after (RefRun.ops (F := Ideal)) V ⟪main_arg12⟫ = V ⟪main_arg12⟫ := by
  rw [RefRun.after_ops, ops2_arg12, ops1_arg12, ops0_arg12]

/-- The argument buffer 13 is written by no operation. -/
theorem ref_arg13 (V : Valuation τ sig (Elt Ideal)) :
    after (RefRun.ops (F := Ideal)) V ⟪main_arg13⟫ = V ⟪main_arg13⟫ := by
  rw [RefRun.after_ops, ops2_arg13, ops1_arg13, ops0_arg13]

/-- The argument buffer 14 is written by no operation. -/
theorem ref_arg14 (V : Valuation τ sig (Elt Ideal)) :
    after (RefRun.ops (F := Ideal)) V ⟪main_arg14⟫ = V ⟪main_arg14⟫ := by
  rw [RefRun.after_ops, ops2_arg14, ops1_arg14, ops0_arg14]

/-- The argument buffer 15 is written by no operation. -/
theorem ref_arg15 (V : Valuation τ sig (Elt Ideal)) :
    after (RefRun.ops (F := Ideal)) V ⟪main_arg15⟫ = V ⟪main_arg15⟫ := by
  rw [RefRun.after_ops, ops2_arg15, ops1_arg15, ops0_arg15]

end Run

end Cert.ReferenceIdeal.RefValue

end
-- ==== Proof.LibClampIndex.lean ====
/-
  Scalar facts about the index arithmetic of a trilinear sampler, at the ideal
  (extended-real) reading of the float operations: a clipped and floored coordinate
  is an integer in [0, B]; its upper neighbour, capped at B, is too; a flat index
  z·(H·W) + y·W + x computed in 32-bit words does not wrap when D·H·W ≤ 2^31; the
  negative-index normalisation and the in-range test are then trivial.
-/
import Idealize.ShloMosaic.PureOps.Ideal

namespace Cert.Lib.ClampIndex

open Idealize.ShloMosaic

/-- A signed 32-bit word lies in [-2^31, 2^31). -/
theorem toInt_bounds (v : BitVec 32) : -2147483648 ≤ v.toInt ∧ v.toInt < 2147483648 := by
  have h1 := BitVec.le_toInt v
  have h2 := @BitVec.toInt_lt 32 v
  norm_num at h1 h2
  exact ⟨h1, h2⟩

/-- An integer in [-2^31, 2^31) is its own balanced residue modulo 2^32. -/
theorem bmod_self (v : ℤ) (h0 : -2147483648 ≤ v) (h1 : v < 2147483648) : v.bmod (2 ^ 32) = v := by
  apply Int.bmod_eq_of_le <;> norm_num <;> omega

/-- The word sum of two signed words whose integer sum fits in 32 bits is that integer sum. -/
theorem toInt_add_of_fits (a c : BitVec 32) (h0 : -2147483648 ≤ a.toInt + c.toInt)
    (h1 : a.toInt + c.toInt < 2147483648) : (a + c).toInt = a.toInt + c.toInt := by
  rw [BitVec.toInt_add]; exact bmod_self _ h0 h1

/-- The word product of two signed words whose integer product fits in 32 bits is that integer product. -/
theorem toInt_mul_of_fits (a c : BitVec 32) (h0 : -2147483648 ≤ a.toInt * c.toInt)
    (h1 : a.toInt * c.toInt < 2147483648) : (a * c).toInt = a.toInt * c.toInt := by
  rw [BitVec.toInt_mul]; exact bmod_self _ h0 h1

/-- The neighbour index min(i + 1, B) of an index 0 ≤ i ≤ B stays in [0, B]. -/
theorem next_range (i b : BitVec 32) (hi0 : 0 ≤ i.toInt) (hib : i.toInt ≤ b.toInt) (hb : b.toInt < 2^31 - 1) :
    0 ≤ (IntOp.minsi (IntOp.addi i 1#32) b).toInt ∧ (IntOp.minsi (IntOp.addi i 1#32) b).toInt ≤ b.toInt := by
  have h1 : (1#32 : BitVec 32).toInt = 1 := by decide
  have hadd : (i + 1#32).toInt = i.toInt + 1 := by
    have := toInt_add_of_fits i 1#32 (by rw [h1]; omega) (by rw [h1]; omega)
    rw [this, h1]
  have hs : (i + 1#32).slt b = decide (i.toInt + 1 < b.toInt) := by rw [BitVec.slt_eq_decide, hadd]
  unfold IntOp.minsi IntOp.addi
  rw [hs]
  by_cases h : i.toInt + 1 < b.toInt
  · rw [decide_eq_true h, if_pos rfl, hadd]; omega
  · rw [decide_eq_false h, if_neg (by decide)]; omega

/-- Over the integers: for 0 ≤ z < D, 0 ≤ y < H, 0 ≤ x < W, the row offset y·W + x is below H·W and
    the plane offset z·(H·W) leaves room for a whole plane below D·H·W. -/
theorem flat_int_bounds (z y x : ℤ) (D H W : ℕ) (hz0 : 0 ≤ z) (hz : z < D) (hy0 : 0 ≤ y) (hy : y < H)
    (hx0 : 0 ≤ x) (hx : x < W) :
    0 ≤ y * W ∧ y * W + x < (H : ℤ) * W ∧ 0 ≤ z * ((H : ℤ) * W) ∧ z * ((H : ℤ) * W) + (H : ℤ) * W ≤ (D : ℤ) * H * W := by
  have hW0 : (0 : ℤ) ≤ W := Int.natCast_nonneg W
  have hHW0 : (0 : ℤ) ≤ (H : ℤ) * W := Int.mul_nonneg (Int.natCast_nonneg H) hW0
  have hyW : y * W + x < (H : ℤ) * W := by
    have : (y + 1) * W ≤ (H : ℤ) * W := Int.mul_le_mul_of_nonneg_right (by omega) hW0
    rw [Int.add_mul, Int.one_mul] at this
    omega
  have hzHW : z * ((H : ℤ) * W) + (H : ℤ) * W ≤ (D : ℤ) * H * W := by
    have : (z + 1) * ((H : ℤ) * W) ≤ (D : ℤ) * ((H : ℤ) * W) :=
      Int.mul_le_mul_of_nonneg_right (by omega) hHW0
    rw [Int.add_mul, Int.one_mul] at this
    have e : (D : ℤ) * H * W = (D : ℤ) * ((H : ℤ) * W) := Int.mul_assoc _ _ _
    rw [e]; exact this
  exact ⟨Int.mul_nonneg hy0 hW0, hyW, Int.mul_nonneg hz0 hHW0, hzHW⟩

/-- The flat index z·(H·W) + y·W + x of a point of a D × H × W grid, computed in 32-bit words, does not
    wrap when D·H·W ≤ 2^31: it is the same expression over the integers. -/
theorem flat_toInt (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    (IntOp.addi (IntOp.addi (IntOp.muli z hw) (IntOp.muli y wc)) x).toInt
      = z.toInt * (H * W) + y.toInt * W + x.toInt := by
  -- every partial value lies in [0, D·H·W), hence in the signed 32-bit range
  obtain ⟨hyW0, hyW, hzHW0, hzHW⟩ := flat_int_bounds z.toInt y.toInt x.toInt D H W hz0 hz hy0 hy hx0 hx
  have hD' : (D : ℤ) * H * W ≤ 2147483648 := by norm_num at hD; exact hD
  unfold IntOp.addi IntOp.muli
  have hm1 : (z * hw).toInt = z.toInt * ((H : ℤ) * W) := by
    rw [toInt_mul_of_fits z hw (by rw [hhw]; omega) (by rw [hhw]; omega), hhw]
  have hm2 : (y * wc).toInt = y.toInt * W := by
    rw [toInt_mul_of_fits y wc (by rw [hwc]; omega) (by rw [hwc]; omega), hwc]
  have ha1 : (z * hw + y * wc).toInt = z.toInt * ((H : ℤ) * W) + y.toInt * W := by
    rw [toInt_add_of_fits _ _ (by rw [hm1, hm2]; omega) (by rw [hm1, hm2]; omega), hm1, hm2]
  rw [toInt_add_of_fits _ _ (by rw [ha1]; omega) (by rw [ha1]; omega), ha1]

/-- The flat index of a point of a D × H × W grid lies in [0, D·H·W). -/
theorem flat_range (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    0 ≤ (IntOp.addi (IntOp.addi (IntOp.muli z hw) (IntOp.muli y wc)) x).toInt
      ∧ (IntOp.addi (IntOp.addi (IntOp.muli z hw) (IntOp.muli y wc)) x).toInt < D * H * W := by
  rw [flat_toInt z y x hw wc D H W hhw hwc hD hz0 hz hy0 hy hx0 hx]
  obtain ⟨hyW0, hyW, hzHW0, hzHW⟩ := flat_int_bounds z.toInt y.toInt x.toInt D H W hz0 hz hy0 hy hx0 hx
  constructor <;> omega

/-- jnp's negative-index normalisation (add n when i < 0) is the identity on a non-negative index. -/
theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

/-- The in-range test 0 ≤ i ∧ i ≤ mx answers true on an index in [0, mx]. -/
theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

/-- A non-negative signed word, read as a natural number and back as an integer, is itself. -/
theorem toNat_of_range (i : BitVec 32) (hi0 : 0 ≤ i.toInt) : (i.toInt.toNat : ℤ) = i.toInt :=
  Int.toNat_of_nonneg hi0

/-- Capping a natural index below M at M − 1 leaves it unchanged. -/
theorem min_toNat_of_lt (i : BitVec 32) (M : ℕ) (hi0 : 0 ≤ i.toInt) (hi : i.toInt < M) :
    min i.toInt.toNat (M - 1) = i.toInt.toNat := by
  have := toNat_of_range i hi0
  omega

/-- The natural-number reading of a signed word in [0, M) is below M. -/
theorem toNat_lt_of_range (i : BitVec 32) (M : ℕ) (hi0 : 0 ≤ i.toInt) (hi : i.toInt < M) :
    i.toInt.toNat < M := by
  have := toNat_of_range i hi0
  omega

/-- An extended real between 0 and a real B is itself a real, in [0, B]. -/
theorem exists_real_of_mem (c : EReal) (B : ℝ) (h0 : 0 ≤ c) (hB : c ≤ (B : EReal)) :
    ∃ r : ℝ, c = (r : EReal) ∧ 0 ≤ r ∧ r ≤ B := by
  induction c using EReal.rec with
  | bot => exact absurd h0 (not_le.mpr EReal.bot_lt_zero)
  | top => exact absurd hB (not_le.mpr (EReal.coe_lt_top B))
  | coe r => exact ⟨r, rfl, EReal.coe_nonneg.mp h0, EReal.coe_le_coe_iff.mp hB⟩

/-- Clipping any extended real x to [0, B] (B ≥ 0 a signed word read as a real) gives a real in [0, B],
    whatever x is: an infinity is clipped to an end of the interval. -/
theorem clamp_real (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ) := by
  have hz : FloatOps.ofBits (F := Ideal) .f32 0x00000000#32 = (0 : EReal) := by
    simp [Ideal.ofBits, Ideal.ieee]
  apply exists_real_of_mem
  · show (0 : EReal) ≤ min (((b.toInt : ℝ)) : EReal) (max (FloatOps.ofBits (F := Ideal) .f32 0x00000000#32) x)
    rw [hz]
    exact le_min (EReal.coe_nonneg.mpr (by exact_mod_cast hb)) (le_max_left _ _)
  · exact min_le_left _ _

/-- Flooring a real r in [0, B], with B below 2^31, and converting to a signed 32-bit word gives the word
    whose signed value is ⌊r⌋: neither the conversion's clamp nor the word's wrap-around intervenes. -/
theorem fptosi_floor_coe (r : ℝ) (B : ℤ) (h0 : 0 ≤ r) (hB : r ≤ (B : ℝ)) (hB31 : B < 2147483648) :
    (Ideal.fptosi 32 (Ideal.liftRound Int.floor (r : EReal))).toInt = ⌊r⌋ := by
  have hf0 : 0 ≤ ⌊r⌋ := Int.floor_nonneg.mpr h0
  have hfB : ⌊r⌋ ≤ B := by
    have : ⌊r⌋ ≤ ⌊(B : ℝ)⌋ := Int.floor_le_floor hB
    rwa [Int.floor_intCast] at this
  have hnn : (0 : ℝ) ≤ ((⌊r⌋ : ℤ) : ℝ) := by exact_mod_cast hf0
  rw [Ideal.liftRound_coe, Ideal.fptosi, Ideal.toIntClamped_coe, if_pos hnn, Int.floor_intCast]
  have hmin : min ((((2 ^ (32 - 1) : ℕ)) : ℤ) - 1) ⌊r⌋ = ⌊r⌋ := min_eq_right (by norm_num; omega)
  have hmax : max (-(((2 ^ (32 - 1) : ℕ)) : ℤ)) ⌊r⌋ = ⌊r⌋ := max_eq_right (by norm_num; omega)
  rw [hmin, hmax, BitVec.toInt_ofInt]
  exact bmod_self _ (by omega) (by omega)

/-- The clipped, floored and converted coordinate equals the floor of the clipped real: there is a real
    r in [0, B] that the clip produces and the resulting signed word is ⌊r⌋. -/
theorem clampFloor_eq (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ)
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt = ⌊r⌋ := by
  obtain ⟨r, hr, hr0, hrB⟩ := clamp_real b hb x
  refine ⟨r, hr, hr0, hrB, ?_⟩
  rw [hr]
  exact fptosi_floor_coe r b.toInt hr0 hrB (toInt_bounds b).2

/-- A coordinate clipped to [0, B], floored and converted to a signed 32-bit word is an index in [0, B]. -/
theorem clampFloor_range (b : BitVec 32) (hb : 0 ≤ b.toInt) (x : Ideal .f32) :
    0 ≤ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt ≤ b.toInt := by
  obtain ⟨r, _, hr0, hrB, hi⟩ := clampFloor_eq b hb x
  rw [hi]
  refine ⟨Int.floor_nonneg.mpr hr0, ?_⟩
  have : ⌊r⌋ ≤ ⌊(b.toInt : ℝ)⌋ := Int.floor_le_floor hrB
  rwa [Int.floor_intCast] at this

end Cert.Lib.ClampIndex
-- ==== Proof.IndexRange.lean ====
/-
  The graph ids in range: the two integer index chains and the masked read-back, for ids in [0, 4096).

  For ids a with 0 ≤ a i < 4096 the clip into [0, 4095] and the wrap of negative ids both leave a unchanged, the
  in-range test of the read-back answers true at every row, and the masked read-back is the plain gather at the
  column of ids.
-/
import Idealize.ShloMosaic.PureOps.Ideal
import Idealize.ShloMosaic.PureOps.Reduce
import Idealize.ShloMosaic.Lib.ValueIdx
import proofs.«424516_j14181982011740_3_alg».proof.Proof.Spec
import proofs.«424516_j14181982011740_3_alg».proof.Proof.HostFns
import proofs.«424516_j14181982011740_3_alg».proof.Proof.LibClampIndex

namespace Cert.HF

open Idealize.ShloMosaic
open Idealize.ShloMosaic.ValueIdx

/-! ## Words -/

theorem toInt_zero32 : (0#32 : BitVec 32).toInt = 0 := by decide
theorem toInt_4095 : (4095#32 : BitVec 32).toInt = 4095 := by decide

/-- The larger of 0 and a non-negative word is the word. -/
theorem maxsi_zero (x : BitVec 32) (h0 : 0 ≤ x.toInt) : IntOp.maxsi 0#32 x = x := by
  unfold IntOp.maxsi
  rw [BitVec.slt_eq_decide, toInt_zero32, decide_eq_false (by omega), if_neg (by decide)]

/-- The smaller of 4095 and a word below 4096 is the word. -/
theorem minsi_4095 (x : BitVec 32) (h1 : x.toInt < 4096) : IntOp.minsi 4095#32 x = x := by
  unfold IntOp.minsi
  rw [BitVec.slt_eq_decide, toInt_4095, decide_eq_false (by omega), if_neg (by decide)]

/-! ## The two index chains -/

/-- The clip into [0, 4095] leaves ids in [0, 4096) unchanged. -/
theorem clipV_eq (hb : S0.BroadcastsInDim (V1 1048576) (![] : Fin 0 → Fin (V1 1048576).rank)) (a : IVec (V1 1048576) 32)
    (h : ∀ i, 0 ≤ (a i).toInt ∧ (a i).toInt < 4096) : clipV hb a = a := by
  funext i
  show IntOp.minsi 4095#32 (IntOp.maxsi 0#32 (a i)) = a i
  rw [maxsi_zero (a i) (h i).1, minsi_4095 (a i) (h i).2]

/-- The wrap of negative ids leaves non-negative ids unchanged. -/
theorem normV_eq (hb : S0.BroadcastsInDim (V1 1048576) (![] : Fin 0 → Fin (V1 1048576).rank)) (a : IVec (V1 1048576) 32)
    (h0 : ∀ i, 0 ≤ (a i).toInt) : normV hb a = a := by
  funext i
  exact Cert.Lib.ClampIndex.norm_id (a i) 4096#32 (h0 i)

/-! ## The in-range mask -/

/-- A left fold by and over one-bit words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n, show IntOp.andi 1#1 1#1 = 1#1 from by decide]
    exact foldl_andi_one f hf l

/-- A reduction by and of an array of 1s, from 1, is 1 at every result index. -/
theorem reduce_andi_one {s t u : Shape} {axes : List (Fin s.rank)} (x : s.Idx → BitVec 1) (init : u.Idx → BitVec 1)
    (hr : s.ReducesTo axes t) (hu : 0 < u.numel) (hx : ∀ i, x i = 1#1) (hi : init (Shape.Idx.first hu) = 1#1)
    (j : t.Idx) : Host.reduce IntOp.andi x init hr hu j = 1#1 := by
  rw [Host.reduce_eq_foldl, hi]
  exact foldl_andi_one x hx _

/-- Every entry of the column of ids is one of the ids. -/
theorem colV_mem (hb : (V1 1048576).BroadcastsInDim (M2 1048576 1) (![0] : Fin 1 → Fin (M2 1048576 1).rank))
    (a : IVec (V1 1048576) 32) (i : (M2 1048576 1).Idx) : ∃ r, colV hb a i = a r := ⟨_, rfl⟩

/-! ## The masked read-back -/

/-- For ids in [0, 4096) the masked read-back is the gather at the column of ids: the wrap does nothing, the test
    0 ≤ id ≤ 4095 answers 1 at every row, so the mask is 1 everywhere and the select keeps the gathered row. -/
theorem takeV_eq {F : FTy → Type} [FloatOps F] (T : TakeFacts) (gd : GatherDims (M2 4096 5) (M2 1048576 1) (M2 1048576 5))
    (g : FVec F (M2 4096 5) .f32) (a : IVec (V1 1048576) 32) (h : ∀ i, 0 ≤ (a i).toInt ∧ (a i).toInt < 4096) :
    takeV T gd g a = Host.gather gd g (colV T.hbc a) := by
  unfold takeV
  rw [normV_eq T.hb a (fun i => (h i).1)]
  funext j
  rw [select_apply]
  have hmask : ∀ i : (M2 1048576 1).Idx,
      andi (cmpi .sge (colV T.hbc a) (broadcastInDim (M2 1048576 1) ![] T.hb01 (constantI S0 32 0#32)))
        (cmpi .sle (colV T.hbc a)
          (broadcastInDim (M2 1048576 1) ![0, 1] T.hb1n (broadcastInDim (M2 1 1) ![1] T.hb11 (constantI (V1 1) 32 4095#32)))) i
        = 1#1 := by
    intro i
    obtain ⟨r, hr⟩ := colV_mem T.hbc a i
    show IntOp.andi (IntOp.cmpi .sge (colV T.hbc a i) 0#32) (IntOp.cmpi .sle (colV T.hbc a i) 4095#32) = 1#1
    rw [hr]
    exact Cert.Lib.ClampIndex.inrange_true (a r) 4095#32 (h r).1 (by rw [toInt_4095]; have := (h r).2; omega)
  have hred := reduce_andi_one _ (constantI S0 1 1#1) T.hred T.hS0 hmask rfl
  have hc : (broadcastInDim (M2 1048576 5) ![0] T.hbm
      (Host.reduce IntOp.andi
        (andi (cmpi .sge (colV T.hbc a) (broadcastInDim (M2 1048576 1) ![] T.hb01 (constantI S0 32 0#32)))
          (cmpi .sle (colV T.hbc a)
            (broadcastInDim (M2 1048576 1) ![0, 1] T.hb1n (broadcastInDim (M2 1 1) ![1] T.hb11 (constantI (V1 1) 32 4095#32)))))
        (constantI S0 1 1#1) T.hred T.hS0)) j = 1#1 := hred _
  rw [hc, select_one]

end Cert.HF
-- ==== Proof.Bridge.lean ====
/-
  On graph ids in [0, 4096) the two programs' results are one term: the clip of the ids is the identity, the
  wrap of negative ids is the identity, and the masked read-back is the plain row gather; the dimension
  records of the two programs are the same records.
-/
import proofs.«424516_j14181982011740_3_alg».proof.Proof.KRecs
import proofs.«424516_j14181982011740_3_alg».proof.Proof.IndexRange

noncomputable section

namespace Cert.Bridge

open Idealize.ShloMosaic
open Cert.KernelIdeal.Val

/-- The reference's result term (records R, the raw ids as the scatter column, the row gather at the wrapped
    ids) is the kernel program's (the clipped ids, the masked read-back) when every id is in [0, 4096). -/
theorem out_bridge (R : Cert.HF.Recs) (hR : R = KR)
    (gd : GatherDims (Cert.HF.M2 4096 5) (Cert.HF.M2 1048576 1) (Cert.HF.M2 1048576 5)) (hgd : gd = Kgd)
    (hbc : (Cert.HF.V1 1048576).BroadcastsInDim (Cert.HF.M2 1048576 1) (![0] : Fin 1 → Fin (Cert.HF.M2 1048576 1).rank))
    (hb : Cert.HF.S0.BroadcastsInDim (Cert.HF.V1 1048576) (![] : Fin 0 → Fin (Cert.HF.V1 1048576).rank))
    (a1 : IVec (Cert.HF.V1 1048576) 32) (h : ∀ i, 0 ≤ (a1 i).toInt ∧ (a1 i).toInt < 4096)
    (a0 : Spec.Arr 1048576 64) (a2 : Spec.Arr 64 40) (a3 : Spec.Arr 40 4) (a4 : Spec.Arr 4 40) (a5 : Spec.Arr 40 5) (a6 : Spec.Arr 9 40) (a7 : Spec.Arr 40 64) (a8 : Spec.Arr 64 40) (a9 : Spec.Arr 40 4) (a10 : Spec.Arr 4 40) (a11 : Spec.Arr 40 5) (a12 : Spec.Arr 9 40) (a13 : Spec.Arr 40 64) (a14 : Spec.Arr 64 40) (a15 : Spec.Arr 40 1) :
    Cert.HF.out R (Cert.HF.colV hbc a1) (fun g => Host.gather gd g (Cert.HF.colV hbc (Cert.HF.normV hb a1))) a0 a2 a3 a4 a5 a6 a7 a8 a9 a10 a11 a12 a13 a14 a15
      = Cert.HF.out KR (Cert.HF.colV KT.hbc (Cert.HF.clipV KT.hb a1))
          (fun g => Cert.HF.takeV KT Kgd g (Cert.HF.clipV KT.hb a1)) a0 a2 a3 a4 a5 a6 a7 a8 a9 a10 a11 a12 a13 a14 a15 := by
  subst hR hgd
  have h1 : Cert.HF.clipV KT.hb a1 = a1 := Cert.HF.clipV_eq _ _ h
  have h2 : Cert.HF.normV hb a1 = a1 := Cert.HF.normV_eq _ _ (fun i => (h i).1)
  have h3 : (fun g : FVec Ideal (Cert.HF.M2 4096 5) .f32 => Cert.HF.takeV KT Kgd g a1)
      = fun g => Host.gather Kgd g (Cert.HF.colV KT.hbc a1) := funext fun g => Cert.HF.takeV_eq KT Kgd g a1 h
  rw [h1, h2, h3]

/-- The same with the reference's own argument arrays b, equal to the kernel program's a. -/
theorem out_bridge' (R : Cert.HF.Recs) (hR : R = KR)
    (gd : GatherDims (Cert.HF.M2 4096 5) (Cert.HF.M2 1048576 1) (Cert.HF.M2 1048576 5)) (hgd : gd = Kgd)
    (hbc : (Cert.HF.V1 1048576).BroadcastsInDim (Cert.HF.M2 1048576 1) (![0] : Fin 1 → Fin (Cert.HF.M2 1048576 1).rank))
    (hb : Cert.HF.S0.BroadcastsInDim (Cert.HF.V1 1048576) (![] : Fin 0 → Fin (Cert.HF.V1 1048576).rank))
    (a1 b1 : IVec (Cert.HF.V1 1048576) 32) (h : ∀ i, 0 ≤ (a1 i).toInt ∧ (a1 i).toInt < 4096)
    (a0 : Spec.Arr 1048576 64) (a2 : Spec.Arr 64 40) (a3 : Spec.Arr 40 4) (a4 : Spec.Arr 4 40) (a5 : Spec.Arr 40 5) (a6 : Spec.Arr 9 40) (a7 : Spec.Arr 40 64) (a8 : Spec.Arr 64 40) (a9 : Spec.Arr 40 4) (a10 : Spec.Arr 4 40) (a11 : Spec.Arr 40 5) (a12 : Spec.Arr 9 40) (a13 : Spec.Arr 40 64) (a14 : Spec.Arr 64 40) (a15 : Spec.Arr 40 1)
    (b0 : Spec.Arr 1048576 64) (b2 : Spec.Arr 64 40) (b3 : Spec.Arr 40 4) (b4 : Spec.Arr 4 40) (b5 : Spec.Arr 40 5) (b6 : Spec.Arr 9 40) (b7 : Spec.Arr 40 64) (b8 : Spec.Arr 64 40) (b9 : Spec.Arr 40 4) (b10 : Spec.Arr 4 40) (b11 : Spec.Arr 40 5) (b12 : Spec.Arr 9 40) (b13 : Spec.Arr 40 64) (b14 : Spec.Arr 64 40) (b15 : Spec.Arr 40 1)
    (e1 : b1 = a1) (e0 : b0 = a0) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) :
    Cert.HF.out R (Cert.HF.colV hbc b1) (fun g => Host.gather gd g (Cert.HF.colV hbc (Cert.HF.normV hb b1))) b0 b2 b3 b4 b5 b6 b7 b8 b9 b10 b11 b12 b13 b14 b15
      = Cert.HF.out KR (Cert.HF.colV KT.hbc (Cert.HF.clipV KT.hb a1))
          (fun g => Cert.HF.takeV KT Kgd g (Cert.HF.clipV KT.hb a1)) a0 a2 a3 a4 a5 a6 a7 a8 a9 a10 a11 a12 a13 a14 a15 := by
  subst e1 e0 e2 e3 e4 e5 e6 e7 e8 e9 e10 e11 e12 e13 e14 e15
  exact out_bridge R hR gd hgd hbc hb b1 h b0 b2 b3 b4 b5 b6 b7 b8 b9 b10 b11 b12 b13 b14 b15

end Cert.Bridge

end
-- ==== Proof.PreRange.lean ====
/-
  What the precondition says of the graph ids: every id lies in [0, 4096).

  The precondition is a conjunction, built by and from the left; its last conjunct is the reduction by and, over all
  ids, of (id ≥ 0) and (id < 4096). If the whole is 1, that reduction is 1, so the test is 1 at every id, and the two
  signed comparisons read back as the two bounds.
-/
import Idealize.ShloMosaic.PureOps.Ideal
import Idealize.ShloMosaic.Lib.ValueIdx
import Idealize.ShloMosaic.Lib.ReduceAll
import proofs.«424516_j14181982011740_3_alg».proof.Pre_finite_inputs

namespace Cert.PreRange

open Idealize.ShloMosaic
open Idealize.ShloMosaic.ValueIdx
open Cert.Pre_finite_inputs

/-- The scalar shape has one index. -/
local instance : Subsingleton S_.Idx := ⟨fun a b => funext fun d => d.elim0⟩

theorem toInt_zero32 : (0#32 : BitVec 32).toInt = 0 := by decide
theorem toInt_4096 : (4096#32 : BitVec 32).toInt = 4096 := by decide

/-- Under the precondition every graph id lies in [0, 4096). -/
theorem batch_range [hP : Cert.Pre_finite_inputs.Facts]
    (a0 : FVec Ideal S1048576x64 .f32) (a1 : IVec S1048576 32) (a2 : FVec Ideal S64x40 .f32) (a3 : FVec Ideal S40x4 .f32)
    (a4 : FVec Ideal S4x40 .f32) (a5 : FVec Ideal S40x5 .f32) (a6 : FVec Ideal S9x40 .f32) (a7 : FVec Ideal S40x64 .f32)
    (a8 : FVec Ideal S64x40 .f32) (a9 : FVec Ideal S40x4 .f32) (a10 : FVec Ideal S4x40 .f32) (a11 : FVec Ideal S40x5 .f32)
    (a12 : FVec Ideal S9x40 .f32) (a13 : FVec Ideal S40x64 .f32) (a14 : FVec Ideal S64x40 .f32) (a15 : FVec Ideal S40x1 .f32)
    (h : Cert.Pre_finite_inputs.fn (F := Ideal) a0 a1 a2 a3 a4 a5 a6 a7 a8 a9 a10 a11 a12 a13 a14 a15 = fun _ => 1#1) :
    ∀ i, 0 ≤ (a1 i).toInt ∧ (a1 i).toInt < 4096 := by
  have h0 := congrFun h ix0
  obtain ⟨c, hc⟩ : ∃ c : BitVec 1, Cert.Pre_finite_inputs.fn (F := Ideal) a0 a1 a2 a3 a4 a5 a6 a7 a8 a9 a10 a11 a12 a13 a14 a15 ix0
      = IntOp.andi c (Host.reduce IntOp.andi
          (andi (cmpi .sge a1 (broadcastInDim S1048576 ![] Facts.bcast_S_S1048576 (constantI S_ 32 0#32)))
            (cmpi .slt a1 (broadcastInDim S1048576 ![] Facts.bcast_S_S1048576 (constantI S_ 32 4096#32))))
          (constantI S_ 1 1#1) Facts.reducesTo_S1048576_S_d0 Facts.h_S_ ix0) := ⟨_, rfl⟩
  rw [hc] at h0
  have hred := (IntOp.andi_eq_one.1 h0).2
  intro i
  have hi := Host.reduce_andi_all _ _ _ _ _ hred i
  have hi' : IntOp.andi (IntOp.cmpi .sge (a1 i) 0#32) (IntOp.cmpi .slt (a1 i) 4096#32) = 1#1 := hi
  obtain ⟨h1, h2⟩ := IntOp.andi_eq_one.1 hi'
  have b1 := IntOp.cmpi_sge.1 h1
  have b2 := IntOp.cmpi_slt.1 h2
  rw [toInt_zero32] at b1
  rw [toInt_4096] at b2
  exact ⟨b1, b2⟩

end Cert.PreRange
-- ==== Proof.lean ====
/-
  The certificate of the message-passing kernel against its jnp reference, over the extended reals.

  Three pallas_calls (the per-node latent e written transposed; the fused node update of round 0, which also
  writes round 1's latent; the node update of round 1) sit between host steps — the clip of the graph ids, the
  scatter-add of the latents by graph id, the two-layer per-graph network, the read-back at each node's id —
  and the reference computes the same quantities with host operations only. Under the precondition (finite
  float inputs, graph ids in [0, 4096)) both programs end with the same [4096, 1] result:
    * per node, each kernel's block arithmetic is the latent e and the update x + (x + lrelu ([e | g] · ow1) · ow2)
      of Spec.lean at the block's rows (2·x is x + x on every extended real; the product against ow1 split into
      its first four and last five rows is a nine-term sum split in two; the latent written transposed and read
      back transposed is the latent), so each region's output array is that function of its input arrays;
    * the graph-level host steps are the same operations in both programs, carried as named functions;
    * on ids in range the clip is the identity, the wrap of negative ids is the identity, and the kernel
      program's masked read-back is the plain row gather the reference uses.
  The frames of the two kernel programs are the generated ones; the reference's frame is its run with the result
  dropped; the idealization rewrote nothing, so its preservation is trivial.
-/
import proofs.«424516_j14181982011740_3_alg».proof.Defs
import proofs.«424516_j14181982011740_3_alg».proof.Proof.Gen.Kernel.Frame
import proofs.«424516_j14181982011740_3_alg».proof.Proof.Gen.KernelIdeal.Frame
import proofs.«424516_j14181982011740_3_alg».proof.Proof.Gen.ReferenceIdeal
import proofs.«424516_j14181982011740_3_alg».proof.Proof.Gen.Pre_finite_inputs
import proofs.«424516_j14181982011740_3_alg».proof.Proof.KRun
import proofs.«424516_j14181982011740_3_alg».proof.Proof.KValue
import proofs.«424516_j14181982011740_3_alg».proof.Proof.RRun
import proofs.«424516_j14181982011740_3_alg».proof.Proof.RValue
import proofs.«424516_j14181982011740_3_alg».proof.Proof.Bridge
import proofs.«424516_j14181982011740_3_alg».proof.Proof.PreRange
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run, every buffer at the operations' fold over the launch
    contents, read at the sixteen argument buffers, which no operation writes. -/
theorem frame_ri : Cert.frame_ReferenceIdeal := fun m ρ _ =>
  (θ_run Cert.ReferenceIdeal.defs _ _).mono
    (fun r h c => ⟨(h c _).trans (Cert.ReferenceIdeal.RefValue.ref_arg0 _),
      (h c _).trans (Cert.ReferenceIdeal.RefValue.ref_arg1 _),
      (h c _).trans (Cert.ReferenceIdeal.RefValue.ref_arg2 _),
      (h c _).trans (Cert.ReferenceIdeal.RefValue.ref_arg3 _),
      (h c _).trans (Cert.ReferenceIdeal.RefValue.ref_arg4 _),
      (h c _).trans (Cert.ReferenceIdeal.RefValue.ref_arg5 _),
      (h c _).trans (Cert.ReferenceIdeal.RefValue.ref_arg6 _),
      (h c _).trans (Cert.ReferenceIdeal.RefValue.ref_arg7 _),
      (h c _).trans (Cert.ReferenceIdeal.RefValue.ref_arg8 _),
      (h c _).trans (Cert.ReferenceIdeal.RefValue.ref_arg9 _),
      (h c _).trans (Cert.ReferenceIdeal.RefValue.ref_arg10 _),
      (h c _).trans (Cert.ReferenceIdeal.RefValue.ref_arg11 _),
      (h c _).trans (Cert.ReferenceIdeal.RefValue.ref_arg12 _),
      (h c _).trans (Cert.ReferenceIdeal.RefValue.ref_arg13 _),
      (h c _).trans (Cert.ReferenceIdeal.RefValue.ref_arg14 _),
      (h c _).trans (Cert.ReferenceIdeal.RefValue.ref_arg15 _)⟩)
    (Cert.ReferenceIdeal.RefRun.run_main (F := Ideal) m ρ)

/-- Both idealized programs, from memories that agree on the arguments, end with the same result: the kernel
    program's result term (its run with the result named, then the walk back through its host stretches and
    regions), which the reference's result term (its run, then its operations read off) equals on ids in
    range — the range read out of the precondition. -/
theorem algebraic : Cert.algebraic_KernelIdeal_ReferenceIdeal := by
  intro m ρ m' ρ' hpre hagree
  refine ⟨fun c => Cert.KernelIdeal.Val.KOut m c, ?_, ?_⟩
  · exact (θ_run Cert.KernelIdeal.defs _ _).mono
      (fun r h c => ⟨(h c).1.trans (Cert.KernelIdeal.Val.kernel_value m ρ c), (h c).2⟩)
      (Cert.KernelIdeal.Gen.run_result (F := Ideal) m ρ)
  · refine (θ_run Cert.ReferenceIdeal.defs _ _).mono (fun r h c => ⟨?_, ?_⟩)
      (Cert.ReferenceIdeal.RefRun.run_main (F := Ideal) m' ρ')
    · refine (h c Cert.ReferenceIdeal.main_v53).trans ((Cert.ReferenceIdeal.RefValue.ref_value _).trans ?_)
      exact Cert.Bridge.out_bridge' Cert.ReferenceIdeal.RefValue.RR rfl Cert.ReferenceIdeal.RefValue.Rgd rfl _ _
        (m ((c.tc : Thread Cert.KernelIdeal.nD Cert.KernelIdeal.τ).loc Cert.KernelIdeal.main_arg1)) _
        (Cert.PreRange.batch_range _ _ _ _ _ _ _ _ _ _ _ _ _ _ _ _ (hpre c))
        (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
        _ _ _ _ _ _ _ _ _ _ _ _ _ _ _
        (hagree c).2.1 (hagree c).1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2
    · exact ⟨(h c _).trans (Cert.ReferenceIdeal.RefValue.ref_arg0 _),
        (h c _).trans (Cert.ReferenceIdeal.RefValue.ref_arg1 _),
        (h c _).trans (Cert.ReferenceIdeal.RefValue.ref_arg2 _),
        (h c _).trans (Cert.ReferenceIdeal.RefValue.ref_arg3 _),
        (h c _).trans (Cert.ReferenceIdeal.RefValue.ref_arg4 _),
        (h c _).trans (Cert.ReferenceIdeal.RefValue.ref_arg5 _),
        (h c _).trans (Cert.ReferenceIdeal.RefValue.ref_arg6 _),
        (h c _).trans (Cert.ReferenceIdeal.RefValue.ref_arg7 _),
        (h c _).trans (Cert.ReferenceIdeal.RefValue.ref_arg8 _),
        (h c _).trans (Cert.ReferenceIdeal.RefValue.ref_arg9 _),
        (h c _).trans (Cert.ReferenceIdeal.RefValue.ref_arg10 _),
        (h c _).trans (Cert.ReferenceIdeal.RefValue.ref_arg11 _),
        (h c _).trans (Cert.ReferenceIdeal.RefValue.ref_arg12 _),
        (h c _).trans (Cert.ReferenceIdeal.RefValue.ref_arg13 _),
        (h c _).trans (Cert.ReferenceIdeal.RefValue.ref_arg14 _),
        (h c _).trans (Cert.ReferenceIdeal.RefValue.ref_arg15 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
